-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S50000x64 : Shape := ⟨2, ![50000, 64]⟩
abbrev S22000x64 : Shape := ⟨2, ![22000, 64]⟩
abbrev S4000x64 : Shape := ⟨2, ![4000, 64]⟩
abbrev S1000x64 : Shape := ⟨2, ![1000, 64]⟩
abbrev S50000x1 : Shape := ⟨2, ![50000, 1]⟩
abbrev S22000x1 : Shape := ⟨2, ![22000, 1]⟩
abbrev S1x1 : Shape := ⟨2, ![1, 1]⟩
abbrev S50000x3 : Shape := ⟨2, ![50000, 3]⟩
abbrev S20000x3 : Shape := ⟨2, ![20000, 3]⟩
abbrev S100000x4 : Shape := ⟨2, ![100000, 4]⟩
abbrev S500000 : Shape := ⟨1, ![500000]⟩
abbrev S_ : Shape := ⟨0, ![]⟩
abbrev S100000x3 : Shape := ⟨2, ![100000, 3]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S22000x64 : S_.BroadcastsInDim S22000x64 (![] : Fin 0 → Fin S22000x64.rank)
  reducesTo_S22000x64_S_d0_1 : S22000x64.ReducesTo [0, 1] S_
  bcast_S_S4000x64 : S_.BroadcastsInDim S4000x64 (![] : Fin 0 → Fin S4000x64.rank)
  reducesTo_S4000x64_S_d0_1 : S4000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S50000x1 : S_.BroadcastsInDim S50000x1 (![] : Fin 0 → Fin S50000x1.rank)
  reducesTo_S50000x1_S_d0_1 : S50000x1.ReducesTo [0, 1] S_
  bcast_S_S22000x1 : S_.BroadcastsInDim S22000x1 (![] : Fin 0 → Fin S22000x1.rank)
  reducesTo_S22000x1_S_d0_1 : S22000x1.ReducesTo [0, 1] S_
  bcast_S_S1x1 : S_.BroadcastsInDim S1x1 (![] : Fin 0 → Fin S1x1.rank)
  reducesTo_S1x1_S_d0_1 : S1x1.ReducesTo [0, 1] S_
  bcast_S_S50000x3 : S_.BroadcastsInDim S50000x3 (![] : Fin 0 → Fin S50000x3.rank)
  reducesTo_S50000x3_S_d0_1 : S50000x3.ReducesTo [0, 1] S_
  bcast_S_S20000x3 : S_.BroadcastsInDim S20000x3 (![] : Fin 0 → Fin S20000x3.rank)
  reducesTo_S20000x3_S_d0_1 : S20000x3.ReducesTo [0, 1] S_
  slices_S100000x4_S100000x3_0_0 : S100000x4.Slices ![0, 0] S100000x3
  bcast_S_S100000x3 : S_.BroadcastsInDim S100000x3 (![] : Fin 0 → Fin S100000x3.rank)
  reducesTo_S100000x3_S_d0_1 : S100000x3.ReducesTo [0, 1] S_

variable [Facts]

def fn_part3 {F : FTy → Type} [FloatOps F] (main_arg12 : IVec S20000x3 32) (main_arg13 : IVec S100000x4 32) (main_v46 : IVec S_ 1) (main_v49 : IVec S_ 1) : IVec S_ 1 :=
  let main_v50 : IVec S_ 1 := andi main_v46 main_v49
  let main_c_20 : IVec S_ 32 := constantI S_ 32 4000#32
  let main_v51 : IVec S20000x3 32 := broadcastInDim S20000x3 ![] bcast_S_S20000x3 main_c_20
  let main_v52 : IVec S20000x3 1 := cmpi .slt main_arg12 main_v51
  let main_c_21 : IVec S_ 1 := constantI S_ 1 1#1
  let main_v53 : IVec S_ 1 := (fun x v => Host.reduce IntOp.andi x v reducesTo_S20000x3_S_d0_1 h_S_) main_v52 main_c_21
  let main_v54 : IVec S_ 1 := andi main_v50 main_v53
  let main_v55 : IVec S100000x3 32 := (extractStridedSlice S100000x3 ![0, 0] · slices_S100000x4_S100000x3_0_0) main_arg13
  let main_c_22 : IVec S_ 32 := constantI S_ 32 0#32
  let main_v56 : IVec S100000x3 32 := broadcastInDim S100000x3 ![] bcast_S_S100000x3 main_c_22
  let main_v57 : IVec S100000x3 1 := cmpi .sge main_v55 main_v56
  let main_c_23 : IVec S_ 1 := constantI S_ 1 1#1
  let main_v58 : IVec S_ 1 := (fun x v => Host.reduce IntOp.andi x v reducesTo_S100000x3_S_d0_1 h_S_) main_v57 main_c_23
  let main_v59 : IVec S_ 1 := andi main_v54 main_v58
  let main_v60 : IVec S100000x3 32 := (extractStridedSlice S100000x3 ![0, 0] · slices_S100000x4_S100000x3_0_0) main_arg13
  let main_c_24 : IVec S_ 32 := constantI S_ 32 1000#32
  let main_v61 : IVec S100000x3 32 := broadcastInDim S100000x3 ![] bcast_S_S100000x3 main_c_24
  let main_v62 : IVec S100000x3 1 := cmpi .slt main_v60 main_v61
  let main_c_25 : IVec S_ 1 := constantI S_ 1 1#1
  let main_v63 : IVec S_ 1 := (fun x v => Host.reduce IntOp.andi x v reducesTo_S100000x3_S_d0_1 h_S_) main_v62 main_c_25
  let main_v64 : IVec S_ 1 := andi main_v59 main_v63
  main_v64

def fn_part2 {F : FTy → Type} [FloatOps F] (main_arg10 : FVec F S1x1 .f32) (main_arg11 : IVec S50000x3 32) (main_arg12 : IVec S20000x3 32) (main_arg13 : IVec S100000x4 32) (main_v33 : IVec S_ 1) : IVec S_ 1 :=
  let main_v34 : FVec F S1x1 .f32 := Host.absf main_arg10
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_c_14 : IVec S_ 32 := constantI S_ 32 0#32
  let main_v39 : IVec S50000x3 32 := broadcastInDim S50000x3 ![] bcast_S_S50000x3 main_c_14
  let main_v40 : IVec S50000x3 1 := cmpi .sge main_arg11 main_v39
  let main_c_15 : IVec S_ 1 := constantI S_ 1 1#1
  let main_v41 : IVec S_ 1 := (fun x v => Host.reduce IntOp.andi x v reducesTo_S50000x3_S_d0_1 h_S_) main_v40 main_c_15
  let main_v42 : IVec S_ 1 := andi main_v38 main_v41
  let main_c_16 : IVec S_ 32 := constantI S_ 32 4000#32
  let main_v43 : IVec S50000x3 32 := broadcastInDim S50000x3 ![] bcast_S_S50000x3 main_c_16
  let main_v44 : IVec S50000x3 1 := cmpi .slt main_arg11 main_v43
  let main_c_17 : IVec S_ 1 := constantI S_ 1 1#1
  let main_v45 : IVec S_ 1 := (fun x v => Host.reduce IntOp.andi x v reducesTo_S50000x3_S_d0_1 h_S_) main_v44 main_c_17
  let main_v46 : IVec S_ 1 := andi main_v42 main_v45
  let main_c_18 : IVec S_ 32 := constantI S_ 32 0#32
  let main_v47 : IVec S20000x3 32 := broadcastInDim S20000x3 ![] bcast_S_S20000x3 main_c_18
  let main_v48 : IVec S20000x3 1 := cmpi .sge main_arg12 main_v47
  let main_c_19 : IVec S_ 1 := constantI S_ 1 1#1
  let main_v49 : IVec S_ 1 := (fun x v => Host.reduce IntOp.andi x v reducesTo_S20000x3_S_d0_1 h_S_) main_v48 main_c_19
  fn_part3 (F := F) main_arg12 main_arg13 main_v46 main_v49

def fn_part1 {F : FTy → Type} [FloatOps F] (main_arg7 : FVec F S1000x64 .f32) (main_arg8 : FVec F S50000x1 .f32) (main_arg9 : FVec F S22000x1 .f32) (main_arg10 : FVec F S1x1 .f32) (main_arg11 : IVec S50000x3 32) (main_arg12 : IVec S20000x3 32) (main_arg13 : IVec S100000x4 32) (main_v13 : IVec S_ 1) (main_v16 : IVec S4000x64 1) : IVec S_ 1 :=
  let main_c_5 : IVec S_ 1 := constantI S_ 1 1#1
  let main_v17 : IVec S_ 1 := (fun x v => Host.reduce IntOp.andi x v reducesTo_S4000x64_S_d0_1 h_S_) main_v16 main_c_5
  let main_v18 : IVec S_ 1 := andi main_v13 main_v17
  let main_v19 : FVec F S1000x64 .f32 := Host.absf main_arg7
  let main_cst_6 : FVec F S_ .f32 := constant S_ .f32 0x7F800000#32
  let main_v20 : FVec F S1000x64 .f32 := broadcastInDim S1000x64 ![] bcast_S_S1000x64 main_cst_6
  let main_v21 : IVec S1000x64 1 := cmpf .olt main_v19 main_v20
  let main_c_7 : IVec S_ 1 := constantI S_ 1 1#1
  let main_v22 : IVec S_ 1 := (fun x v => Host.reduce IntOp.andi x v reducesTo_S1000x64_S_d0_1 h_S_) main_v21 main_c_7
  let main_v23 : IVec S_ 1 := andi main_v18 main_v22
  let main_v24 : FVec F S50000x1 .f32 := Host.absf main_arg8
  let main_cst_8 : FVec F S_ .f32 := constant S_ .f32 0x7F800000#32
  let main_v25 : FVec F S50000x1 .f32 := broadcastInDim S50000x1 ![] bcast_S_S50000x1 main_cst_8
  let main_v26 : IVec S50000x1 1 := cmpf .olt main_v24 main_v25
  let main_c_9 : IVec S_ 1 := constantI S_ 1 1#1
  let main_v27 : IVec S_ 1 := (fun x v => Host.reduce IntOp.andi x v reducesTo_S50000x1_S_d0_1 h_S_) main_v26 main_c_9
  let main_v28 : IVec S_ 1 := andi main_v23 main_v27
  let main_v29 : FVec F S22000x1 .f32 := Host.absf main_arg9
  let main_cst_10 : FVec F S_ .f32 := constant S_ .f32 0x7F800000#32
  let main_v30 : FVec F S22000x1 .f32 := broadcastInDim S22000x1 ![] bcast_S_S22000x1 main_cst_10
  let main_v31 : IVec S22000x1 1 := cmpf .olt main_v29 main_v30
  let main_c_11 : IVec S_ 1 := constantI S_ 1 1#1
  let main_v32 : IVec S_ 1 := (fun x v => Host.reduce IntOp.andi x v reducesTo_S22000x1_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S4096 32) (main_arg1 : IVec S4096 32) (main_arg2 : IVec S4096 32) (main_arg3 : FVec F S50000x64 .f32) (main_arg4 : FVec F S22000x64 .f32) (main_arg5 : FVec F S4000x64 .f32) (main_arg6 : FVec F S4000x64 .f32) (main_arg7 : FVec F S1000x64 .f32) (main_arg8 : FVec F S50000x1 .f32) (main_arg9 : FVec F S22000x1 .f32) (main_arg10 : FVec F S1x1 .f32) (main_arg11 : IVec S50000x3 32) (main_arg12 : IVec S20000x3 32) (main_arg13 : IVec S100000x4 32) (main_arg14 : IVec S500000 32) (main_arg15 : IVec S500000 32) (main_arg16 : IVec S500000 32) : IVec S_ 1 :=
  let main_v0 : FVec F S50000x64 .f32 := Host.absf main_arg3
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S22000x64 .f32 := Host.absf main_arg4
  let main_cst_0 : FVec F S_ .f32 := constant S_ .f32 0x7F800000#32
  let main_v5 : FVec F S22000x64 .f32 := broadcastInDim S22000x64 ![] bcast_S_S22000x64 main_cst_0
  let main_v6 : IVec S22000x64 1 := cmpf .olt main_v4 main_v5
  let main_c_1 : IVec S_ 1 := constantI S_ 1 1#1
  let main_v7 : IVec S_ 1 := (fun x v => Host.reduce IntOp.andi x v reducesTo_S22000x64_S_d0_1 h_S_) main_v6 main_c_1
  let main_v8 : IVec S_ 1 := andi main_v3 main_v7
  let main_v9 : FVec F S4000x64 .f32 := Host.absf main_arg5
  let main_cst_2 : FVec F S_ .f32 := constant S_ .f32 0x7F800000#32
  let main_v10 : FVec F S4000x64 .f32 := broadcastInDim S4000x64 ![] bcast_S_S4000x64 main_cst_2
  let main_v11 : IVec S4000x64 1 := cmpf .olt main_v9 main_v10
  let main_c_3 : IVec S_ 1 := constantI S_ 1 1#1
  let main_v12 : IVec S_ 1 := (fun x v => Host.reduce IntOp.andi x v reducesTo_S4000x64_S_d0_1 h_S_) main_v11 main_c_3
  let main_v13 : IVec S_ 1 := andi main_v8 main_v12
  let main_v14 : FVec F S4000x64 .f32 := Host.absf main_arg6
  let main_cst_4 : FVec F S_ .f32 := constant S_ .f32 0x7F800000#32
  let main_v15 : FVec F S4000x64 .f32 := broadcastInDim S4000x64 ![] bcast_S_S4000x64 main_cst_4
  let main_v16 : IVec S4000x64 1 := cmpf .olt main_v14 main_v15
  fn_part1 (F := F) main_arg7 main_arg8 main_arg9 main_arg10 main_arg11 main_arg12 main_arg13 main_v13 main_v16
-- ==== Kernel.lean ====
abbrev S4096 : Shape := ⟨1, ![4096]⟩
abbrev S50000x64 : Shape := ⟨2, ![50000, 64]⟩
abbrev S22000x64 : Shape := ⟨2, ![22000, 64]⟩
abbrev S4000x64 : Shape := ⟨2, ![4000, 64]⟩
abbrev S1000x64 : Shape := ⟨2, ![1000, 64]⟩
abbrev S50000x1 : Shape := ⟨2, ![50000, 1]⟩
abbrev S22000x1 : Shape := ⟨2, ![22000, 1]⟩
abbrev S1x1 : Shape := ⟨2, ![1, 1]⟩
abbrev S50000x3 : Shape := ⟨2, ![50000, 3]⟩
abbrev S20000x3 : Shape := ⟨2, ![20000, 3]⟩
abbrev S100000x4 : Shape := ⟨2, ![100000, 4]⟩
abbrev S500000 : Shape := ⟨1, ![500000]⟩
abbrev S_ : Shape := ⟨0, ![]⟩
abbrev S400x64 : Shape := ⟨2, ![400, 64]⟩
abbrev S400x3 : Shape := ⟨2, ![400, 3]⟩
abbrev S400x4000 : Shape := ⟨2, ![400, 4000]⟩
abbrev S400x1 : Shape := ⟨2, ![400, 1]⟩
abbrev S20000x64 : Shape := ⟨2, ![20000, 64]⟩
abbrev S100000x1 : Shape := ⟨2, ![100000, 1]⟩
abbrev S100000 : Shape := ⟨1, ![100000]⟩
abbrev S100000x64 : Shape := ⟨2, ![100000, 64]⟩
abbrev S100000x3 : Shape := ⟨2, ![100000, 3]⟩
abbrev S2000x64 : Shape := ⟨2, ![2000, 64]⟩
abbrev S2000x3 : Shape := ⟨2, ![2000, 3]⟩
abbrev S2000x1000 : Shape := ⟨2, ![2000, 1000]⟩
abbrev S2000x1 : Shape := ⟨2, ![2000, 1]⟩
abbrev S500000x1 : Shape := ⟨2, ![500000, 1]⟩
abbrev S500000x64 : Shape := ⟨2, ![500000, 64]⟩
abbrev S4096x1 : Shape := ⟨2, ![4096, 1]⟩
abbrev S4096x4 : Shape := ⟨2, ![4096, 4]⟩
abbrev S4096x3 : Shape := ⟨2, ![4096, 3]⟩
abbrev S4096x3x1 : Shape := ⟨3, ![4096, 3, 1]⟩
abbrev S4096x3x64 : Shape := ⟨3, ![4096, 3, 64]⟩
abbrev S4096x64 : Shape := ⟨2, ![4096, 64]⟩
abbrev S4096x1x64 : Shape := ⟨3, ![4096, 1, 64]⟩
abbrev S4096x4x64 : Shape := ⟨3, ![4096, 4, 64]⟩
abbrev S4096x6x64 : Shape := ⟨3, ![4096, 6, 64]⟩
abbrev S1024x6x64 : Shape := ⟨3, ![1024, 6, 64]⟩
abbrev S1024x1 : Shape := ⟨2, ![1024, 1]⟩
abbrev S1024x64 : Shape := ⟨2, ![1024, 64]⟩
abbrev S1024 : Shape := ⟨1, ![1024]⟩

abbrev nBuf : Space → Nat
  | .hbm => 221
  | .vmem => 28
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S50000x64, .f32⟩
  | 4 => ⟨S22000x64, .f32⟩
  | 5 => ⟨S4000x64, .f32⟩
  | 6 => ⟨S4000x64, .f32⟩
  | 7 => ⟨S1000x64, .f32⟩
  | 8 => ⟨S50000x1, .f32⟩
  | 9 => ⟨S22000x1, .f32⟩
  | 10 => ⟨S1x1, .f32⟩
  | 11 => ⟨S50000x3, .i32⟩
  | 12 => ⟨S20000x3, .i32⟩
  | 13 => ⟨S100000x4, .i32⟩
  | 14 => ⟨S500000, .i32⟩
  | 15 => ⟨S500000, .i32⟩
  | 16 => ⟨S500000, .i32⟩
  | 17 => ⟨S_, .i32⟩
  | 18 => ⟨S_, .i32⟩
  | 19 => ⟨S_, .i32⟩
  | 20 => ⟨S50000x3, .i32⟩
  | 21 => ⟨S50000x3, .i32⟩
  | 22 => ⟨S_, .i32⟩
  | 23 => ⟨S50000x3, .i32⟩
  | 24 => ⟨S50000x3, .i32⟩
  | 25 => ⟨S4000x64, .bf16⟩
  | 26 => ⟨S50000x64, .f32⟩
  | 27 => ⟨S20000x64, .f32⟩
  | 28 => ⟨S_, .i32⟩
  | 29 => ⟨S_, .i32⟩
  | 30 => ⟨S_, .i32⟩
  | 31 => ⟨S20000x3, .i32⟩
  | 32 => ⟨S20000x3, .i32⟩
  | 33 => ⟨S_, .i32⟩
  | 34 => ⟨S20000x3, .i32⟩
  | 35 => ⟨S20000x3, .i32⟩
  | 36 => ⟨S4000x64, .bf16⟩
  | 37 => ⟨S20000x64, .f32⟩
  | 38 => ⟨S100000x1, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x64, .f32⟩
  | 49 => ⟨S100000x3, .i32⟩
  | 50 => ⟨S_, .i32⟩
  | 51 => ⟨S_, .i32⟩
  | 52 => ⟨S_, .i32⟩
  | 53 => ⟨S100000x3, .i32⟩
  | 54 => ⟨S100000x3, .i32⟩
  | 55 => ⟨S_, .i32⟩
  | 56 => ⟨S100000x3, .i32⟩
  | 57 => ⟨S100000x3, .i32⟩
  | 58 => ⟨S1000x64, .bf16⟩
  | 59 => ⟨S100000x64, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x64, .f32⟩
  | 69 => ⟨S_, .f32⟩
  | 70 => ⟨S50000x64, .f32⟩
  | 71 => ⟨S50000x64, .f32⟩
  | 72 => ⟨S_, .f32⟩
  | 73 => ⟨S20000x64, .f32⟩
  | 74 => ⟨S20000x64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x64, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x64, .f32⟩
  | 93 => ⟨S500000x64, .f32⟩
  | 94 => ⟨S_, .f32⟩
  | 95 => ⟨S50000x64, .f32⟩
  | 96 => ⟨S500000x1, .i32⟩
  | 97 => ⟨S50000x64, .f32⟩
  | 98 => ⟨S500000x64, .f32⟩
  | 99 => ⟨S_, .f32⟩
  | 100 => ⟨S20000x64, .f32⟩
  | 101 => ⟨S500000x1, .i32⟩
  | 102 => ⟨S20000x64, .f32⟩
  | 103 => ⟨S_, .f32⟩
  | 104 => ⟨S50000x64, .f32⟩
  | 105 => ⟨S50000x64, .f32⟩
  | 106 => ⟨S50000x64, .f32⟩
  | 107 => ⟨S_, .f32⟩
  | 108 => ⟨S20000x64, .f32⟩
  | 109 => ⟨S20000x64, .f32⟩
  | 110 => ⟨S20000x64, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x64, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S4096, .i32⟩

abbrev hbmTy0_1 (i : Nat) : BufTy := match i % 128 with
  | 0 => ⟨S500000x64, .f32⟩
  | 1 => ⟨S500000x64, .f32⟩
  | 2 => ⟨S_, .f32⟩
  | 3 => ⟨S50000x64, .f32⟩
  | 4 => ⟨S500000x1, .i32⟩
  | 5 => ⟨S50000x64, .f32⟩
  | 6 => ⟨S500000x64, .f32⟩
  | 7 => ⟨S_, .f32⟩
  | 8 => ⟨S20000x64, .f32⟩
  | 9 => ⟨S500000x1, .i32⟩
  | 10 => ⟨S20000x64, .f32⟩
  | 11 => ⟨S_, .f32⟩
  | 12 => ⟨S50000x64, .f32⟩
  | 13 => ⟨S50000x64, .f32⟩
  | 14 => ⟨S50000x64, .f32⟩
  | 15 => ⟨S_, .f32⟩
  | 16 => ⟨S20000x64, .f32⟩
  | 17 => ⟨S20000x64, .f32⟩
  | 18 => ⟨S20000x64, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x4, .i32⟩
  | 28 => ⟨S4096x3, .i32⟩
  | 29 => ⟨S_, .i32⟩
  | 30 => ⟨S4096x3, .i32⟩
  | 31 => ⟨S4096x3, .i1⟩
  | 32 => ⟨S_, .i32⟩
  | 33 => ⟨S4096x3, .i32⟩
  | 34 => ⟨S4096x3, .i32⟩
  | 35 => ⟨S4096x3, .i32⟩
  | 36 => ⟨S4096x3x1, .i32⟩
  | 37 => ⟨S4096x3x64, .f32⟩
  | 38 => ⟨S4096x1, .i32⟩
  | 39 => ⟨S4096, .i32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x64, .f32⟩
  | 49 => ⟨S4096x1x64, .f32⟩
  | 50 => ⟨S4096x4x64, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x64, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x64, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x1, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x1, .f32⟩
  | 87 => ⟨S4096x1, .f32⟩
  | 88 => ⟨S4096x1x64, .f32⟩
  | 89 => ⟨S4096x1x64, .f32⟩
  | 90 => ⟨S4096x6x64, .f32⟩
  | 91 => ⟨S4096x1, .f32⟩
  | 92 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S400x64, .f32⟩
  | .local _ .vmem, ⟨1, _⟩ => ⟨S400x64, .f32⟩
  | .local _ .vmem, ⟨2, _⟩ => ⟨S400x3, .i32⟩
  | .local _ .vmem, ⟨3, _⟩ => ⟨S400x3, .i32⟩
  | .local _ .vmem, ⟨4, _⟩ => ⟨S4000x64, .bf16⟩
  | .local _ .vmem, ⟨5, _⟩ => ⟨S400x64, .f32⟩
  | .local _ .vmem, ⟨6, _⟩ => ⟨S400x64, .f32⟩
  | .local _ .vmem, ⟨7, _⟩ => ⟨S400x64, .f32⟩
  | .local _ .vmem, ⟨8, _⟩ => ⟨S400x64, .f32⟩
  | .local _ .vmem, ⟨9, _⟩ => ⟨S400x3, .i32⟩
  | .local _ .vmem, ⟨10, _⟩ => ⟨S400x3, .i32⟩
  | .local _ .vmem, ⟨11, _⟩ => ⟨S4000x64, .bf16⟩
  | .local _ .vmem, ⟨12, _⟩ => ⟨S400x64, .f32⟩
  | .local _ .vmem, ⟨13, _⟩ => ⟨S400x64, .f32⟩
  | .local _ .vmem, ⟨14, _⟩ => ⟨S2000x64, .f32⟩
  | .local _ .vmem, ⟨15, _⟩ => ⟨S2000x64, .f32⟩
  | .local _ .vmem, ⟨16, _⟩ => ⟨S2000x3, .i32⟩
  | .local _ .vmem, ⟨17, _⟩ => ⟨S2000x3, .i32⟩
  | .local _ .vmem, ⟨18, _⟩ => ⟨S1000x64, .bf16⟩
  | .local _ .vmem, ⟨19, _⟩ => ⟨S2000x64, .f32⟩
  | .local _ .vmem, ⟨20, _⟩ => ⟨S2000x64, .f32⟩
  | .local _ .vmem, ⟨21, _⟩ => ⟨S1024x6x64, .f32⟩
  | .local _ .vmem, ⟨22, _⟩ => ⟨S1024x6x64, .f32⟩
  | .local _ .vmem, ⟨23, _⟩ => ⟨S1024x1, .f32⟩
  | .local _ .vmem, ⟨24, _⟩ => ⟨S1024x1, .f32⟩
  | .local _ .vmem, ⟨25, _⟩ => ⟨S1x1, .f32⟩
  | .local _ .vmem, ⟨26, _⟩ => ⟨S1024x1, .f32⟩
  | .local _ .vmem, ⟨27, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_c_3 : Ref sig .tc := ⟨.hbm, 40, rfl⟩
abbrev main_v9 : Ref sig .tc := ⟨.hbm, 41, rfl⟩
abbrev main_v10 : Ref sig .tc := ⟨.hbm, 42, rfl⟩
abbrev main_c_4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_5 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_7 : Ref sig .tc := ⟨.hbm, 60, rfl⟩
abbrev main_v20 : Ref sig .tc := ⟨.hbm, 61, rfl⟩
abbrev main_v21 : Ref sig .tc := ⟨.hbm, 62, rfl⟩
abbrev main_c_8 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst : Ref sig .tc := ⟨.hbm, 69, rfl⟩
abbrev main_v27 : Ref sig .tc := ⟨.hbm, 70, rfl⟩
abbrev main_v28 : Ref sig .tc := ⟨.hbm, 71, rfl⟩
abbrev main_cst_9 : Ref sig .tc := ⟨.hbm, 72, rfl⟩
abbrev main_v29 : Ref sig .tc := ⟨.hbm, 73, rfl⟩
abbrev main_v30 : Ref sig .tc := ⟨.hbm, 74, rfl⟩
abbrev main_c_10 : Ref sig .tc := ⟨.hbm, 75, rfl⟩
abbrev main_v31 : Ref sig .tc := ⟨.hbm, 76, rfl⟩
abbrev main_v32 : Ref sig .tc := ⟨.hbm, 77, rfl⟩
abbrev main_c_11 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_c_12 : Ref sig .tc := ⟨.hbm, 84, rfl⟩
abbrev main_v38 : Ref sig .tc := ⟨.hbm, 85, rfl⟩
abbrev main_v39 : Ref sig .tc := ⟨.hbm, 86, rfl⟩
abbrev main_c_13 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_14 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_15 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_16 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_17 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_18 : Ref sig .tc := ⟨.hbm, 111, rfl⟩
abbrev main_v59 : Ref sig .tc := ⟨.hbm, 112, rfl⟩
abbrev main_v60 : Ref sig .tc := ⟨.hbm, 113, rfl⟩
abbrev main_c_19 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_20 : Ref sig .tc := ⟨.hbm, 120, rfl⟩
abbrev main_v66 : Ref sig .tc := ⟨.hbm, 121, rfl⟩
abbrev main_v67 : Ref sig .tc := ⟨.hbm, 122, rfl⟩
abbrev main_c_21 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_22 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_23 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_24 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_25 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_c_26 : Ref sig .tc := ⟨.hbm, 147, rfl⟩
abbrev main_v87 : Ref sig .tc := ⟨.hbm, 148, rfl⟩
abbrev main_v88 : Ref sig .tc := ⟨.hbm, 149, rfl⟩
abbrev main_c_27 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_28 : Ref sig .tc := ⟨.hbm, 157, rfl⟩
abbrev main_v95 : Ref sig .tc := ⟨.hbm, 158, rfl⟩
abbrev main_v96 : Ref sig .tc := ⟨.hbm, 159, rfl⟩
abbrev main_c_29 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_c_30 : Ref sig .tc := ⟨.hbm, 168, rfl⟩
abbrev main_v104 : Ref sig .tc := ⟨.hbm, 169, rfl⟩
abbrev main_v105 : Ref sig .tc := ⟨.hbm, 170, rfl⟩
abbrev main_c_31 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_c_32 : Ref sig .tc := ⟨.hbm, 179, rfl⟩
abbrev main_v113 : Ref sig .tc := ⟨.hbm, 180, rfl⟩
abbrev main_v114 : Ref sig .tc := ⟨.hbm, 181, rfl⟩
abbrev main_c_33 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_c_34 : Ref sig .tc := ⟨.hbm, 188, rfl⟩
abbrev main_v120 : Ref sig .tc := ⟨.hbm, 189, rfl⟩
abbrev main_v121 : Ref sig .tc := ⟨.hbm, 190, rfl⟩
abbrev main_c_35 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_c_36 : Ref sig .tc := ⟨.hbm, 197, rfl⟩
abbrev main_v127 : Ref sig .tc := ⟨.hbm, 198, rfl⟩
abbrev main_v128 : Ref sig .tc := ⟨.hbm, 199, rfl⟩
abbrev main_c_37 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_c_38 : Ref sig .tc := ⟨.hbm, 206, rfl⟩
abbrev main_v134 : Ref sig .tc := ⟨.hbm, 207, rfl⟩
abbrev main_v135 : Ref sig .tc := ⟨.hbm, 208, rfl⟩
abbrev main_c_39 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x3 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x3 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x6x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S50000x3 : S_.BroadcastsInDim S50000x3 (![] : Fin 0 → Fin S50000x3.rank)
  bitsLt_bf16_f32 : FTy.bits .bf16 < FTy.bits .f32
  inb_S400x64_S400x64_0_0 : ∀ a, (![0, 0] : Fin 2 → Nat) a + S400x64.size a ≤ S400x64.size a
  h_S400x64 : 0 < S400x64.numel
  inb_S400x3_S400x3_0_0 : ∀ a, (![0, 0] : Fin 2 → Nat) a + S400x3.size a ≤ S400x3.size a
  h_S400x3 : 0 < S400x3.numel
  shapeCasts_S400x3_S400x3 : S400x3.ShapeCasts S400x3
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  iota_S400x4000_d1_w32 : S400x4000.Iotas .tc 32 [1]
  slices_S400x3_o0_0_S400x1 : S400x3.Slices ![0, 0] S400x1
  broadcasts_S400x1_S400x4000 : S400x1.Broadcasts S400x4000
  natLt_1_32 : 1 < 32
  slices_S400x3_o0_1_S400x1 : S400x3.Slices ![0, 1] S400x1
  slices_S400x3_o0_2_S400x1 : S400x3.Slices ![0, 2] S400x1
  slices_S22000x64_S20000x64_0_0 : S22000x64.Slices ![0, 0] S20000x64
  bcast_S_S20000x3 : S_.BroadcastsInDim S20000x3 (![] : Fin 0 → Fin S20000x3.rank)
  shapeCasts_S400x64_S400x64 : S400x64.ShapeCasts S400x64
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x4_S100000x3_0_0 : S100000x4.Slices ![0, 0] S100000x3
  bcast_S_S100000x3 : S_.BroadcastsInDim S100000x3 (![] : Fin 0 → Fin S100000x3.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  iota_S2000x1000_d1_w32 : S2000x1000.Iotas .tc 32 [1]
  slices_S2000x3_o0_0_S2000x1 : S2000x3.Slices ![0, 0] S2000x1
  broadcasts_S2000x1_S2000x1000 : S2000x1.Broadcasts S2000x1000
  slices_S2000x3_o0_1_S2000x1 : S2000x3.Slices ![0, 1] S2000x1
  slices_S2000x3_o0_2_S2000x1 : S2000x3.Slices ![0, 2] S2000x1
  bcast_S_S500000 : S_.BroadcastsInDim S500000 (![] : Fin 0 → Fin S500000.rank)
  bcast_S500000_S500000x1_0 : S500000.BroadcastsInDim S500000x1 (![0] : Fin 1 → Fin S500000x1.rank)
  bcast_S_S50000x64 : S_.BroadcastsInDim S50000x64 (![] : Fin 0 → Fin S50000x64.rank)
  bcast_S_S20000x64 : S_.BroadcastsInDim S20000x64 (![] : Fin 0 → Fin S20000x64.rank)
  bcast_S_S4096 : S_.BroadcastsInDim S4096 (![] : Fin 0 → Fin S4096.rank)
  bcast_S4096_S4096x1_0 : S4096.BroadcastsInDim S4096x1 (![0] : Fin 1 → Fin S4096x1.rank)
  slices_S4096x4_S4096x3_0_0 : S4096x4.Slices ![0, 0] S4096x3
  bcast_S_S4096x3 : S_.BroadcastsInDim S4096x3 (![] : Fin 0 → Fin S4096x3.rank)
  bcast_S4096x3_S4096x3x1_0_1 : S4096x3.BroadcastsInDim S4096x3x1 (![0, 1] : Fin 2 → Fin S4096x3x1.rank)
  slices_S4096x4_S4096x1_0_3 : S4096x4.Slices ![0, 3] S4096x1
  shapeCasts_S4096x1_S4096 : S4096x1.ShapeCasts S4096
  bcast_S4096x64_S4096x1x64_0_2 : S4096x64.BroadcastsInDim S4096x1x64 (![0, 2] : Fin 2 → Fin S4096x1x64.rank)
  concatenates_S4096x3x64_S4096x1x64_S4096x4x64_d1 : Shape.Concatenates [S4096x3x64, S4096x1x64] S4096x4x64 1
  concatenates_S4096x1x64_S4096x1x64_S4096x4x64_S4096x6x64_d1 : Shape.Concatenates [S4096x1x64, S4096x1x64, S4096x4x64] S4096x6x64 1
  inb_S1024x6x64_S1024x6x64_0_0_0 : ∀ a, (![0, 0, 0] : Fin 3 → Nat) a + S1024x6x64.size a ≤ S1024x6x64.size a
  h_S1024x6x64 : 0 < S1024x6x64.numel
  shapeCasts_S1024x6x64_S1024x6x64 : S1024x6x64.ShapeCasts S1024x6x64
  reduces_S1024x6x64_S1024x64 : S1024x6x64.Reduces [1] S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  broadcasts_S1x1_S1024x1 : S1x1.Broadcasts S1024x1
  dot_S400x4000_S4000x64_S400x64_1_0_0_1_n_n_wf : DotDims.WF S400x4000 S4000x64 S400x64 [1] [0] [0] [1] [] []
  gather_S22000x64_S100000x1_S100000x64_1_0_n_n_0_1_164_wf : GatherDims.WF S22000x64 S100000x1 S100000x64 [1] [0] [] [0] [] 1 ![1, 64]
  dot_S2000x1000_S1000x64_S2000x64_1_0_0_1_n_n_wf : DotDims.WF S2000x1000 S1000x64 S2000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  scatter_S50000x64_S500000x1_S500000x64_1_0_0_1_wf : ScatterDims.WF S50000x64 S500000x1 S500000x64 [1] [0] [0] 1
  scatter_S20000x64_S500000x1_S500000x64_1_0_0_1_wf : ScatterDims.WF S20000x64 S500000x1 S500000x64 [1] [0] [0] 1
  gather_S100000x4_S4096x1_S4096x4_1_0_n_n_0_1_14_wf : GatherDims.WF S100000x4 S4096x1 S4096x4 [1] [0] [] [0] [] 1 ![1, 4]
  gather_S1000x64_S4096x3x1_S4096x3x64_2_0_n_n_0_2_164_wf : GatherDims.WF S1000x64 S4096x3x1 S4096x3x64 [2] [0] [] [0] [] 2 ![1, 64]
  gather_S22000x64_S4096x1_S4096x64_1_0_n_n_0_1_164_wf : GatherDims.WF S22000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  gather_S20000x64_S4096x1_S4096x64_1_0_n_n_0_1_164_wf : GatherDims.WF S20000x64 S4096x1 S4096x64 [1] [0] [] [0] [] 1 ![1, 64]
  gather_S50000x1_S4096x1_S4096x1_1_0_n_n_0_1_11_wf : GatherDims.WF S50000x1 S4096x1 S4096x1 [1] [0] [] [0] [] 1 ![1, 1]
  gather_S22000x1_S4096x1_S4096x1_1_0_n_n_0_1_11_wf : GatherDims.WF S22000x1 S4096x1 S4096x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S50000x64.size a
  hwx0_0 : ∀ i : grid0.Coords, EltTy.bits .f32 = 32 ∨ (Rect.block (s := S50000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x3.size a ≤ S50000x3.size a
  hwx0_1 : ∀ i : grid0.Coords, EltTy.bits .i32 = 32 ∨ (Rect.block (s := S50000x3) S400x3.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S4000x64.size a
  hwx0_2 : ∀ i : grid0.Coords, EltTy.bits .bf16 = 32 ∨ (Rect.block (s := S4000x64) S4000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x64.size a ≤ S50000x64.size a
  hwx0_3 : ∀ i : grid0.Coords, EltTy.bits .f32 = 32 ∨ (Rect.block (s := S50000x64) S400x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x64.size a ≤ S20000x64.size a
  hwx1_0 : ∀ i : grid1.Coords, EltTy.bits .f32 = 32 ∨ (Rect.block (s := S20000x64) S400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x3.size a ≤ S20000x3.size a
  hwx1_1 : ∀ i : grid1.Coords, EltTy.bits .i32 = 32 ∨ (Rect.block (s := S20000x3) S400x3.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S4000x64.size a
  hwx1_2 : ∀ i : grid1.Coords, EltTy.bits .bf16 = 32 ∨ (Rect.block (s := S4000x64) S4000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S20000x64.size a
  hwx1_3 : ∀ i : grid1.Coords, EltTy.bits .f32 = 32 ∨ (Rect.block (s := S20000x64) S400x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x3.size a ≤ S100000x3.size a
  hwx2_1 : ∀ i : grid2.Coords, EltTy.bits .i32 = 32 ∨ (Rect.block (s := S100000x3) S2000x3.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S1000x64.size a
  hwx2_2 : ∀ i : grid2.Coords, EltTy.bits .bf16 = 32 ∨ (Rect.block (s := S1000x64) S1000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x6x64.size a ≤ S4096x6x64.size a
  hwx3_0 : ∀ i : grid3.Coords, EltTy.bits .f32 = 32 ∨ (Rect.block (s := S4096x6x64) S1024x6x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S4096x1.size a
  hwx3_1 : ∀ i : grid3.Coords, EltTy.bits .f32 = 32 ∨ (Rect.block (s := S4096x1) S1024x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)

variable [Facts₀]

def dot_S400x4000_S4000x64_S400x64_1_0_0_1_n_n : DotDims S400x4000 S4000x64 S400x64 where
  lhsContracting := [1]
  rhsContracting := [0]
  lhsNonContracting := [0]
  rhsNonContracting := [1]
  lhsBatch := []
  rhsBatch := []
  wf := dot_S400x4000_S4000x64_S400x64_1_0_0_1_n_n_wf
def gather_S22000x64_S100000x1_S100000x64_1_0_n_n_0_1_164 : GatherDims S22000x64 S100000x1 S100000x64 where
  offsetDims := [1]
  collapsedSliceDims := [0]
  operandBatchingDims := []
  startIndicesBatchingDims := []
  startIndexMap := [0]
  indexVectorDim := 1
  sliceSizes := ![1, 64]
  wf := gather_S22000x64_S100000x1_S100000x64_1_0_n_n_0_1_164_wf
def dot_S2000x1000_S1000x64_S2000x64_1_0_0_1_n_n : DotDims S2000x1000 S1000x64 S2000x64 where
  lhsContracting := [1]
  rhsContracting := [0]
  lhsNonContracting := [0]
  rhsNonContracting := [1]
  lhsBatch := []
  rhsBatch := []
  wf := dot_S2000x1000_S1000x64_S2000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def gather_S100000x4_S4096x1_S4096x4_1_0_n_n_0_1_14 : GatherDims S100000x4 S4096x1 S4096x4 where
  offsetDims := [1]
  collapsedSliceDims := [0]
  operandBatchingDims := []
  startIndicesBatchingDims := []
  startIndexMap := [0]
  indexVectorDim := 1
  sliceSizes := ![1, 4]
  wf := gather_S100000x4_S4096x1_S4096x4_1_0_n_n_0_1_14_wf
def gather_S1000x64_S4096x3x1_S4096x3x64_2_0_n_n_0_2_164 : GatherDims S1000x64 S4096x3x1 S4096x3x64 where
  offsetDims := [2]
  collapsedSliceDims := [0]
  operandBatchingDims := []
  startIndicesBatchingDims := []
  startIndexMap := [0]
  indexVectorDim := 2
  sliceSizes := ![1, 64]
  wf := gather_S1000x64_S4096x3x1_S4096x3x64_2_0_n_n_0_2_164_wf
def gather_S22000x64_S4096x1_S4096x64_1_0_n_n_0_1_164 : GatherDims S22000x64 S4096x1 S4096x64 where
  offsetDims := [1]
  collapsedSliceDims := [0]
  operandBatchingDims := []
  startIndicesBatchingDims := []
  startIndexMap := [0]
  indexVectorDim := 1
  sliceSizes := ![1, 64]
  wf := gather_S22000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S20000x64_S4096x1_S4096x64_1_0_n_n_0_1_164 : GatherDims S20000x64 S4096x1 S4096x64 where
  offsetDims := [1]
  collapsedSliceDims := [0]
  operandBatchingDims := []
  startIndicesBatchingDims := []
  startIndexMap := [0]
  indexVectorDim := 1
  sliceSizes := ![1, 64]
  wf := gather_S20000x64_S4096x1_S4096x64_1_0_n_n_0_1_164_wf
def gather_S50000x1_S4096x1_S4096x1_1_0_n_n_0_1_11 : GatherDims S50000x1 S4096x1 S4096x1 where
  offsetDims := [1]
  collapsedSliceDims := [0]
  operandBatchingDims := []
  startIndicesBatchingDims := []
  startIndexMap := [0]
  indexVectorDim := 1
  sliceSizes := ![1, 1]
  wf := gather_S50000x1_S4096x1_S4096x1_1_0_n_n_0_1_11_wf
def gather_S22000x1_S4096x1_S4096x1_1_0_n_n_0_1_11 : GatherDims S22000x1 S4096x1 S4096x1 where
  offsetDims := [1]
  collapsedSliceDims := [0]
  operandBatchingDims := []
  startIndicesBatchingDims := []
  startIndexMap := [0]
  indexVectorDim := 1
  sliceSizes := ![1, 1]
  wf := gather_S22000x1_S4096x1_S4096x1_1_0_n_n_0_1_11_wf

abbrev win0_0 : Pipeline.Window sig grid0 :=
  Pipeline.Window.ofSpec (Memref.whole main_arg3) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S400x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S400x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v144) S1024x6x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v141) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v145) S1024x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096 : Shape := ⟨1, ![4096]⟩
abbrev S50000x64 : Shape := ⟨2, ![50000, 64]⟩
abbrev S22000x64 : Shape := ⟨2, ![22000, 64]⟩
abbrev S4000x64 : Shape := ⟨2, ![4000, 64]⟩
abbrev S1000x64 : Shape := ⟨2, ![1000, 64]⟩
abbrev S50000x1 : Shape := ⟨2, ![50000, 1]⟩
abbrev S22000x1 : Shape := ⟨2, ![22000, 1]⟩
abbrev S1x1 : Shape := ⟨2, ![1, 1]⟩
abbrev S50000x3 : Shape := ⟨2, ![50000, 3]⟩
abbrev S20000x3 : Shape := ⟨2, ![20000, 3]⟩
abbrev S100000x4 : Shape := ⟨2, ![100000, 4]⟩
abbrev S500000 : Shape := ⟨1, ![500000]⟩
abbrev S50000x1x64 : Shape := ⟨3, ![50000, 1, 64]⟩
abbrev S_ : Shape := ⟨0, ![]⟩
abbrev S50000x3x1 : Shape := ⟨3, ![50000, 3, 1]⟩
abbrev S50000x3x64 : Shape := ⟨3, ![50000, 3, 64]⟩
abbrev S50000x4x64 : Shape := ⟨3, ![50000, 4, 64]⟩
abbrev S20000x64 : Shape := ⟨2, ![20000, 64]⟩
abbrev S20000x1x64 : Shape := ⟨3, ![20000, 1, 64]⟩
abbrev S20000x3x1 : Shape := ⟨3, ![20000, 3, 1]⟩
abbrev S20000x3x64 : Shape := ⟨3, ![20000, 3, 64]⟩
abbrev S20000x4x64 : Shape := ⟨3, ![20000, 4, 64]⟩
abbrev S4096x1 : Shape := ⟨2, ![4096, 1]⟩
abbrev S4096x4 : Shape := ⟨2, ![4096, 4]⟩
abbrev S4096x3 : Shape := ⟨2, ![4096, 3]⟩
abbrev S4096x3x1 : Shape := ⟨3, ![4096, 3, 1]⟩
abbrev S4096x3x64 : Shape := ⟨3, ![4096, 3, 64]⟩
abbrev S4096x64 : Shape := ⟨2, ![4096, 64]⟩
abbrev S4096x1x64 : Shape := ⟨3, ![4096, 1, 64]⟩
abbrev S4096x4x64 : Shape := ⟨3, ![4096, 4, 64]⟩
abbrev S100000x3 : Shape := ⟨2, ![100000, 3]⟩
abbrev S100000x3x1 : Shape := ⟨3, ![100000, 3, 1]⟩
abbrev S100000x3x64 : Shape := ⟨3, ![100000, 3, 64]⟩
abbrev S100000x1 : Shape := ⟨2, ![100000, 1]⟩
abbrev S100000 : Shape := ⟨1, ![100000]⟩
abbrev S100000x64 : Shape := ⟨2, ![100000, 64]⟩
abbrev S100000x1x64 : Shape := ⟨3, ![100000, 1, 64]⟩
abbrev S100000x4x64 : Shape := ⟨3, ![100000, 4, 64]⟩
abbrev S500000x1 : Shape := ⟨2, ![500000, 1]⟩
abbrev S500000x64 : Shape := ⟨2, ![500000, 64]⟩
abbrev S4096x6x64 : Shape := ⟨3, ![4096, 6, 64]⟩

abbrev nBuf : Space → Nat
  | .hbm => 254
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S50000x64, .f32⟩
  | 4 => ⟨S22000x64, .f32⟩
  | 5 => ⟨S4000x64, .f32⟩
  | 6 => ⟨S4000x64, .f32⟩
  | 7 => ⟨S1000x64, .f32⟩
  | 8 => ⟨S50000x1, .f32⟩
  | 9 => ⟨S22000x1, .f32⟩
  | 10 => ⟨S1x1, .f32⟩
  | 11 => ⟨S50000x3, .i32⟩
  | 12 => ⟨S20000x3, .i32⟩
  | 13 => ⟨S100000x4, .i32⟩
  | 14 => ⟨S500000, .i32⟩
  | 15 => ⟨S500000, .i32⟩
  | 16 => ⟨S500000, .i32⟩
  | 17 => ⟨S50000x1x64, .f32⟩
  | 18 => ⟨S_, .i32⟩
  | 19 => ⟨S50000x3, .i32⟩
  | 20 => ⟨S50000x3, .i1⟩
  | 21 => ⟨S_, .i32⟩
  | 22 => ⟨S50000x3, .i32⟩
  | 23 => ⟨S50000x3, .i32⟩
  | 24 => ⟨S50000x3, .i32⟩
  | 25 => ⟨S50000x3x1, .i32⟩
  | 26 => ⟨S50000x3x64, .f32⟩
  | 27 => ⟨S50000x4x64, .f32⟩
  | 28 => ⟨S_, .f32⟩
  | 29 => ⟨S50000x64, .f32⟩
  | 30 => ⟨S_, .f32⟩
  | 31 => ⟨S50000x64, .f32⟩
  | 32 => ⟨S50000x64, .f32⟩
  | 33 => ⟨S20000x64, .f32⟩
  | 34 => ⟨S20000x1x64, .f32⟩
  | 35 => ⟨S_, .i32⟩
  | 36 => ⟨S20000x3, .i32⟩
  | 37 => ⟨S20000x3, .i1⟩
  | 38 => ⟨S_, .i32⟩
  | 39 => ⟨S20000x3, .i32⟩
  | 40 => ⟨S20000x3, .i32⟩
  | 41 => ⟨S20000x3, .i32⟩
  | 42 => ⟨S20000x3x1, .i32⟩
  | 43 => ⟨S20000x3x64, .f32⟩
  | 44 => ⟨S20000x4x64, .f32⟩
  | 45 => ⟨S_, .f32⟩
  | 46 => ⟨S20000x64, .f32⟩
  | 47 => ⟨S_, .f32⟩
  | 48 => ⟨S20000x64, .f32⟩
  | 49 => ⟨S20000x64, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x4, .i32⟩
  | 59 => ⟨S4096x3, .i32⟩
  | 60 => ⟨S_, .i32⟩
  | 61 => ⟨S4096x3, .i32⟩
  | 62 => ⟨S4096x3, .i1⟩
  | 63 => ⟨S_, .i32⟩
  | 64 => ⟨S4096x3, .i32⟩
  | 65 => ⟨S4096x3, .i32⟩
  | 66 => ⟨S4096x3, .i32⟩
  | 67 => ⟨S4096x3x1, .i32⟩
  | 68 => ⟨S4096x3x64, .f32⟩
  | 69 => ⟨S4096x1, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x64, .f32⟩
  | 80 => ⟨S4096x1x64, .f32⟩
  | 81 => ⟨S4096x4x64, .f32⟩
  | 82 => ⟨S100000x3, .i32⟩
  | 83 => ⟨S_, .i32⟩
  | 84 => ⟨S100000x3, .i32⟩
  | 85 => ⟨S100000x3, .i1⟩
  | 86 => ⟨S_, .i32⟩
  | 87 => ⟨S100000x3, .i32⟩
  | 88 => ⟨S100000x3, .i32⟩
  | 89 => ⟨S100000x3, .i32⟩
  | 90 => ⟨S100000x3x1, .i32⟩
  | 91 => ⟨S100000x3x64, .f32⟩
  | 92 => ⟨S100000x1, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x64, .f32⟩
  | 103 => ⟨S100000x1x64, .f32⟩
  | 104 => ⟨S100000x4x64, .f32⟩
  | 105 => ⟨S_, .f32⟩
  | 106 => ⟨S100000x64, .f32⟩
  | 107 => ⟨S_, .f32⟩
  | 108 => ⟨S100000x64, .f32⟩
  | 109 => ⟨S100000x64, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x64, .f32⟩
  | 119 => ⟨S_, .f32⟩
  | 120 => ⟨S50000x64, .f32⟩
  | 121 => ⟨S50000x64, .f32⟩
  | 122 => ⟨S_, .f32⟩
  | 123 => ⟨S20000x64, .f32⟩
  | 124 => ⟨S20000x64, .f32⟩
  | 125 => ⟨S_, .i32⟩
  | 126 => ⟨S500000, .i32⟩
  | 127 => ⟨S500000, .i1⟩
  | _ => ⟨S4096, .i32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x64, .f32⟩
  | 15 => ⟨S500000x64, .f32⟩
  | 16 => ⟨S_, .f32⟩
  | 17 => ⟨S50000x64, .f32⟩
  | 18 => ⟨S500000x1, .i32⟩
  | 19 => ⟨S50000x64, .f32⟩
  | 20 => ⟨S500000x64, .f32⟩
  | 21 => ⟨S_, .f32⟩
  | 22 => ⟨S20000x64, .f32⟩
  | 23 => ⟨S500000x1, .i32⟩
  | 24 => ⟨S20000x64, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S20000x64, .f32⟩
  | 31 => ⟨S20000x64, .f32⟩
  | 32 => ⟨S20000x64, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x64, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x64, .f32⟩
  | 51 => ⟨S500000x64, .f32⟩
  | 52 => ⟨S_, .f32⟩
  | 53 => ⟨S50000x64, .f32⟩
  | 54 => ⟨S500000x1, .i32⟩
  | 55 => ⟨S50000x64, .f32⟩
  | 56 => ⟨S500000x64, .f32⟩
  | 57 => ⟨S_, .f32⟩
  | 58 => ⟨S20000x64, .f32⟩
  | 59 => ⟨S500000x1, .i32⟩
  | 60 => ⟨S20000x64, .f32⟩
  | 61 => ⟨S_, .f32⟩
  | 62 => ⟨S50000x64, .f32⟩
  | 63 => ⟨S50000x64, .f32⟩
  | 64 => ⟨S50000x64, .f32⟩
  | 65 => ⟨S_, .f32⟩
  | 66 => ⟨S20000x64, .f32⟩
  | 67 => ⟨S20000x64, .f32⟩
  | 68 => ⟨S20000x64, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S4096x64, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x64, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x1, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x1, .f32⟩
  | 105 => ⟨S4096x1, .f32⟩
  | 106 => ⟨S4096x1x64, .f32⟩
  | 107 => ⟨S4096x1x64, .f32⟩
  | 108 => ⟨S4096x6x64, .f32⟩
  | 109 => ⟨S_, .f32⟩
  | 110 => ⟨S4096x64, .f32⟩
  | 111 => ⟨S4096x64, .f32⟩
  | 112 => ⟨S4096x6x64, .f32⟩
  | 113 => ⟨S_, .f32⟩
  | 114 => ⟨S4096x64, .f32⟩
  | 115 => ⟨S4096x64, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S4096x1, .f32⟩
  | 123 => ⟨S4096x1, .f32⟩
  | 124 => ⟨S4096x1, .f32⟩
  | 125 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_c_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_c_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_c_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_c_18 : Ref sig .tc := ⟨.hbm, 110, rfl⟩
abbrev main_v73 : Ref sig .tc := ⟨.hbm, 111, rfl⟩
abbrev main_v74 : Ref sig .tc := ⟨.hbm, 112, rfl⟩
abbrev main_c_19 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_20 : Ref sig .tc := ⟨.hbm, 119, rfl⟩
abbrev main_v80 : Ref sig .tc := ⟨.hbm, 120, rfl⟩
abbrev main_v81 : Ref sig .tc := ⟨.hbm, 121, rfl⟩
abbrev main_cst_21 : Ref sig .tc := ⟨.hbm, 122, rfl⟩
abbrev main_v82 : Ref sig .tc := ⟨.hbm, 123, rfl⟩
abbrev main_v83 : Ref sig .tc := ⟨.hbm, 124, rfl⟩
abbrev main_c_22 : Ref sig .tc := ⟨.hbm, 125, rfl⟩
abbrev main_v84 : Ref sig .tc := ⟨.hbm, 126, rfl⟩
abbrev main_v85 : Ref sig .tc := ⟨.hbm, 127, rfl⟩
abbrev main_c_23 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_24 : Ref sig .tc := ⟨.hbm, 134, rfl⟩
abbrev main_v91 : Ref sig .tc := ⟨.hbm, 135, rfl⟩
abbrev main_v92 : Ref sig .tc := ⟨.hbm, 136, rfl⟩
abbrev main_c_25 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_26 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_27 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_28 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_29 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_30 : Ref sig .tc := ⟨.hbm, 161, rfl⟩
abbrev main_v112 : Ref sig .tc := ⟨.hbm, 162, rfl⟩
abbrev main_v113 : Ref sig .tc := ⟨.hbm, 163, rfl⟩
abbrev main_c_31 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_32 : Ref sig .tc := ⟨.hbm, 170, rfl⟩
abbrev main_v119 : Ref sig .tc := ⟨.hbm, 171, rfl⟩
abbrev main_v120 : Ref sig .tc := ⟨.hbm, 172, rfl⟩
abbrev main_c_33 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_34 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_35 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_36 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_37 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_38 : Ref sig .tc := ⟨.hbm, 197, rfl⟩
abbrev main_v140 : Ref sig .tc := ⟨.hbm, 198, rfl⟩
abbrev main_v141 : Ref sig .tc := ⟨.hbm, 199, rfl⟩
abbrev main_c_39 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_c_40 : Ref sig .tc := ⟨.hbm, 206, rfl⟩
abbrev main_v147 : Ref sig .tc := ⟨.hbm, 207, rfl⟩
abbrev main_v148 : Ref sig .tc := ⟨.hbm, 208, rfl⟩
abbrev main_c_41 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_c_42 : Ref sig .tc := ⟨.hbm, 215, rfl⟩
abbrev main_v154 : Ref sig .tc := ⟨.hbm, 216, rfl⟩
abbrev main_v155 : Ref sig .tc := ⟨.hbm, 217, rfl⟩
abbrev main_c_43 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_c_44 : Ref sig .tc := ⟨.hbm, 224, rfl⟩
abbrev main_v161 : Ref sig .tc := ⟨.hbm, 225, rfl⟩
abbrev main_v162 : Ref sig .tc := ⟨.hbm, 226, rfl⟩
abbrev main_c_45 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_46 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_47 : Ref sig .tc := ⟨.hbm, 241, rfl⟩
abbrev main_v175 : Ref sig .tc := ⟨.hbm, 242, rfl⟩
abbrev main_v176 : Ref sig .tc := ⟨.hbm, 243, rfl⟩
abbrev main_cst_48 : Ref sig .tc := ⟨.hbm, 244, rfl⟩
abbrev main_v177 : Ref sig .tc := ⟨.hbm, 245, rfl⟩
abbrev main_v178 : Ref sig .tc := ⟨.hbm, 246, rfl⟩
abbrev main_cst_49 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩

abbrev nD : Nat := 1
abbrev τ : Topo := Topo.v7x

variable {F : FTy → Type} [FloatOps F]

class Facts₀ : Prop where
  bcast_S50000x64_S50000x1x64_0_2 : S50000x64.BroadcastsInDim S50000x1x64 (![0, 2] : Fin 2 → Fin S50000x1x64.rank)
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  concatenates_S50000x1x64_S50000x3x64_S50000x4x64_d1 : Shape.Concatenates [S50000x1x64, S50000x3x64] S50000x4x64 1
  reducesTo_S50000x4x64_S50000x64_d1 : S50000x4x64.ReducesTo [1] S50000x64
  h_S_ : 0 < S_.numel
  bcast_S_S50000x64 : S_.BroadcastsInDim S50000x64 (![] : Fin 0 → Fin S50000x64.rank)
  slices_S22000x64_S20000x64_0_0 : S22000x64.Slices ![0, 0] S20000x64
  bcast_S20000x64_S20000x1x64_0_2 : S20000x64.BroadcastsInDim S20000x1x64 (![0, 2] : Fin 2 → Fin S20000x1x64.rank)
  bcast_S_S20000x3 : S_.BroadcastsInDim S20000x3 (![] : Fin 0 → Fin S20000x3.rank)
  bcast_S20000x3_S20000x3x1_0_1 : S20000x3.BroadcastsInDim S20000x3x1 (![0, 1] : Fin 2 → Fin S20000x3x1.rank)
  concatenates_S20000x1x64_S20000x3x64_S20000x4x64_d1 : Shape.Concatenates [S20000x1x64, S20000x3x64] S20000x4x64 1
  reducesTo_S20000x4x64_S20000x64_d1 : S20000x4x64.ReducesTo [1] S20000x64
  bcast_S_S20000x64 : S_.BroadcastsInDim S20000x64 (![] : Fin 0 → Fin S20000x64.rank)
  bcast_S_S4096 : S_.BroadcastsInDim S4096 (![] : Fin 0 → Fin S4096.rank)
  bcast_S4096_S4096x1_0 : S4096.BroadcastsInDim S4096x1 (![0] : Fin 1 → Fin S4096x1.rank)
  slices_S4096x4_S4096x3_0_0 : S4096x4.Slices ![0, 0] S4096x3
  bcast_S_S4096x3 : S_.BroadcastsInDim S4096x3 (![] : Fin 0 → Fin S4096x3.rank)
  bcast_S4096x3_S4096x3x1_0_1 : S4096x3.BroadcastsInDim S4096x3x1 (![0, 1] : Fin 2 → Fin S4096x3x1.rank)
  slices_S4096x4_S4096x1_0_3 : S4096x4.Slices ![0, 3] S4096x1
  shapeCasts_S4096x1_S4096 : S4096x1.ShapeCasts S4096
  bcast_S4096x64_S4096x1x64_0_2 : S4096x64.BroadcastsInDim S4096x1x64 (![0, 2] : Fin 2 → Fin S4096x1x64.rank)
  concatenates_S4096x3x64_S4096x1x64_S4096x4x64_d1 : Shape.Concatenates [S4096x3x64, S4096x1x64] S4096x4x64 1
  slices_S100000x4_S100000x3_0_0 : S100000x4.Slices ![0, 0] S100000x3
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  slices_S100000x4_S100000x1_0_3 : S100000x4.Slices ![0, 3] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x64_S100000x1x64_0_2 : S100000x64.BroadcastsInDim S100000x1x64 (![0, 2] : Fin 2 → Fin S100000x1x64.rank)
  concatenates_S100000x3x64_S100000x1x64_S100000x4x64_d1 : Shape.Concatenates [S100000x3x64, S100000x1x64] S100000x4x64 1
  reducesTo_S100000x4x64_S100000x64_d1 : S100000x4x64.ReducesTo [1] S100000x64
  bcast_S_S100000x64 : S_.BroadcastsInDim S100000x64 (![] : Fin 0 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S4096x1x64_S4096x1x64_S4096x4x64_S4096x6x64_d1 : Shape.Concatenates [S4096x1x64, S4096x1x64, S4096x4x64] S4096x6x64 1
  reducesTo_S4096x6x64_S4096x64_d1 : S4096x6x64.ReducesTo [1] S4096x64
  reducesTo_S4096x64_S4096_d1 : S4096x64.ReducesTo [1] S4096
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  gather_S4000x64_S50000x3x1_S50000x3x64_2_0_n_n_0_2_164_wf : GatherDims.WF S4000x64 S50000x3x1 S50000x3x64 [2] [0] [] [0] [] 2 ![1, 64]
  gather_S4000x64_S20000x3x1_S20000x3x64_2_0_n_n_0_2_164_wf : GatherDims.WF S4000x64 S20000x3x1 S20000x3x64 [2] [0] [] [0] [] 2 ![1, 64]
  gather_S100000x4_S4096x1_S4096x4_1_0_n_n_0_1_14_wf : GatherDims.WF S100000x4 S4096x1 S4096x4 [1] [0] [] [0] [] 1 ![1, 4]
  gather_S1000x64_S4096x3x1_S4096x3x64_2_0_n_n_0_2_164_wf : GatherDims.WF S1000x64 S4096x3x1 S4096x3x64 [2] [0] [] [0] [] 2 ![1, 64]
  gather_S22000x64_S4096x1_S4096x64_1_0_n_n_0_1_164_wf : GatherDims.WF S22000x64 S4096x1 S4096x64 [1] [0] [] [0] [] 1 ![1, 64]
  gather_S1000x64_S100000x3x1_S100000x3x64_2_0_n_n_0_2_164_wf : GatherDims.WF S1000x64 S100000x3x1 S100000x3x64 [2] [0] [] [0] [] 2 ![1, 64]
  gather_S22000x64_S100000x1_S100000x64_1_0_n_n_0_1_164_wf : GatherDims.WF S22000x64 S100000x1 S100000x64 [1] [0] [] [0] [] 1 ![1, 64]
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  scatter_S50000x64_S500000x1_S500000x64_1_0_0_1_wf : ScatterDims.WF S50000x64 S500000x1 S500000x64 [1] [0] [0] 1
  scatter_S20000x64_S500000x1_S500000x64_1_0_0_1_wf : ScatterDims.WF S20000x64 S500000x1 S500000x64 [1] [0] [0] 1
  gather_S50000x64_S4096x1_S4096x64_1_0_n_n_0_1_164_wf : GatherDims.WF S50000x64 S4096x1 S4096x64 [1] [0] [] [0] [] 1 ![1, 64]
  gather_S20000x64_S4096x1_S4096x64_1_0_n_n_0_1_164_wf : GatherDims.WF S20000x64 S4096x1 S4096x64 [1] [0] [] [0] [] 1 ![1, 64]
  gather_S50000x1_S4096x1_S4096x1_1_0_n_n_0_1_11_wf : GatherDims.WF S50000x1 S4096x1 S4096x1 [1] [0] [] [0] [] 1 ![1, 1]
  gather_S22000x1_S4096x1_S4096x1_1_0_n_n_0_1_11_wf : GatherDims.WF S22000x1 S4096x1 S4096x1 [1] [0] [] [0] [] 1 ![1, 1]

variable [Facts₀]

def gather_S4000x64_S50000x3x1_S50000x3x64_2_0_n_n_0_2_164 : GatherDims S4000x64 S50000x3x1 S50000x3x64 where
  offsetDims := [2]
  collapsedSliceDims := [0]
  operandBatchingDims := []
  startIndicesBatchingDims := []
  startIndexMap := [0]
  indexVectorDim := 2
  sliceSizes := ![1, 64]
  wf := gather_S4000x64_S50000x3x1_S50000x3x64_2_0_n_n_0_2_164_wf
def gather_S4000x64_S20000x3x1_S20000x3x64_2_0_n_n_0_2_164 : GatherDims S4000x64 S20000x3x1 S20000x3x64 where
  offsetDims := [2]
  collapsedSliceDims := [0]
  operandBatchingDims := []
  startIndicesBatchingDims := []
  startIndexMap := [0]
  indexVectorDim := 2
  sliceSizes := ![1, 64]
  wf := gather_S4000x64_S20000x3x1_S20000x3x64_2_0_n_n_0_2_164_wf
def gather_S100000x4_S4096x1_S4096x4_1_0_n_n_0_1_14 : GatherDims S100000x4 S4096x1 S4096x4 where
  offsetDims := [1]
  collapsedSliceDims := [0]
  operandBatchingDims := []
  startIndicesBatchingDims := []
  startIndexMap := [0]
  indexVectorDim := 1
  sliceSizes := ![1, 4]
  wf := gather_S100000x4_S4096x1_S4096x4_1_0_n_n_0_1_14_wf
def gather_S1000x64_S4096x3x1_S4096x3x64_2_0_n_n_0_2_164 : GatherDims S1000x64 S4096x3x1 S4096x3x64 where
  offsetDims := [2]
  collapsedSliceDims := [0]
  operandBatchingDims := []
  startIndicesBatchingDims := []
  startIndexMap := [0]
  indexVectorDim := 2
  sliceSizes := ![1, 64]
  wf := gather_S1000x64_S4096x3x1_S4096x3x64_2_0_n_n_0_2_164_wf
def gather_S22000x64_S4096x1_S4096x64_1_0_n_n_0_1_164 : GatherDims S22000x64 S4096x1 S4096x64 where
  offsetDims := [1]
  collapsedSliceDims := [0]
  operandBatchingDims := []
  startIndicesBatchingDims := []
  startIndexMap := [0]
  indexVectorDim := 1
  sliceSizes := ![1, 64]
  wf := gather_S22000x64_S4096x1_S4096x64_1_0_n_n_0_1_164_wf
def gather_S1000x64_S100000x3x1_S100000x3x64_2_0_n_n_0_2_164 : GatherDims S1000x64 S100000x3x1 S100000x3x64 where
  offsetDims := [2]
  collapsedSliceDims := [0]
  operandBatchingDims := []
  startIndicesBatchingDims := []
  startIndexMap := [0]
  indexVectorDim := 2
  sliceSizes := ![1, 64]
  wf := gather_S1000x64_S100000x3x1_S100000x3x64_2_0_n_n_0_2_164_wf
def gather_S22000x64_S100000x1_S100000x64_1_0_n_n_0_1_164 : GatherDims S22000x64 S100000x1 S100000x64 where
  offsetDims := [1]
  collapsedSliceDims := [0]
  operandBatchingDims := []
  startIndicesBatchingDims := []
  startIndexMap := [0]
  indexVectorDim := 1
  sliceSizes := ![1, 64]
  wf := gather_S22000x64_S100000x1_S100000x64_1_0_n_n_0_1_164_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S20000x64_S4096x1_S4096x64_1_0_n_n_0_1_164 : GatherDims S20000x64 S4096x1 S4096x64 where
  offsetDims := [1]
  collapsedSliceDims := [0]
  operandBatchingDims := []
  startIndicesBatchingDims := []
  startIndexMap := [0]
  indexVectorDim := 1
  sliceSizes := ![1, 64]
  wf := gather_S20000x64_S4096x1_S4096x64_1_0_n_n_0_1_164_wf
def gather_S50000x1_S4096x1_S4096x1_1_0_n_n_0_1_11 : GatherDims S50000x1 S4096x1 S4096x1 where
  offsetDims := [1]
  collapsedSliceDims := [0]
  operandBatchingDims := []
  startIndicesBatchingDims := []
  startIndexMap := [0]
  indexVectorDim := 1
  sliceSizes := ![1, 1]
  wf := gather_S50000x1_S4096x1_S4096x1_1_0_n_n_0_1_11_wf
def gather_S22000x1_S4096x1_S4096x1_1_0_n_n_0_1_11 : GatherDims S22000x1 S4096x1 S4096x1 where
  offsetDims := [1]
  collapsedSliceDims := [0]
  operandBatchingDims := []
  startIndicesBatchingDims := []
  startIndexMap := [0]
  indexVectorDim := 1
  sliceSizes := ![1, 1]
  wf := gather_S22000x1_S4096x1_S4096x1_1_0_n_n_0_1_11_wf

class Facts : Prop extends Facts₀ where

variable [Facts]
-- ==== Proof.K.Reg0.lean ====
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (custom_call 0, a gather-and-mean launch), at any entry contents

The launch walks its grid point by point. At each point it stages a 400x64 block of the rows' own features (window 0), the
400x3 block of their neighbour indices (window 1) and the whole 4000x64 table (window 2, brought in once), and
writes back a 400x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the point's block at every point. Where the point fetches, that is what
    the fetch brings; where it does not, the block index has not moved since the last fetch and the body has left
    the buffer alone (`hafter`), so the earlier block is this point's. The array is `V`'s (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2, whose block index is constant: it is fetched at the first point only, and every
    later point finds that one block still in its buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S400x64 := Rect.unit (s := S400x64) ![0, 0] S400x64.size inb_S400x64_S400x64_0_0
abbrev r0_1 : Rect S400x3 := Rect.unit (s := S400x3) ![0, 0] S400x3.size inb_S400x3_S400x3_0_0
abbrev r0_2 : Rect S4000x64 := Rect.unit (s := S4000x64) ![0, 0] S4000x64.size inb_S4000x64_S4000x64_0_0

/-! ## What the body leaves in the output window's buffer -/

/-- Window 3's buffer after the body, from the three input blocks: its one store, of the payload of the three
    reads, over the whole buffer. -/
def out0_3 (x0 : Vec F S400x64 .f32) (x1 : Vec F S400x3 .i32) (x2 : Vec F S4000x64 .bf16) : Vec F S400x64 .f32 :=
  View.canon [⟨r0_0, k0_pay1 (View.ld x0 r0_0) (View.ld x1 r0_1) (View.ld x2 r0_2)⟩]

/-- The one store's rectangle is the whole buffer, so every index of the buffer lies in it. -/
theorem cover0_3 (p0 : Vec F S400x64 .f32) (y : S400x64.Idx) :
    ∃ pc ∈ ([⟨r0_0, p0⟩] : List (View.Piece (Elt F) S400x64 .f32)), y ∈ pc.1.set :=
  View.cover_of_tiled [⟨r0_0, p0⟩] S400x64.size (by rfl) y

/-! ## The body's triple -/

set_option maxHeartbeats 1000000 in
/-- The body on whole buffers, the three inputs' holding `x0 x1 x2` and the output's holding anything, runs to a
    state where the inputs' hold what they held and the output's holds `out0_3 x0 x1 x2`. The three input reads
    return the contents; the read of the output buffer returns whatever it holds and is not used; the store then
    overwrites the whole buffer, so what it held before does not matter. -/
theorem sound_kernel0 (c : Dev nD) (E : Set ℕ) (i : grid0.Coords) (arg1 : Memref sig .tc .vmem S400x64 .f32) (harg1 : arg1.IsWhole) (arg2 : Memref sig .tc .vmem S400x3 .i32) (harg2 : arg2.IsWhole) (arg3 : Memref sig .tc .vmem S4000x64 .bf16) (harg3 : arg3.IsWhole) (arg4 : Memref sig .tc .vmem S400x64 .f32) (harg4 : arg4.IsWhole)
    (x0 : Vec F S400x64 .f32) (x1 : Vec F S400x3 .i32) (x2 : Vec F S4000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gather_mean_kernel i arg1 harg1 arg2 harg2 arg3 harg3 arg4 harg4) K := by
  simp only [cc0__gather_mean_kernel_eq_skeleton]; unfold cc0__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as `V` holds them; after the body at point `t` each
    input's buffer still at its block and the output's at `out0_3` of the three input blocks; the invariant that the
    rest of the scoped memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks (`before0_W`) and the output's holds
    something, so `sound_kernel0` applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, a gather-and-mean launch), at any entry contents

The launch walks its grid point by point. At each point it stages a 400x64 block of the rows' own features (window 0), the
400x3 block of their neighbour indices (window 1) and the whole 4000x64 table (window 2, brought in once), and
writes back a 400x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the point's block at every point. Where the point fetches, that is what
    the fetch brings; where it does not, the block index has not moved since the last fetch and the body has left
    the buffer alone (`hafter`), so the earlier block is this point's. The array is `V`'s (`hA`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2, whose block index is constant: it is fetched at the first point only, and every
    later point finds that one block still in its buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S400x64 := Rect.unit (s := S400x64) ![0, 0] S400x64.size inb_S400x64_S400x64_0_0
abbrev r1_1 : Rect S400x3 := Rect.unit (s := S400x3) ![0, 0] S400x3.size inb_S400x3_S400x3_0_0
abbrev r1_2 : Rect S4000x64 := Rect.unit (s := S4000x64) ![0, 0] S4000x64.size inb_S4000x64_S4000x64_0_0

/-! ## What the body leaves in the output window's buffer -/

/-- Window 3's buffer after the body, from the three input blocks: its one store, of the payload of the three
    reads, over the whole buffer. -/
def out1_3 (x0 : Vec F S400x64 .f32) (x1 : Vec F S400x3 .i32) (x2 : Vec F S4000x64 .bf16) : Vec F S400x64 .f32 :=
  View.canon [⟨r1_0, k1_pay1 (View.ld x0 r1_0) (View.ld x1 r1_1) (View.ld x2 r1_2)⟩]

/-- The one store's rectangle is the whole buffer, so every index of the buffer lies in it. -/
theorem cover1_3 (p0 : Vec F S400x64 .f32) (y : S400x64.Idx) :
    ∃ pc ∈ ([⟨r1_0, p0⟩] : List (View.Piece (Elt F) S400x64 .f32)), y ∈ pc.1.set :=
  View.cover_of_tiled [⟨r1_0, p0⟩] S400x64.size (by rfl) y

/-! ## The body's triple -/

set_option maxHeartbeats 1000000 in
/-- The body on whole buffers, the three inputs' holding `x0 x1 x2` and the output's holding anything, runs to a
    state where the inputs' hold what they held and the output's holds `out1_3 x0 x1 x2`. The three input reads
    return the contents; the read of the output buffer returns whatever it holds and is not used; the store then
    overwrites the whole buffer, so what it held before does not matter. -/
theorem sound_kernel1 (c : Dev nD) (E : Set ℕ) (i : grid1.Coords) (arg1 : Memref sig .tc .vmem S400x64 .f32) (harg1 : arg1.IsWhole) (arg2 : Memref sig .tc .vmem S400x3 .i32) (harg2 : arg2.IsWhole) (arg3 : Memref sig .tc .vmem S4000x64 .bf16) (harg3 : arg3.IsWhole) (arg4 : Memref sig .tc .vmem S400x64 .f32) (harg4 : arg4.IsWhole)
    (x0 : Vec F S400x64 .f32) (x1 : Vec F S400x3 .i32) (x2 : Vec F S4000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_mean_kernel i arg1 harg1 arg2 harg2 arg3 harg3 arg4 harg4) K := by
  simp only [cc1__gather_mean_kernel_eq_skeleton]; unfold cc1__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as `V` holds them; after the body at point `t` each
    input's buffer still at its block and the output's at `out1_3` of the three input blocks; the invariant that the
    rest of the scoped memory and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_W`) and the output's holds
    something, so `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (custom_call 2, a gather-and-mean launch), at any entry contents

The launch walks its grid point by point. At each point it stages a 2000x64 block of the rows' own features (window 0), the
2000x3 block of their neighbour indices (window 1) and the whole 1000x64 table (window 2, brought in once), and
writes back a 2000x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the point's block at every point. Where the point fetches, that is what
    the fetch brings; where it does not, the block index has not moved since the last fetch and the body has left
    the buffer alone (`hafter`), so the earlier block is this point's. The array is `V`'s (`hA`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block index is constant: it is fetched at the first point only, and every
    later point finds that one block still in its buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S2000x64 := Rect.unit (s := S2000x64) ![0, 0] S2000x64.size inb_S2000x64_S2000x64_0_0
abbrev r2_1 : Rect S2000x3 := Rect.unit (s := S2000x3) ![0, 0] S2000x3.size inb_S2000x3_S2000x3_0_0
abbrev r2_2 : Rect S1000x64 := Rect.unit (s := S1000x64) ![0, 0] S1000x64.size inb_S1000x64_S1000x64_0_0

/-! ## What the body leaves in the output window's buffer -/

/-- Window 3's buffer after the body, from the three input blocks: its one store, of the payload of the three
    reads, over the whole buffer. -/
def out2_3 (x0 : Vec F S2000x64 .f32) (x1 : Vec F S2000x3 .i32) (x2 : Vec F S1000x64 .bf16) : Vec F S2000x64 .f32 :=
  View.canon [⟨r2_0, k2_pay1 (View.ld x0 r2_0) (View.ld x1 r2_1) (View.ld x2 r2_2)⟩]

/-- The one store's rectangle is the whole buffer, so every index of the buffer lies in it. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The body on whole buffers, the three inputs' holding `x0 x1 x2` and the output's holding anything, runs to a
    state where the inputs' hold what they held and the output's holds `out2_3 x0 x1 x2`. The three input reads
    return the contents; the read of the output buffer returns whatever it holds and is not used; the store then
    overwrites the whole buffer, so what it held before does not matter. -/
theorem sound_kernel2 (c : Dev nD) (E : Set ℕ) (i : grid2.Coords) (arg1 : Memref sig .tc .vmem S2000x64 .f32) (harg1 : arg1.IsWhole) (arg2 : Memref sig .tc .vmem S2000x3 .i32) (harg2 : arg2.IsWhole) (arg3 : Memref sig .tc .vmem S1000x64 .bf16) (harg3 : arg3.IsWhole) (arg4 : Memref sig .tc .vmem S2000x64 .f32) (harg4 : arg4.IsWhole)
    (x0 : Vec F S2000x64 .f32) (x1 : Vec F S2000x3 .i32) (x2 : Vec F S1000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gather_mean_kernel i arg1 harg1 arg2 harg2 arg3 harg3 arg4 harg4) K := by
  simp only [cc2__gather_mean_kernel_eq_skeleton]; unfold cc2__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as `V` holds them; after the body at point `t` each
    input's buffer still at its block and the output's at `out2_3` of the three input blocks; the invariant that the
    rest of the scoped memory and the generator register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_W`) and the output's holds
    something, so `sound_kernel2` applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, `cc3__fm_kernel`, pipeline 3), at the entry contents `V`

The body reads its three input windows' staging buffers whole, reads the output window's buffer (a value no later
operation uses) and stores one payload over the whole of the output window's buffer. So what the body leaves in
the output buffer is a closed function of the three input blocks at the point, and each input buffer holds its
window's block at every point, fetched there or not. Everything is stated at a parameter `V`: the TensorCore's
buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is
    not fetched its block index has not moved, so the buffer still holds this point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2, whose block index is constant over the grid: it is fetched at the first point only
    and holds the one block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of input window 0's buffer (the first load). -/
abbrev r3_0 : Rect S1024x6x64 := Rect.unit (s := S1024x6x64) ![0, 0, 0] S1024x6x64.size inb_S1024x6x64_S1024x6x64_0_0_0
/-- The whole of input window 1's buffer (the second load). -/
abbrev r3_1 : Rect S1024x1 := Rect.unit (s := S1024x1) ![0, 0] S1024x1.size inb_S1024x1_S1024x1_0_0
/-- The whole of input window 2's buffer (the third load). -/
abbrev r3_2 : Rect S1x1 := Rect.unit (s := S1x1) ![0, 0] S1x1.size inb_S1x1_S1x1_0_0
/-- The whole of the output window's buffer (the store). -/
abbrev r3_3 : Rect S1024x1 := Rect.unit (s := S1024x1) ![0, 0] S1024x1.size inb_S1024x1_S1024x1_0_0

/-! ## What the body leaves in the output window's buffer -/

/-- Window 3's staging buffer after the body, from the input windows' blocks: its one store as a piece over the
    whole buffer, the payload computed from what the three loads read. -/
def out3_3 (x0 : Vec F S1024x6x64 .f32) (x1 : Vec F S1024x1 .f32) (x2 : Vec F S1x1 .f32) : Vec F S1024x1 .f32 :=
  View.canon [⟨r3_3, k3_pay1 (View.ld x0 r3_0) (View.ld x1 r3_1) (View.ld x2 r3_2)⟩]

/-- The one store's rectangle is the whole buffer, so it covers it. -/
theorem cover3_3 (p0 : Vec F S1024x1 .f32) (y : S1024x1.Idx) :
    ∃ pc ∈ ([⟨r3_3, p0⟩] : List (View.Piece (Elt F) S1024x1 .f32)), y ∈ pc.1.set :=
  View.cover_of_tiled [⟨r3_3, p0⟩] S1024x1.size (by rfl) y

/-! ## The body's triple -/

set_option maxHeartbeats 1000000 in
/-- The kernel body on whole staging memrefs, the inputs' at read contents `x0 x1 x2` and the output's at anything,
    runs to the continuation holding the inputs' as they were and the output's at `out3_3` of the inputs': the three
    loads read the inputs, the load of the output buffer reads a value nothing uses, and the store writes the payload
    over the whole buffer. -/
theorem sound_kernel3 (c : Dev nD) (E : Set ℕ) (i : grid3.Coords) (arg1 : Memref sig .tc .vmem S1024x6x64 .f32) (harg1 : arg1.IsWhole) (arg2 : Memref sig .tc .vmem S1024x1 .f32) (harg2 : arg2.IsWhole) (arg3 : Memref sig .tc .vmem S1x1 .f32) (harg3 : arg3.IsWhole) (arg4 : Memref sig .tc .vmem S1024x1 .f32) (harg4 : arg4.IsWhole)
    (x0 : Vec F S1024x6x64 .f32) (x1 : Vec F S1024x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__fm_kernel i arg1 harg1 arg2 harg2 arg3 harg3 arg4 harg4) K := by
  simp only [cc3__fm_kernel_eq_skeleton]; unfold cc3__fm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant that
    the scoped rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Fold.lean ====
/- The buffer contents of one core at each of the sixteen boundaries of @main — before and after each of its eleven
   stretches of host operations and four kernel regions — as a fold from the launch memory; for each stretch the
   list of buffers it writes with the fact that it leaves every other buffer as it found it; for each region the
   fact that it changes its output array only; and from these, that the seventeen arguments hold their launch
   contents at every boundary. Stated at any float instance `F`. -/
import proofs.«423063_j64879775973997_3_alg».proof.Proof.K.Reg0
import proofs.«423063_j64879775973997_3_alg».proof.Proof.K.Reg1
import proofs.«423063_j64879775973997_3_alg».proof.Proof.K.Reg2
import proofs.«423063_j64879775973997_3_alg».proof.Proof.K.Reg3
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is fifteen items: eleven stretches of host operations and four kernel regions. A stretch takes the
contents `W` to `StableHlo.after ops W`; a region takes them to the same contents with its four arrays
replaced by what its write-backs leave. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2` (region 1's entry). -/
abbrev W7 : Dev nD → Valuation τ sig (Elt F) := fun c => StableHlo.after hostOps1_2 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- After `hostOps2_1`. -/
abbrev W10 : Dev nD → Valuation τ sig (Elt F) := fun c => StableHlo.after hostOps2_1 (W9 m ρ c)
/-- After `hostOps2_2` (region 2's entry). -/
abbrev W11 : Dev nD → Valuation τ sig (Elt F) := fun c => StableHlo.after hostOps2_2 (W10 m ρ c)
/-- The same read at the TensorCore's references (what region 2's proof data take). -/
abbrev V11 : (c : Dev nD) → (b : Ref sig .tc) → Buf (Elt F) ((c : Thread nD τ).loc b) := fun c b => W11 m ρ c b
/-- At region 2's exit: its arrays at what the pipeline leaves (the inputs as entered, the output's write-backs
    folded), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
/-- At region 2's exit each of its arrays holds what the pipeline leaves (`hF2`) and every other buffer what it
    held at entry (`hrest2`). -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After `hostOps3` (region 3's entry). -/
abbrev W13 : Dev nD → Valuation τ sig (Elt F) := fun c => StableHlo.after hostOps3 (W12 m ρ c)
/-- The same read at the TensorCore's references (what region 3's proof data take). -/
abbrev V13 : (c : Dev nD) → (b : Ref sig .tc) → Buf (Elt F) ((c : Thread nD τ).loc b) := fun c b => W13 m ρ c b
/-- At region 3's exit: its arrays at what the pipeline leaves (the inputs as entered, the output's write-backs
    folded), every other buffer as entered. -/
def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
/-- The same read at the TensorCore's references (region 3's exit contents). -/
abbrev V14 : (c : Dev nD) → (b : Ref sig .tc) → Buf (Elt F) ((c : Thread nD τ).loc b) := fun c b => W14 m ρ c b
/-- At region 3's exit each of its arrays holds what the pipeline leaves (`hF3`) and every other buffer what it
    held at entry (`hrest3`). -/
theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

/-- After `hostOps4` (the return). -/
abbrev W15 : Dev nD → Valuation τ sig (Elt F) := fun c => StableHlo.after hostOps4 (W14 m ρ c)

/-! # What each stretch writes, and that it leaves every other buffer alone -/

/-- The buffers that `hostOps0`'s operations write. -/
abbrev hostOps0_W : List (Ref sig .tc) := [main_c, main_c_0]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0` does not write keeps its contents through it. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The buffers that `hostOps0_1`'s operations write. -/
abbrev hostOps0_1_W : List (Ref sig .tc) := [main_call0_v0, main_call0_v1, main_call0_v2, main_call0_v3, main_call0_v4, main_v0]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0_1` does not write keeps its contents through it. -/
theorem W2_keep (c : Dev nD) (r : Ref sig .tc) (h : r ∉ (hostOps0_1_W : List (Ref sig .tc))) :
    W2 m ρ c (Proc.devRef .tc r) = W1 m ρ c (Proc.devRef .tc r) :=
  StableHlo.after_of_writes_sub hostOps0_1 _ hostOps0_1_writes h

/-- The buffers that `hostOps0_2`'s operations write. -/
abbrev hostOps0_2_W : List (Ref sig .tc) := [main_v1]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0_2` does not write keeps its contents through it. -/
theorem W3_keep (c : Dev nD) (r : Ref sig .tc) (h : r ∉ (hostOps0_2_W : List (Ref sig .tc))) :
    W3 m ρ c (Proc.devRef .tc r) = W2 m ρ c (Proc.devRef .tc r) :=
  StableHlo.after_of_writes_sub hostOps0_2 _ hostOps0_2_writes h

/-- The buffers that `hostOps1`'s operations write. -/
abbrev hostOps1_W : List (Ref sig .tc) := [main_v3, main_c_1, main_c_2]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1` does not write keeps its contents through it. -/
theorem W5_keep (c : Dev nD) (r : Ref sig .tc) (h : r ∉ (hostOps1_W : List (Ref sig .tc))) :
    W5 m ρ c (Proc.devRef .tc r) = W4 m ρ c (Proc.devRef .tc r) :=
  StableHlo.after_of_writes_sub hostOps1 _ hostOps1_writes h

/-- The buffers that `hostOps1_1`'s operations write. -/
abbrev hostOps1_1_W : List (Ref sig .tc) := [main_call1_v0, main_call1_v1, main_call1_v2, main_call1_v3, main_call1_v4, main_v4]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1_1` does not write keeps its contents through it. -/
theorem W6_keep (c : Dev nD) (r : Ref sig .tc) (h : r ∉ (hostOps1_1_W : List (Ref sig .tc))) :
    W6 m ρ c (Proc.devRef .tc r) = W5 m ρ c (Proc.devRef .tc r) :=
  StableHlo.after_of_writes_sub hostOps1_1 _ hostOps1_1_writes h

/-- The buffers that `hostOps1_2`'s operations write. -/
abbrev hostOps1_2_W : List (Ref sig .tc) := [main_v5]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1_2` does not write keeps its contents through it. -/
theorem W7_keep (c : Dev nD) (r : Ref sig .tc) (h : r ∉ (hostOps1_2_W : List (Ref sig .tc))) :
    W7 m ρ c (Proc.devRef .tc r) = W6 m ρ c (Proc.devRef .tc r) :=
  StableHlo.after_of_writes_sub hostOps1_2 _ hostOps1_2_writes h

/-- The buffers that `hostOps2`'s operations write. -/
abbrev hostOps2_W : List (Ref sig .tc) := [main_v7, main_v8, main_c_3, main_v9, main_v10, main_c_4, main_v11, main_v12, main_v13, main_v14, main_v15, main_v16, main_c_5, main_c_6]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2` does not write keeps its contents through it. -/
theorem W9_keep (c : Dev nD) (r : Ref sig .tc) (h : r ∉ (hostOps2_W : List (Ref sig .tc))) :
    W9 m ρ c (Proc.devRef .tc r) = W8 m ρ c (Proc.devRef .tc r) :=
  StableHlo.after_of_writes_sub hostOps2 _ hostOps2_writes h

/-- The buffers that `hostOps2_1`'s operations write. -/
abbrev hostOps2_1_W : List (Ref sig .tc) := [main_call2_v0, main_call2_v1, main_call2_v2, main_call2_v3, main_call2_v4, main_v17]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2_1` does not write keeps its contents through it. -/
theorem W10_keep (c : Dev nD) (r : Ref sig .tc) (h : r ∉ (hostOps2_1_W : List (Ref sig .tc))) :
    W10 m ρ c (Proc.devRef .tc r) = W9 m ρ c (Proc.devRef .tc r) :=
  StableHlo.after_of_writes_sub hostOps2_1 _ hostOps2_1_writes h

/-- The buffers that `hostOps2_2`'s operations write. -/
abbrev hostOps2_2_W : List (Ref sig .tc) := [main_v18]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2_2` does not write keeps its contents through it. -/
theorem W11_keep (c : Dev nD) (r : Ref sig .tc) (h : r ∉ (hostOps2_2_W : List (Ref sig .tc))) :
    W11 m ρ c (Proc.devRef .tc r) = W10 m ρ c (Proc.devRef .tc r) :=
  StableHlo.after_of_writes_sub hostOps2_2 _ hostOps2_2_writes h

/-- The buffers that `hostOps3`'s operations write. -/
abbrev hostOps3_W : List (Ref sig .tc) := [main_c_7, main_v20, main_v21, main_c_8, main_v22, main_v23, main_v24, main_v25, main_v26, main_cst, main_v27, main_v28, main_cst_9, main_v29, main_v30, main_c_10, main_v31, main_v32, main_c_11, main_v33, main_v34, main_v35, main_v36, main_v37, main_c_12, main_v38, main_v39, main_c_13, main_v40, main_v41, main_v42, main_v43, main_v44, main_v45, main_cst_14, main_v46, main_v47, main_v48, main_v49, main_cst_15, main_v50, main_v51, main_v52, main_cst_16, main_v53, main_v54, main_v55, main_cst_17, main_v56, main_v57, main_v58, main_c_18, main_v59, main_v60, main_c_19, main_v61, main_v62, main_v63, main_v64, main_v65, main_c_20, main_v66, main_v67, main_c_21, main_v68, main_v69, main_v70, main_v71, main_v72, main_v73, main_cst_22, main_v74, main_v75, main_v76, main_v77, main_cst_23, main_v78, main_v79, main_v80, main_cst_24, main_v81, main_v82, main_v83, main_cst_25, main_v84, main_v85, main_v86, main_c_26, main_v87, main_v88, main_c_27, main_v89, main_v90, main_v91, main_v92, main_v93, main_v94, main_c_28, main_v95, main_v96, main_c_29, main_v97, main_v98, main_v99, main_v100, main_v101, main_v102, main_v103, main_c_30, main_v104, main_v105, main_c_31, main_v106, main_v107, main_v108, main_v109, main_v110, main_v111, main_v112, main_c_32, main_v113, main_v114, main_c_33, main_v115, main_v116, main_v117, main_v118, main_v119, main_c_34, main_v120, main_v121, main_c_35, main_v122, main_v123, main_v124, main_v125, main_v126, main_c_36, main_v127, main_v128, main_c_37, main_v129, main_v130, main_v131, main_v132, main_v133, main_c_38, main_v134, main_v135, main_c_39, main_v136, main_v137, main_v138, main_v139, main_v140, main_v141, main_v142, main_v143, main_v144]
set_option maxRecDepth 16384 in
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps3` does not write keeps its contents through it. -/
theorem W13_keep (c : Dev nD) (r : Ref sig .tc) (h : r ∉ (hostOps3_W : List (Ref sig .tc))) :
    W13 m ρ c (Proc.devRef .tc r) = W12 m ρ c (Proc.devRef .tc r) :=
  StableHlo.after_of_writes_sub hostOps3 _ hostOps3_writes h

/-- The buffers that `hostOps4`'s operations write. -/
abbrev hostOps4_W : List (Ref sig .tc) := [main_v146]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps4` does not write keeps its contents through it. -/
theorem W15_keep (c : Dev nD) (r : Ref sig .tc) (h : r ∉ (hostOps4_W : List (Ref sig .tc))) :
    W15 m ρ c (Proc.devRef .tc r) = W14 m ρ c (Proc.devRef .tc r) :=
  StableHlo.after_of_writes_sub hostOps4 _ hostOps4_writes h

/-! # What each region writes: its output array only -/

/-- An input window's array leaves region 0 as it entered: no write-back touches it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- Every window of region 0 but the one on `main_v2` is an input. -/
theorem spec0_in : ∀ w : Fin cfg0.W, Pipeline.arrRef spec0 w ≠ main_v2 → (cfg0.win w).isOut = false := by decide
/-- Region 0 writes its output array `main_v2` only: every other buffer keeps its contents through it (an input
    array because no write-back touches it, any other buffer because the region passes it by). -/
theorem W4_keep (c : Dev nD) (r : Ref sig .tc) (h : r ≠ main_v2) :
    W4 m ρ c (Proc.devRef .tc r) = W3 m ρ c (Proc.devRef .tc r) := by
  by_cases hw : ∃ w, Pipeline.arrRef spec0 w = r
  · obtain ⟨w, rfl⟩ := hw
    exact W4_in m ρ c w (spec0_in w h)
  · exact W4_of_ne m ρ c r fun w e => hw ⟨w, e⟩

/-- An input window's array leaves region 1 as it entered: no write-back touches it. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
/-- Every window of region 1 but the one on `main_v6` is an input. -/
theorem spec1_in : ∀ w : Fin cfg1.W, Pipeline.arrRef spec1 w ≠ main_v6 → (cfg1.win w).isOut = false := by decide
/-- Region 1 writes its output array `main_v6` only: every other buffer keeps its contents through it (an input
    array because no write-back touches it, any other buffer because the region passes it by). -/
theorem W8_keep (c : Dev nD) (r : Ref sig .tc) (h : r ≠ main_v6) :
    W8 m ρ c (Proc.devRef .tc r) = W7 m ρ c (Proc.devRef .tc r) := by
  by_cases hw : ∃ w, Pipeline.arrRef spec1 w = r
  · obtain ⟨w, rfl⟩ := hw
    exact W8_in m ρ c w (spec1_in w h)
  · exact W8_of_ne m ρ c r fun w e => hw ⟨w, e⟩

/-- An input window's array leaves region 2 as it entered: no write-back touches it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- Every window of region 2 but the one on `main_v19` is an input. -/
theorem spec2_in : ∀ w : Fin cfg2.W, Pipeline.arrRef spec2 w ≠ main_v19 → (cfg2.win w).isOut = false := by decide
/-- Region 2 writes its output array `main_v19` only: every other buffer keeps its contents through it (an input
    array because no write-back touches it, any other buffer because the region passes it by). -/
theorem W12_keep (c : Dev nD) (r : Ref sig .tc) (h : r ≠ main_v19) :
    W12 m ρ c (Proc.devRef .tc r) = W11 m ρ c (Proc.devRef .tc r) := by
  by_cases hw : ∃ w, Pipeline.arrRef spec2 w = r
  · obtain ⟨w, rfl⟩ := hw
    exact W12_in m ρ c w (spec2_in w h)
  · exact W12_of_ne m ρ c r fun w e => hw ⟨w, e⟩

/-- An input window's array leaves region 3 as it entered: no write-back touches it. -/
theorem W14_in (c : Dev nD) (w : Fin cfg3.W) (hin : (cfg3.win w).isOut = false) :
    W14 m ρ c (Proc.devRef .tc (Pipeline.arrRef spec3 w)) = W13 m ρ c (Proc.devRef .tc (Pipeline.arrRef spec3 w)) :=
  (W14_arr m ρ c w).trans (((dat3 (V13 m ρ) c).arrAt_in w hin _).trans (A_eq3 (V13 m ρ) c w))
/-- Every window of region 3 but the one on `main_v145` is an input. -/
theorem spec3_in : ∀ w : Fin cfg3.W, Pipeline.arrRef spec3 w ≠ main_v145 → (cfg3.win w).isOut = false := by decide
/-- Region 3 writes its output array `main_v145` only: every other buffer keeps its contents through it (an input
    array because no write-back touches it, any other buffer because the region passes it by). -/
theorem W14_keep (c : Dev nD) (r : Ref sig .tc) (h : r ≠ main_v145) :
    W14 m ρ c (Proc.devRef .tc r) = W13 m ρ c (Proc.devRef .tc r) := by
  by_cases hw : ∃ w, Pipeline.arrRef spec3 w = r
  · obtain ⟨w, rfl⟩ := hw
    exact W14_in m ρ c w (spec3_in w h)
  · exact W14_of_ne m ρ c r fun w e => hw ⟨w, e⟩

/-! # The arguments keep their launch contents at every boundary

No host operation writes an argument and no region has one as its output array. -/

/-- The seventeen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]
theorem hostOps0_args : ∀ r ∈ argRefs, r ∉ (hostOps0_W : List (Ref sig .tc)) := by decide
theorem hostOps0_1_args : ∀ r ∈ argRefs, r ∉ (hostOps0_1_W : List (Ref sig .tc)) := by decide
theorem hostOps0_2_args : ∀ r ∈ argRefs, r ∉ (hostOps0_2_W : List (Ref sig .tc)) := by decide
theorem hostOps1_args : ∀ r ∈ argRefs, r ∉ (hostOps1_W : List (Ref sig .tc)) := by decide
theorem hostOps1_1_args : ∀ r ∈ argRefs, r ∉ (hostOps1_1_W : List (Ref sig .tc)) := by decide
theorem hostOps1_2_args : ∀ r ∈ argRefs, r ∉ (hostOps1_2_W : List (Ref sig .tc)) := by decide
theorem hostOps2_args : ∀ r ∈ argRefs, r ∉ (hostOps2_W : List (Ref sig .tc)) := by decide
theorem hostOps2_1_args : ∀ r ∈ argRefs, r ∉ (hostOps2_1_W : List (Ref sig .tc)) := by decide
theorem hostOps2_2_args : ∀ r ∈ argRefs, r ∉ (hostOps2_2_W : List (Ref sig .tc)) := by decide
set_option maxRecDepth 65536 in
theorem hostOps3_args : ∀ r ∈ argRefs, r ∉ (hostOps3_W : List (Ref sig .tc)) := by decide
theorem hostOps4_args : ∀ r ∈ argRefs, r ∉ (hostOps4_W : List (Ref sig .tc)) := by decide
theorem spec0_args : ∀ r ∈ argRefs, r ≠ main_v2 := by decide
theorem spec1_args : ∀ r ∈ argRefs, r ≠ main_v6 := by decide
theorem spec2_args : ∀ r ∈ argRefs, r ≠ main_v19 := by decide
theorem spec3_args : ∀ r ∈ argRefs, r ≠ main_v145 := by decide

theorem W0_args (c : Dev nD) (r : Ref sig .tc) (hr : r ∈ argRefs) : W0 m ρ c (Proc.devRef .tc r) = W0 m ρ c (Proc.devRef .tc r) := rfl
theorem W1_args (c : Dev nD) (r : Ref sig .tc) (hr : r ∈ argRefs) : W1 m ρ c (Proc.devRef .tc r) = W0 m ρ c (Proc.devRef .tc r) :=
  (W1_keep m ρ c r (hostOps0_args r hr)).trans (W0_args m ρ c r hr)
theorem W2_args (c : Dev nD) (r : Ref sig .tc) (hr : r ∈ argRefs) : W2 m ρ c (Proc.devRef .tc r) = W0 m ρ c (Proc.devRef .tc r) :=
  (W2_keep m ρ c r (hostOps0_1_args r hr)).trans (W1_args m ρ c r hr)
theorem W3_args (c : Dev nD) (r : Ref sig .tc) (hr : r ∈ argRefs) : W3 m ρ c (Proc.devRef .tc r) = W0 m ρ c (Proc.devRef .tc r) :=
  (W3_keep m ρ c r (hostOps0_2_args r hr)).trans (W2_args m ρ c r hr)
theorem W4_args (c : Dev nD) (r : Ref sig .tc) (hr : r ∈ argRefs) : W4 m ρ c (Proc.devRef .tc r) = W0 m ρ c (Proc.devRef .tc r) :=
  (W4_keep m ρ c r (spec0_args r hr)).trans (W3_args m ρ c r hr)
theorem W5_args (c : Dev nD) (r : Ref sig .tc) (hr : r ∈ argRefs) : W5 m ρ c (Proc.devRef .tc r) = W0 m ρ c (Proc.devRef .tc r) :=
  (W5_keep m ρ c r (hostOps1_args r hr)).trans (W4_args m ρ c r hr)
theorem W6_args (c : Dev nD) (r : Ref sig .tc) (hr : r ∈ argRefs) : W6 m ρ c (Proc.devRef .tc r) = W0 m ρ c (Proc.devRef .tc r) :=
  (W6_keep m ρ c r (hostOps1_1_args r hr)).trans (W5_args m ρ c r hr)
theorem W7_args (c : Dev nD) (r : Ref sig .tc) (hr : r ∈ argRefs) : W7 m ρ c (Proc.devRef .tc r) = W0 m ρ c (Proc.devRef .tc r) :=
  (W7_keep m ρ c r (hostOps1_2_args r hr)).trans (W6_args m ρ c r hr)
theorem W8_args (c : Dev nD) (r : Ref sig .tc) (hr : r ∈ argRefs) : W8 m ρ c (Proc.devRef .tc r) = W0 m ρ c (Proc.devRef .tc r) :=
  (W8_keep m ρ c r (spec1_args r hr)).trans (W7_args m ρ c r hr)
theorem W9_args (c : Dev nD) (r : Ref sig .tc) (hr : r ∈ argRefs) : W9 m ρ c (Proc.devRef .tc r) = W0 m ρ c (Proc.devRef .tc r) :=
  (W9_keep m ρ c r (hostOps2_args r hr)).trans (W8_args m ρ c r hr)
theorem W10_args (c : Dev nD) (r : Ref sig .tc) (hr : r ∈ argRefs) : W10 m ρ c (Proc.devRef .tc r) = W0 m ρ c (Proc.devRef .tc r) :=
  (W10_keep m ρ c r (hostOps2_1_args r hr)).trans (W9_args m ρ c r hr)
theorem W11_args (c : Dev nD) (r : Ref sig .tc) (hr : r ∈ argRefs) : W11 m ρ c (Proc.devRef .tc r) = W0 m ρ c (Proc.devRef .tc r) :=
  (W11_keep m ρ c r (hostOps2_2_args r hr)).trans (W10_args m ρ c r hr)
theorem W12_args (c : Dev nD) (r : Ref sig .tc) (hr : r ∈ argRefs) : W12 m ρ c (Proc.devRef .tc r) = W0 m ρ c (Proc.devRef .tc r) :=
  (W12_keep m ρ c r (spec2_args r hr)).trans (W11_args m ρ c r hr)
theorem W13_args (c : Dev nD) (r : Ref sig .tc) (hr : r ∈ argRefs) : W13 m ρ c (Proc.devRef .tc r) = W0 m ρ c (Proc.devRef .tc r) :=
  (W13_keep m ρ c r (hostOps3_args r hr)).trans (W12_args m ρ c r hr)
theorem W14_args (c : Dev nD) (r : Ref sig .tc) (hr : r ∈ argRefs) : W14 m ρ c (Proc.devRef .tc r) = W0 m ρ c (Proc.devRef .tc r) :=
  (W14_keep m ρ c r (spec3_args r hr)).trans (W13_args m ρ c r hr)
theorem W15_args (c : Dev nD) (r : Ref sig .tc) (hr : r ∈ argRefs) : W15 m ρ c (Proc.devRef .tc r) = W0 m ρ c (Proc.devRef .tc r) :=
  (W15_keep m ρ c r (hostOps4_args r hr)).trans (W14_args m ρ c r hr)

/-! # Two regions' outputs are kept until they are read

`main_v2` (region 0's output) and `main_v6` (region 1's) are written by no later stretch and are the output of
no later region, up to region 2's exit. -/

theorem W12_v2 (c : Dev nD) : W12 m ρ c (Proc.devRef .tc main_v2) = W4 m ρ c (Proc.devRef .tc main_v2) :=
  calc W12 m ρ c (Proc.devRef .tc main_v2)
    _ = W11 m ρ c (Proc.devRef .tc main_v2) := W12_keep m ρ c main_v2 (by decide)
    _ = W10 m ρ c (Proc.devRef .tc main_v2) := W11_keep m ρ c main_v2 (by decide)
    _ = W9 m ρ c (Proc.devRef .tc main_v2) := W10_keep m ρ c main_v2 (by decide)
    _ = W8 m ρ c (Proc.devRef .tc main_v2) := W9_keep m ρ c main_v2 (by decide)
    _ = W7 m ρ c (Proc.devRef .tc main_v2) := W8_keep m ρ c main_v2 (by decide)
    _ = W6 m ρ c (Proc.devRef .tc main_v2) := W7_keep m ρ c main_v2 (by decide)
    _ = W5 m ρ c (Proc.devRef .tc main_v2) := W6_keep m ρ c main_v2 (by decide)
    _ = W4 m ρ c (Proc.devRef .tc main_v2) := W5_keep m ρ c main_v2 (by decide)
theorem W12_v6 (c : Dev nD) : W12 m ρ c (Proc.devRef .tc main_v6) = W8 m ρ c (Proc.devRef .tc main_v6) :=
  calc W12 m ρ c (Proc.devRef .tc main_v6)
    _ = W11 m ρ c (Proc.devRef .tc main_v6) := W12_keep m ρ c main_v6 (by decide)
    _ = W10 m ρ c (Proc.devRef .tc main_v6) := W11_keep m ρ c main_v6 (by decide)
    _ = W9 m ρ c (Proc.devRef .tc main_v6) := W10_keep m ρ c main_v6 (by decide)
    _ = W8 m ρ c (Proc.devRef .tc main_v6) := W9_keep m ρ c main_v6 (by decide)

end Cert.Kernel.Hand

end
-- ==== Proof.K.Run.lean ====
/- THE RUN of @main at any float instance `F`: its fifteen segments — eleven stretches of host operations, four kernel
   regions — over the thread state "every unscoped buffer at the boundary's contents, the generator register at some
   state, nothing owed"; the launch theorem over them; each argument read back through the fold to its launch
   contents; and the frame claim. -/
import proofs.«423063_j64879775973997_3_alg».proof.Proof.K.Fold
import proofs.«423063_j64879775973997_3_alg».proof.Proof.Gen.Kernel.Launch
import proofs.«423063_j64879775973997_3_alg».proof.Proof.Gen.Kernel.Skeleton
import proofs.«423063_j64879775973997_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps2_1` allocates a buffer. -/
theorem hostOps2_1_fresh : (hostOps2_1 : List (HloOp τ sig (Elt F))).Forall fun op => op.fresh = ∅ := by
  simp only [List.Forall]; repeat' constructor
/-- No operation of `hostOps2_2` allocates a buffer. -/
theorem hostOps2_2_fresh : (hostOps2_2 : List (HloOp τ sig (Elt F))).Forall fun op => op.fresh = ∅ := by
  simp only [List.Forall]; repeat' constructor
set_option maxRecDepth 16384 in
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W15`, the
    generator register at some state. -/
abbrev Tₙ (c : Dev nD) : sProp 𝕄 := iprop(StableHlo.held (c : Thread nD τ) (Pipeline.ucRefs τ sig) (W15 m ρ c) ∗ ∃ r, prngReg c r)

/-! # The regions as segments -/

set_option backward.isDefEq.respectTransparency.types false in
/-- REGION 0 over the thread state: entered from every unscoped buffer at `W3`, left at `W4` (what the
    next stretch is entered from). Its arrays are split out of the unscoped buffers and put back at the exit
    contents; the generator register goes into the class invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8` (what the
    next stretch is entered from). Its arrays are split out of the unscoped buffers and put back at the exit
    contents; the generator register goes into the class invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W11`, left at `W12` (what the
    next stretch is entered from). Its arrays are split out of the unscoped buffers and put back at the exit
    contents; the generator register goes into the class invariant and comes back; nothing is owed; the kernel
    has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W13`, left at `W14` (what the
    next stretch is entered from). Its arrays are split out of the unscoped buffers and put back at the exit
    contents; the generator register goes into the class invariant and comes back; nothing is owed; the kernel
    has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 15 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .region (reg3 m ρ),
    .host (hseg hostOps4 hostOps4_sub hostOps4_fresh (W14 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state each unscoped buffer holds the fold's last contents `W15`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W15 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-! # The arguments end as launched

No host operation and no region writes an argument (a region reads one through an input window or passes it by),
so the fold at an argument's buffer walks back to the launch memory (`W15_args`). -/

theorem W15_main_arg0 (c : Dev nD) : W15 m ρ c (Proc.devRef .tc main_arg0) = m ((c : Thread nD τ).loc main_arg0) :=
  (W15_args m ρ c main_arg0 (by decide)).trans rfl
theorem W15_main_arg1 (c : Dev nD) : W15 m ρ c (Proc.devRef .tc main_arg1) = m ((c : Thread nD τ).loc main_arg1) :=
  (W15_args m ρ c main_arg1 (by decide)).trans rfl
theorem W15_main_arg2 (c : Dev nD) : W15 m ρ c (Proc.devRef .tc main_arg2) = m ((c : Thread nD τ).loc main_arg2) :=
  (W15_args m ρ c main_arg2 (by decide)).trans rfl
theorem W15_main_arg3 (c : Dev nD) : W15 m ρ c (Proc.devRef .tc main_arg3) = m ((c : Thread nD τ).loc main_arg3) :=
  (W15_args m ρ c main_arg3 (by decide)).trans rfl
theorem W15_main_arg4 (c : Dev nD) : W15 m ρ c (Proc.devRef .tc main_arg4) = m ((c : Thread nD τ).loc main_arg4) :=
  (W15_args m ρ c main_arg4 (by decide)).trans rfl
theorem W15_main_arg5 (c : Dev nD) : W15 m ρ c (Proc.devRef .tc main_arg5) = m ((c : Thread nD τ).loc main_arg5) :=
  (W15_args m ρ c main_arg5 (by decide)).trans rfl
theorem W15_main_arg6 (c : Dev nD) : W15 m ρ c (Proc.devRef .tc main_arg6) = m ((c : Thread nD τ).loc main_arg6) :=
  (W15_args m ρ c main_arg6 (by decide)).trans rfl
theorem W15_main_arg7 (c : Dev nD) : W15 m ρ c (Proc.devRef .tc main_arg7) = m ((c : Thread nD τ).loc main_arg7) :=
  (W15_args m ρ c main_arg7 (by decide)).trans rfl
theorem W15_main_arg8 (c : Dev nD) : W15 m ρ c (Proc.devRef .tc main_arg8) = m ((c : Thread nD τ).loc main_arg8) :=
  (W15_args m ρ c main_arg8 (by decide)).trans rfl
theorem W15_main_arg9 (c : Dev nD) : W15 m ρ c (Proc.devRef .tc main_arg9) = m ((c : Thread nD τ).loc main_arg9) :=
  (W15_args m ρ c main_arg9 (by decide)).trans rfl
theorem W15_main_arg10 (c : Dev nD) : W15 m ρ c (Proc.devRef .tc main_arg10) = m ((c : Thread nD τ).loc main_arg10) :=
  (W15_args m ρ c main_arg10 (by decide)).trans rfl
theorem W15_main_arg11 (c : Dev nD) : W15 m ρ c (Proc.devRef .tc main_arg11) = m ((c : Thread nD τ).loc main_arg11) :=
  (W15_args m ρ c main_arg11 (by decide)).trans rfl
theorem W15_main_arg12 (c : Dev nD) : W15 m ρ c (Proc.devRef .tc main_arg12) = m ((c : Thread nD τ).loc main_arg12) :=
  (W15_args m ρ c main_arg12 (by decide)).trans rfl
theorem W15_main_arg13 (c : Dev nD) : W15 m ρ c (Proc.devRef .tc main_arg13) = m ((c : Thread nD τ).loc main_arg13) :=
  (W15_args m ρ c main_arg13 (by decide)).trans rfl
theorem W15_main_arg14 (c : Dev nD) : W15 m ρ c (Proc.devRef .tc main_arg14) = m ((c : Thread nD τ).loc main_arg14) :=
  (W15_args m ρ c main_arg14 (by decide)).trans rfl
theorem W15_main_arg15 (c : Dev nD) : W15 m ρ c (Proc.devRef .tc main_arg15) = m ((c : Thread nD τ).loc main_arg15) :=
  (W15_args m ρ c main_arg15 (by decide)).trans rfl
theorem W15_main_arg16 (c : Dev nD) : W15 m ρ c (Proc.devRef .tc main_arg16) = m ((c : Thread nD τ).loc main_arg16) :=
  (W15_args m ρ c main_arg16 (by decide)).trans rfl

/-- THE FRAME: at the compiled mesh, from any memory with zero counters, every weakly fair execution of @main on the
    TensorCores terminates, nothing faulting, and every final state has the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c),
      (h c _ (mem_uc main_arg15 (by decide))).trans (W15_main_arg15 m ρ c),
      (h c _ (mem_uc main_arg16 (by decide))).trans (W15_main_arg16 m ρ c)⟩) (run_main m ρ)

end Cert.Kernel.Hand

end
-- ==== Proof.KI.Reg0.lean ====
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (custom_call 0, a gather-and-mean launch), at any entry contents

The launch walks its grid point by point. At each point it stages a 400x64 block of the rows' own features (window 0), the
400x3 block of their neighbour indices (window 1) and the whole 4000x64 table (window 2, brought in once), and
writes back a 400x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the point's block at every point. Where the point fetches, that is what
    the fetch brings; where it does not, the block index has not moved since the last fetch and the body has left
    the buffer alone (`hafter`), so the earlier block is this point's. The array is `V`'s (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2, whose block index is constant: it is fetched at the first point only, and every
    later point finds that one block still in its buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S400x64 := Rect.unit (s := S400x64) ![0, 0] S400x64.size inb_S400x64_S400x64_0_0
abbrev r0_1 : Rect S400x3 := Rect.unit (s := S400x3) ![0, 0] S400x3.size inb_S400x3_S400x3_0_0
abbrev r0_2 : Rect S4000x64 := Rect.unit (s := S4000x64) ![0, 0] S4000x64.size inb_S4000x64_S4000x64_0_0

/-! ## What the body leaves in the output window's buffer -/

/-- Window 3's buffer after the body, from the three input blocks: its one store, of the payload of the three
    reads, over the whole buffer. -/
def out0_3 (x0 : Vec F S400x64 .f32) (x1 : Vec F S400x3 .i32) (x2 : Vec F S4000x64 .bf16) : Vec F S400x64 .f32 :=
  View.canon [⟨r0_0, k0_pay1 (View.ld x0 r0_0) (View.ld x1 r0_1) (View.ld x2 r0_2)⟩]

/-- The one store's rectangle is the whole buffer, so every index of the buffer lies in it. -/
theorem cover0_3 (p0 : Vec F S400x64 .f32) (y : S400x64.Idx) :
    ∃ pc ∈ ([⟨r0_0, p0⟩] : List (View.Piece (Elt F) S400x64 .f32)), y ∈ pc.1.set :=
  View.cover_of_tiled [⟨r0_0, p0⟩] S400x64.size (by rfl) y

/-! ## The body's triple -/

set_option maxHeartbeats 1000000 in
/-- The body on whole buffers, the three inputs' holding `x0 x1 x2` and the output's holding anything, runs to a
    state where the inputs' hold what they held and the output's holds `out0_3 x0 x1 x2`. The three input reads
    return the contents; the read of the output buffer returns whatever it holds and is not used; the store then
    overwrites the whole buffer, so what it held before does not matter. -/
theorem sound_kernel0 (c : Dev nD) (E : Set ℕ) (i : grid0.Coords) (arg1 : Memref sig .tc .vmem S400x64 .f32) (harg1 : arg1.IsWhole) (arg2 : Memref sig .tc .vmem S400x3 .i32) (harg2 : arg2.IsWhole) (arg3 : Memref sig .tc .vmem S4000x64 .bf16) (harg3 : arg3.IsWhole) (arg4 : Memref sig .tc .vmem S400x64 .f32) (harg4 : arg4.IsWhole)
    (x0 : Vec F S400x64 .f32) (x1 : Vec F S400x3 .i32) (x2 : Vec F S4000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gather_mean_kernel i arg1 harg1 arg2 harg2 arg3 harg3 arg4 harg4) K := by
  simp only [cc0__gather_mean_kernel_eq_skeleton]; unfold cc0__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as `V` holds them; after the body at point `t` each
    input's buffer still at its block and the output's at `out0_3` of the three input blocks; the invariant that the
    rest of the scoped memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks (`before0_W`) and the output's holds
    something, so `sound_kernel0` applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (custom_call 1, a gather-and-mean launch), at any entry contents

The launch walks its grid point by point. At each point it stages a 400x64 block of the rows' own features (window 0), the
400x3 block of their neighbour indices (window 1) and the whole 4000x64 table (window 2, brought in once), and
writes back a 400x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the point's block at every point. Where the point fetches, that is what
    the fetch brings; where it does not, the block index has not moved since the last fetch and the body has left
    the buffer alone (`hafter`), so the earlier block is this point's. The array is `V`'s (`hA`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2, whose block index is constant: it is fetched at the first point only, and every
    later point finds that one block still in its buffer. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S400x64 := Rect.unit (s := S400x64) ![0, 0] S400x64.size inb_S400x64_S400x64_0_0
abbrev r1_1 : Rect S400x3 := Rect.unit (s := S400x3) ![0, 0] S400x3.size inb_S400x3_S400x3_0_0
abbrev r1_2 : Rect S4000x64 := Rect.unit (s := S4000x64) ![0, 0] S4000x64.size inb_S4000x64_S4000x64_0_0

/-! ## What the body leaves in the output window's buffer -/

/-- Window 3's buffer after the body, from the three input blocks: its one store, of the payload of the three
    reads, over the whole buffer. -/
def out1_3 (x0 : Vec F S400x64 .f32) (x1 : Vec F S400x3 .i32) (x2 : Vec F S4000x64 .bf16) : Vec F S400x64 .f32 :=
  View.canon [⟨r1_0, k1_pay1 (View.ld x0 r1_0) (View.ld x1 r1_1) (View.ld x2 r1_2)⟩]

/-- The one store's rectangle is the whole buffer, so every index of the buffer lies in it. -/
theorem cover1_3 (p0 : Vec F S400x64 .f32) (y : S400x64.Idx) :
    ∃ pc ∈ ([⟨r1_0, p0⟩] : List (View.Piece (Elt F) S400x64 .f32)), y ∈ pc.1.set :=
  View.cover_of_tiled [⟨r1_0, p0⟩] S400x64.size (by rfl) y

/-! ## The body's triple -/

set_option maxHeartbeats 1000000 in
/-- The body on whole buffers, the three inputs' holding `x0 x1 x2` and the output's holding anything, runs to a
    state where the inputs' hold what they held and the output's holds `out1_3 x0 x1 x2`. The three input reads
    return the contents; the read of the output buffer returns whatever it holds and is not used; the store then
    overwrites the whole buffer, so what it held before does not matter. -/
theorem sound_kernel1 (c : Dev nD) (E : Set ℕ) (i : grid1.Coords) (arg1 : Memref sig .tc .vmem S400x64 .f32) (harg1 : arg1.IsWhole) (arg2 : Memref sig .tc .vmem S400x3 .i32) (harg2 : arg2.IsWhole) (arg3 : Memref sig .tc .vmem S4000x64 .bf16) (harg3 : arg3.IsWhole) (arg4 : Memref sig .tc .vmem S400x64 .f32) (harg4 : arg4.IsWhole)
    (x0 : Vec F S400x64 .f32) (x1 : Vec F S400x3 .i32) (x2 : Vec F S4000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_mean_kernel i arg1 harg1 arg2 harg2 arg3 harg3 arg4 harg4) K := by
  simp only [cc1__gather_mean_kernel_eq_skeleton]; unfold cc1__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as `V` holds them; after the body at point `t` each
    input's buffer still at its block and the output's at `out1_3` of the three input blocks; the invariant that the
    rest of the scoped memory and the generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debt, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_W`) and the output's holds
    something, so `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (custom_call 2, a gather-and-mean launch), at any entry contents

The launch walks its grid point by point. At each point it stages a 2000x64 block of the rows' own features (window 0), the
2000x3 block of their neighbour indices (window 1) and the whole 1000x64 table (window 2, brought in once), and
writes back a 2000x64 block of the result (window 3). The body reads the three inputs whole, reads the output
buffer without using what it read, and stores one value over the whole output buffer: the payload of the three
reads. Everything here is stated at a parameter `V`, the TensorCore's buffer contents when the region is entered,
and at any float model `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array (as `V` holds it) that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the point's block at every point. Where the point fetches, that is what
    the fetch brings; where it does not, the block index has not moved since the last fetch and the body has left
    the buffer alone (`hafter`), so the earlier block is this point's. The array is `V`'s (`hA`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block index is constant: it is fetched at the first point only, and every
    later point finds that one block still in its buffer. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S2000x64 := Rect.unit (s := S2000x64) ![0, 0] S2000x64.size inb_S2000x64_S2000x64_0_0
abbrev r2_1 : Rect S2000x3 := Rect.unit (s := S2000x3) ![0, 0] S2000x3.size inb_S2000x3_S2000x3_0_0
abbrev r2_2 : Rect S1000x64 := Rect.unit (s := S1000x64) ![0, 0] S1000x64.size inb_S1000x64_S1000x64_0_0

/-! ## What the body leaves in the output window's buffer -/

/-- Window 3's buffer after the body, from the three input blocks: its one store, of the payload of the three
    reads, over the whole buffer. -/
def out2_3 (x0 : Vec F S2000x64 .f32) (x1 : Vec F S2000x3 .i32) (x2 : Vec F S1000x64 .bf16) : Vec F S2000x64 .f32 :=
  View.canon [⟨r2_0, k2_pay1 (View.ld x0 r2_0) (View.ld x1 r2_1) (View.ld x2 r2_2)⟩]

/-- The one store's rectangle is the whole buffer, so every index of the buffer lies in it. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The body on whole buffers, the three inputs' holding `x0 x1 x2` and the output's holding anything, runs to a
    state where the inputs' hold what they held and the output's holds `out2_3 x0 x1 x2`. The three input reads
    return the contents; the read of the output buffer returns whatever it holds and is not used; the store then
    overwrites the whole buffer, so what it held before does not matter. -/
theorem sound_kernel2 (c : Dev nD) (E : Set ℕ) (i : grid2.Coords) (arg1 : Memref sig .tc .vmem S2000x64 .f32) (harg1 : arg1.IsWhole) (arg2 : Memref sig .tc .vmem S2000x3 .i32) (harg2 : arg2.IsWhole) (arg3 : Memref sig .tc .vmem S1000x64 .bf16) (harg3 : arg3.IsWhole) (arg4 : Memref sig .tc .vmem S2000x64 .f32) (harg4 : arg4.IsWhole)
    (x0 : Vec F S2000x64 .f32) (x1 : Vec F S2000x3 .i32) (x2 : Vec F S1000x64 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gather_mean_kernel i arg1 harg1 arg2 harg2 arg3 harg3 arg4 harg4) K := by
  simp only [cc2__gather_mean_kernel_eq_skeleton]; unfold cc2__gather_mean_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as `V` holds them; after the body at point `t` each
    input's buffer still at its block and the output's at `out2_3` of the three input blocks; the invariant that the
    rest of the scoped memory and the generator register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debt, and each window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_W`) and the output's holds
    something, so `sound_kernel2` applies; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main (custom_call 3, `cc3__fm_kernel`, pipeline 3), at the entry contents `V`

The body reads its three input windows' staging buffers whole, reads the output window's buffer (a value no later
operation uses) and stores one payload over the whole of the output window's buffer. So what the body leaves in
the output buffer is a closed function of the three input blocks at the point, and each input buffer holds its
window's block at every point, fetched there or not. Everything is stated at a parameter `V`: the TensorCore's
buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is
    not fetched its block index has not moved, so the buffer still holds this point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same of input window 2, whose block index is constant over the grid: it is fetched at the first point only
    and holds the one block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of input window 0's buffer (the first load). -/
abbrev r3_0 : Rect S1024x6x64 := Rect.unit (s := S1024x6x64) ![0, 0, 0] S1024x6x64.size inb_S1024x6x64_S1024x6x64_0_0_0
/-- The whole of input window 1's buffer (the second load). -/
abbrev r3_1 : Rect S1024x1 := Rect.unit (s := S1024x1) ![0, 0] S1024x1.size inb_S1024x1_S1024x1_0_0
/-- The whole of input window 2's buffer (the third load). -/
abbrev r3_2 : Rect S1x1 := Rect.unit (s := S1x1) ![0, 0] S1x1.size inb_S1x1_S1x1_0_0
/-- The whole of the output window's buffer (the store). -/
abbrev r3_3 : Rect S1024x1 := Rect.unit (s := S1024x1) ![0, 0] S1024x1.size inb_S1024x1_S1024x1_0_0

/-! ## What the body leaves in the output window's buffer -/

/-- Window 3's staging buffer after the body, from the input windows' blocks: its one store as a piece over the
    whole buffer, the payload computed from what the three loads read. -/
def out3_3 (x0 : Vec F S1024x6x64 .f32) (x1 : Vec F S1024x1 .f32) (x2 : Vec F S1x1 .f32) : Vec F S1024x1 .f32 :=
  View.canon [⟨r3_3, k3_pay1 (View.ld x0 r3_0) (View.ld x1 r3_1) (View.ld x2 r3_2)⟩]

/-- The one store's rectangle is the whole buffer, so it covers it. -/
theorem cover3_3 (p0 : Vec F S1024x1 .f32) (y : S1024x1.Idx) :
    ∃ pc ∈ ([⟨r3_3, p0⟩] : List (View.Piece (Elt F) S1024x1 .f32)), y ∈ pc.1.set :=
  View.cover_of_tiled [⟨r3_3, p0⟩] S1024x1.size (by rfl) y

/-! ## The body's triple -/

set_option maxHeartbeats 1000000 in
/-- The kernel body on whole staging memrefs, the inputs' at read contents `x0 x1 x2` and the output's at anything,
    runs to the continuation holding the inputs' as they were and the output's at `out3_3` of the inputs': the three
    loads read the inputs, the load of the output buffer reads a value nothing uses, and the store writes the payload
    over the whole buffer. -/
theorem sound_kernel3 (c : Dev nD) (E : Set ℕ) (i : grid3.Coords) (arg1 : Memref sig .tc .vmem S1024x6x64 .f32) (harg1 : arg1.IsWhole) (arg2 : Memref sig .tc .vmem S1024x1 .f32) (harg2 : arg2.IsWhole) (arg3 : Memref sig .tc .vmem S1x1 .f32) (harg3 : arg3.IsWhole) (arg4 : Memref sig .tc .vmem S1024x1 .f32) (harg4 : arg4.IsWhole)
    (x0 : Vec F S1024x6x64 .f32) (x1 : Vec F S1024x1 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__fm_kernel i arg1 harg1 arg2 harg2 arg3 harg3 arg4 harg4) K := by
  simp only [cc3__fm_kernel_eq_skeleton]; unfold cc3__fm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant that
    the scoped rest and the generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Fold.lean ====
/- The buffer contents of one core at each of the sixteen boundaries of @main — before and after each of its eleven
   stretches of host operations and four kernel regions — as a fold from the launch memory; for each stretch the
   list of buffers it writes with the fact that it leaves every other buffer as it found it; for each region the
   fact that it changes its output array only; and from these, that the seventeen arguments hold their launch
   contents at every boundary. Stated at any float instance `F`. -/
import proofs.«423063_j64879775973997_3_alg».proof.Proof.KI.Reg0
import proofs.«423063_j64879775973997_3_alg».proof.Proof.KI.Reg1
import proofs.«423063_j64879775973997_3_alg».proof.Proof.KI.Reg2
import proofs.«423063_j64879775973997_3_alg».proof.Proof.KI.Reg3
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is fifteen items: eleven stretches of host operations and four kernel regions. A stretch takes the
contents `W` to `StableHlo.after ops W`; a region takes them to the same contents with its four arrays
replaced by what its write-backs leave. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2` (region 1's entry). -/
abbrev W7 : Dev nD → Valuation τ sig (Elt F) := fun c => StableHlo.after hostOps1_2 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- After `hostOps2_1`. -/
abbrev W10 : Dev nD → Valuation τ sig (Elt F) := fun c => StableHlo.after hostOps2_1 (W9 m ρ c)
/-- After `hostOps2_2` (region 2's entry). -/
abbrev W11 : Dev nD → Valuation τ sig (Elt F) := fun c => StableHlo.after hostOps2_2 (W10 m ρ c)
/-- The same read at the TensorCore's references (what region 2's proof data take). -/
abbrev V11 : (c : Dev nD) → (b : Ref sig .tc) → Buf (Elt F) ((c : Thread nD τ).loc b) := fun c b => W11 m ρ c b
/-- At region 2's exit: its arrays at what the pipeline leaves (the inputs as entered, the output's write-backs
    folded), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
/-- At region 2's exit each of its arrays holds what the pipeline leaves (`hF2`) and every other buffer what it
    held at entry (`hrest2`). -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After `hostOps3` (region 3's entry). -/
abbrev W13 : Dev nD → Valuation τ sig (Elt F) := fun c => StableHlo.after hostOps3 (W12 m ρ c)
/-- The same read at the TensorCore's references (what region 3's proof data take). -/
abbrev V13 : (c : Dev nD) → (b : Ref sig .tc) → Buf (Elt F) ((c : Thread nD τ).loc b) := fun c b => W13 m ρ c b
/-- At region 3's exit: its arrays at what the pipeline leaves (the inputs as entered, the output's write-backs
    folded), every other buffer as entered. -/
def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
/-- The same read at the TensorCore's references (region 3's exit contents). -/
abbrev V14 : (c : Dev nD) → (b : Ref sig .tc) → Buf (Elt F) ((c : Thread nD τ).loc b) := fun c b => W14 m ρ c b
/-- At region 3's exit each of its arrays holds what the pipeline leaves (`hF3`) and every other buffer what it
    held at entry (`hrest3`). -/
theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

/-- After `hostOps4` (the return). -/
abbrev W15 : Dev nD → Valuation τ sig (Elt F) := fun c => StableHlo.after hostOps4 (W14 m ρ c)

/-! # What each stretch writes, and that it leaves every other buffer alone -/

/-- The buffers that `hostOps0`'s operations write. -/
abbrev hostOps0_W : List (Ref sig .tc) := [main_c, main_c_0]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0` does not write keeps its contents through it. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The buffers that `hostOps0_1`'s operations write. -/
abbrev hostOps0_1_W : List (Ref sig .tc) := [main_call0_v0, main_call0_v1, main_call0_v2, main_call0_v3, main_call0_v4, main_v0]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0_1` does not write keeps its contents through it. -/
theorem W2_keep (c : Dev nD) (r : Ref sig .tc) (h : r ∉ (hostOps0_1_W : List (Ref sig .tc))) :
    W2 m ρ c (Proc.devRef .tc r) = W1 m ρ c (Proc.devRef .tc r) :=
  StableHlo.after_of_writes_sub hostOps0_1 _ hostOps0_1_writes h

/-- The buffers that `hostOps0_2`'s operations write. -/
abbrev hostOps0_2_W : List (Ref sig .tc) := [main_v1]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps0_2` does not write keeps its contents through it. -/
theorem W3_keep (c : Dev nD) (r : Ref sig .tc) (h : r ∉ (hostOps0_2_W : List (Ref sig .tc))) :
    W3 m ρ c (Proc.devRef .tc r) = W2 m ρ c (Proc.devRef .tc r) :=
  StableHlo.after_of_writes_sub hostOps0_2 _ hostOps0_2_writes h

/-- The buffers that `hostOps1`'s operations write. -/
abbrev hostOps1_W : List (Ref sig .tc) := [main_v3, main_c_1, main_c_2]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1` does not write keeps its contents through it. -/
theorem W5_keep (c : Dev nD) (r : Ref sig .tc) (h : r ∉ (hostOps1_W : List (Ref sig .tc))) :
    W5 m ρ c (Proc.devRef .tc r) = W4 m ρ c (Proc.devRef .tc r) :=
  StableHlo.after_of_writes_sub hostOps1 _ hostOps1_writes h

/-- The buffers that `hostOps1_1`'s operations write. -/
abbrev hostOps1_1_W : List (Ref sig .tc) := [main_call1_v0, main_call1_v1, main_call1_v2, main_call1_v3, main_call1_v4, main_v4]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1_1` does not write keeps its contents through it. -/
theorem W6_keep (c : Dev nD) (r : Ref sig .tc) (h : r ∉ (hostOps1_1_W : List (Ref sig .tc))) :
    W6 m ρ c (Proc.devRef .tc r) = W5 m ρ c (Proc.devRef .tc r) :=
  StableHlo.after_of_writes_sub hostOps1_1 _ hostOps1_1_writes h

/-- The buffers that `hostOps1_2`'s operations write. -/
abbrev hostOps1_2_W : List (Ref sig .tc) := [main_v5]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps1_2` does not write keeps its contents through it. -/
theorem W7_keep (c : Dev nD) (r : Ref sig .tc) (h : r ∉ (hostOps1_2_W : List (Ref sig .tc))) :
    W7 m ρ c (Proc.devRef .tc r) = W6 m ρ c (Proc.devRef .tc r) :=
  StableHlo.after_of_writes_sub hostOps1_2 _ hostOps1_2_writes h

/-- The buffers that `hostOps2`'s operations write. -/
abbrev hostOps2_W : List (Ref sig .tc) := [main_v7, main_v8, main_c_3, main_v9, main_v10, main_c_4, main_v11, main_v12, main_v13, main_v14, main_v15, main_v16, main_c_5, main_c_6]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2` does not write keeps its contents through it. -/
theorem W9_keep (c : Dev nD) (r : Ref sig .tc) (h : r ∉ (hostOps2_W : List (Ref sig .tc))) :
    W9 m ρ c (Proc.devRef .tc r) = W8 m ρ c (Proc.devRef .tc r) :=
  StableHlo.after_of_writes_sub hostOps2 _ hostOps2_writes h

/-- The buffers that `hostOps2_1`'s operations write. -/
abbrev hostOps2_1_W : List (Ref sig .tc) := [main_call2_v0, main_call2_v1, main_call2_v2, main_call2_v3, main_call2_v4, main_v17]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2_1` does not write keeps its contents through it. -/
theorem W10_keep (c : Dev nD) (r : Ref sig .tc) (h : r ∉ (hostOps2_1_W : List (Ref sig .tc))) :
    W10 m ρ c (Proc.devRef .tc r) = W9 m ρ c (Proc.devRef .tc r) :=
  StableHlo.after_of_writes_sub hostOps2_1 _ hostOps2_1_writes h

/-- The buffers that `hostOps2_2`'s operations write. -/
abbrev hostOps2_2_W : List (Ref sig .tc) := [main_v18]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps2_2` does not write keeps its contents through it. -/
theorem W11_keep (c : Dev nD) (r : Ref sig .tc) (h : r ∉ (hostOps2_2_W : List (Ref sig .tc))) :
    W11 m ρ c (Proc.devRef .tc r) = W10 m ρ c (Proc.devRef .tc r) :=
  StableHlo.after_of_writes_sub hostOps2_2 _ hostOps2_2_writes h

/-- The buffers that `hostOps3`'s operations write. -/
abbrev hostOps3_W : List (Ref sig .tc) := [main_c_7, main_v20, main_v21, main_c_8, main_v22, main_v23, main_v24, main_v25, main_v26, main_cst, main_v27, main_v28, main_cst_9, main_v29, main_v30, main_c_10, main_v31, main_v32, main_c_11, main_v33, main_v34, main_v35, main_v36, main_v37, main_c_12, main_v38, main_v39, main_c_13, main_v40, main_v41, main_v42, main_v43, main_v44, main_v45, main_cst_14, main_v46, main_v47, main_v48, main_v49, main_cst_15, main_v50, main_v51, main_v52, main_cst_16, main_v53, main_v54, main_v55, main_cst_17, main_v56, main_v57, main_v58, main_c_18, main_v59, main_v60, main_c_19, main_v61, main_v62, main_v63, main_v64, main_v65, main_c_20, main_v66, main_v67, main_c_21, main_v68, main_v69, main_v70, main_v71, main_v72, main_v73, main_cst_22, main_v74, main_v75, main_v76, main_v77, main_cst_23, main_v78, main_v79, main_v80, main_cst_24, main_v81, main_v82, main_v83, main_cst_25, main_v84, main_v85, main_v86, main_c_26, main_v87, main_v88, main_c_27, main_v89, main_v90, main_v91, main_v92, main_v93, main_v94, main_c_28, main_v95, main_v96, main_c_29, main_v97, main_v98, main_v99, main_v100, main_v101, main_v102, main_v103, main_c_30, main_v104, main_v105, main_c_31, main_v106, main_v107, main_v108, main_v109, main_v110, main_v111, main_v112, main_c_32, main_v113, main_v114, main_c_33, main_v115, main_v116, main_v117, main_v118, main_v119, main_c_34, main_v120, main_v121, main_c_35, main_v122, main_v123, main_v124, main_v125, main_v126, main_c_36, main_v127, main_v128, main_c_37, main_v129, main_v130, main_v131, main_v132, main_v133, main_c_38, main_v134, main_v135, main_c_39, main_v136, main_v137, main_v138, main_v139, main_v140, main_v141, main_v142, main_v143, main_v144]
set_option maxRecDepth 16384 in
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps3` does not write keeps its contents through it. -/
theorem W13_keep (c : Dev nD) (r : Ref sig .tc) (h : r ∉ (hostOps3_W : List (Ref sig .tc))) :
    W13 m ρ c (Proc.devRef .tc r) = W12 m ρ c (Proc.devRef .tc r) :=
  StableHlo.after_of_writes_sub hostOps3 _ hostOps3_writes h

/-- The buffers that `hostOps4`'s operations write. -/
abbrev hostOps4_W : List (Ref sig .tc) := [main_v146]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer that `hostOps4` does not write keeps its contents through it. -/
theorem W15_keep (c : Dev nD) (r : Ref sig .tc) (h : r ∉ (hostOps4_W : List (Ref sig .tc))) :
    W15 m ρ c (Proc.devRef .tc r) = W14 m ρ c (Proc.devRef .tc r) :=
  StableHlo.after_of_writes_sub hostOps4 _ hostOps4_writes h

/-! # What each region writes: its output array only -/

/-- An input window's array leaves region 0 as it entered: no write-back touches it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- Every window of region 0 but the one on `main_v2` is an input. -/
theorem spec0_in : ∀ w : Fin cfg0.W, Pipeline.arrRef spec0 w ≠ main_v2 → (cfg0.win w).isOut = false := by decide
/-- Region 0 writes its output array `main_v2` only: every other buffer keeps its contents through it (an input
    array because no write-back touches it, any other buffer because the region passes it by). -/
theorem W4_keep (c : Dev nD) (r : Ref sig .tc) (h : r ≠ main_v2) :
    W4 m ρ c (Proc.devRef .tc r) = W3 m ρ c (Proc.devRef .tc r) := by
  by_cases hw : ∃ w, Pipeline.arrRef spec0 w = r
  · obtain ⟨w, rfl⟩ := hw
    exact W4_in m ρ c w (spec0_in w h)
  · exact W4_of_ne m ρ c r fun w e => hw ⟨w, e⟩

/-- An input window's array leaves region 1 as it entered: no write-back touches it. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
/-- Every window of region 1 but the one on `main_v6` is an input. -/
theorem spec1_in : ∀ w : Fin cfg1.W, Pipeline.arrRef spec1 w ≠ main_v6 → (cfg1.win w).isOut = false := by decide
/-- Region 1 writes its output array `main_v6` only: every other buffer keeps its contents through it (an input
    array because no write-back touches it, any other buffer because the region passes it by). -/
theorem W8_keep (c : Dev nD) (r : Ref sig .tc) (h : r ≠ main_v6) :
    W8 m ρ c (Proc.devRef .tc r) = W7 m ρ c (Proc.devRef .tc r) := by
  by_cases hw : ∃ w, Pipeline.arrRef spec1 w = r
  · obtain ⟨w, rfl⟩ := hw
    exact W8_in m ρ c w (spec1_in w h)
  · exact W8_of_ne m ρ c r fun w e => hw ⟨w, e⟩

/-- An input window's array leaves region 2 as it entered: no write-back touches it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- Every window of region 2 but the one on `main_v19` is an input. -/
theorem spec2_in : ∀ w : Fin cfg2.W, Pipeline.arrRef spec2 w ≠ main_v19 → (cfg2.win w).isOut = false := by decide
/-- Region 2 writes its output array `main_v19` only: every other buffer keeps its contents through it (an input
    array because no write-back touches it, any other buffer because the region passes it by). -/
theorem W12_keep (c : Dev nD) (r : Ref sig .tc) (h : r ≠ main_v19) :
    W12 m ρ c (Proc.devRef .tc r) = W11 m ρ c (Proc.devRef .tc r) := by
  by_cases hw : ∃ w, Pipeline.arrRef spec2 w = r
  · obtain ⟨w, rfl⟩ := hw
    exact W12_in m ρ c w (spec2_in w h)
  · exact W12_of_ne m ρ c r fun w e => hw ⟨w, e⟩

/-- An input window's array leaves region 3 as it entered: no write-back touches it. -/
theorem W14_in (c : Dev nD) (w : Fin cfg3.W) (hin : (cfg3.win w).isOut = false) :
    W14 m ρ c (Proc.devRef .tc (Pipeline.arrRef spec3 w)) = W13 m ρ c (Proc.devRef .tc (Pipeline.arrRef spec3 w)) :=
  (W14_arr m ρ c w).trans (((dat3 (V13 m ρ) c).arrAt_in w hin _).trans (A_eq3 (V13 m ρ) c w))
/-- Every window of region 3 but the one on `main_v145` is an input. -/
theorem spec3_in : ∀ w : Fin cfg3.W, Pipeline.arrRef spec3 w ≠ main_v145 → (cfg3.win w).isOut = false := by decide
/-- Region 3 writes its output array `main_v145` only: every other buffer keeps its contents through it (an input
    array because no write-back touches it, any other buffer because the region passes it by). -/
theorem W14_keep (c : Dev nD) (r : Ref sig .tc) (h : r ≠ main_v145) :
    W14 m ρ c (Proc.devRef .tc r) = W13 m ρ c (Proc.devRef .tc r) := by
  by_cases hw : ∃ w, Pipeline.arrRef spec3 w = r
  · obtain ⟨w, rfl⟩ := hw
    exact W14_in m ρ c w (spec3_in w h)
  · exact W14_of_ne m ρ c r fun w e => hw ⟨w, e⟩

/-! # The arguments keep their launch contents at every boundary

No host operation writes an argument and no region has one as its output array. -/

/-- The seventeen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]
theorem hostOps0_args : ∀ r ∈ argRefs, r ∉ (hostOps0_W : List (Ref sig .tc)) := by decide
theorem hostOps0_1_args : ∀ r ∈ argRefs, r ∉ (hostOps0_1_W : List (Ref sig .tc)) := by decide
theorem hostOps0_2_args : ∀ r ∈ argRefs, r ∉ (hostOps0_2_W : List (Ref sig .tc)) := by decide
theorem hostOps1_args : ∀ r ∈ argRefs, r ∉ (hostOps1_W : List (Ref sig .tc)) := by decide
theorem hostOps1_1_args : ∀ r ∈ argRefs, r ∉ (hostOps1_1_W : List (Ref sig .tc)) := by decide
theorem hostOps1_2_args : ∀ r ∈ argRefs, r ∉ (hostOps1_2_W : List (Ref sig .tc)) := by decide
theorem hostOps2_args : ∀ r ∈ argRefs, r ∉ (hostOps2_W : List (Ref sig .tc)) := by decide
theorem hostOps2_1_args : ∀ r ∈ argRefs, r ∉ (hostOps2_1_W : List (Ref sig .tc)) := by decide
theorem hostOps2_2_args : ∀ r ∈ argRefs, r ∉ (hostOps2_2_W : List (Ref sig .tc)) := by decide
set_option maxRecDepth 65536 in
theorem hostOps3_args : ∀ r ∈ argRefs, r ∉ (hostOps3_W : List (Ref sig .tc)) := by decide
theorem hostOps4_args : ∀ r ∈ argRefs, r ∉ (hostOps4_W : List (Ref sig .tc)) := by decide
theorem spec0_args : ∀ r ∈ argRefs, r ≠ main_v2 := by decide
theorem spec1_args : ∀ r ∈ argRefs, r ≠ main_v6 := by decide
theorem spec2_args : ∀ r ∈ argRefs, r ≠ main_v19 := by decide
theorem spec3_args : ∀ r ∈ argRefs, r ≠ main_v145 := by decide

theorem W0_args (c : Dev nD) (r : Ref sig .tc) (hr : r ∈ argRefs) : W0 m ρ c (Proc.devRef .tc r) = W0 m ρ c (Proc.devRef .tc r) := rfl
theorem W1_args (c : Dev nD) (r : Ref sig .tc) (hr : r ∈ argRefs) : W1 m ρ c (Proc.devRef .tc r) = W0 m ρ c (Proc.devRef .tc r) :=
  (W1_keep m ρ c r (hostOps0_args r hr)).trans (W0_args m ρ c r hr)
theorem W2_args (c : Dev nD) (r : Ref sig .tc) (hr : r ∈ argRefs) : W2 m ρ c (Proc.devRef .tc r) = W0 m ρ c (Proc.devRef .tc r) :=
  (W2_keep m ρ c r (hostOps0_1_args r hr)).trans (W1_args m ρ c r hr)
theorem W3_args (c : Dev nD) (r : Ref sig .tc) (hr : r ∈ argRefs) : W3 m ρ c (Proc.devRef .tc r) = W0 m ρ c (Proc.devRef .tc r) :=
  (W3_keep m ρ c r (hostOps0_2_args r hr)).trans (W2_args m ρ c r hr)
theorem W4_args (c : Dev nD) (r : Ref sig .tc) (hr : r ∈ argRefs) : W4 m ρ c (Proc.devRef .tc r) = W0 m ρ c (Proc.devRef .tc r) :=
  (W4_keep m ρ c r (spec0_args r hr)).trans (W3_args m ρ c r hr)
theorem W5_args (c : Dev nD) (r : Ref sig .tc) (hr : r ∈ argRefs) : W5 m ρ c (Proc.devRef .tc r) = W0 m ρ c (Proc.devRef .tc r) :=
  (W5_keep m ρ c r (hostOps1_args r hr)).trans (W4_args m ρ c r hr)
theorem W6_args (c : Dev nD) (r : Ref sig .tc) (hr : r ∈ argRefs) : W6 m ρ c (Proc.devRef .tc r) = W0 m ρ c (Proc.devRef .tc r) :=
  (W6_keep m ρ c r (hostOps1_1_args r hr)).trans (W5_args m ρ c r hr)
theorem W7_args (c : Dev nD) (r : Ref sig .tc) (hr : r ∈ argRefs) : W7 m ρ c (Proc.devRef .tc r) = W0 m ρ c (Proc.devRef .tc r) :=
  (W7_keep m ρ c r (hostOps1_2_args r hr)).trans (W6_args m ρ c r hr)
theorem W8_args (c : Dev nD) (r : Ref sig .tc) (hr : r ∈ argRefs) : W8 m ρ c (Proc.devRef .tc r) = W0 m ρ c (Proc.devRef .tc r) :=
  (W8_keep m ρ c r (spec1_args r hr)).trans (W7_args m ρ c r hr)
theorem W9_args (c : Dev nD) (r : Ref sig .tc) (hr : r ∈ argRefs) : W9 m ρ c (Proc.devRef .tc r) = W0 m ρ c (Proc.devRef .tc r) :=
  (W9_keep m ρ c r (hostOps2_args r hr)).trans (W8_args m ρ c r hr)
theorem W10_args (c : Dev nD) (r : Ref sig .tc) (hr : r ∈ argRefs) : W10 m ρ c (Proc.devRef .tc r) = W0 m ρ c (Proc.devRef .tc r) :=
  (W10_keep m ρ c r (hostOps2_1_args r hr)).trans (W9_args m ρ c r hr)
theorem W11_args (c : Dev nD) (r : Ref sig .tc) (hr : r ∈ argRefs) : W11 m ρ c (Proc.devRef .tc r) = W0 m ρ c (Proc.devRef .tc r) :=
  (W11_keep m ρ c r (hostOps2_2_args r hr)).trans (W10_args m ρ c r hr)
theorem W12_args (c : Dev nD) (r : Ref sig .tc) (hr : r ∈ argRefs) : W12 m ρ c (Proc.devRef .tc r) = W0 m ρ c (Proc.devRef .tc r) :=
  (W12_keep m ρ c r (spec2_args r hr)).trans (W11_args m ρ c r hr)
theorem W13_args (c : Dev nD) (r : Ref sig .tc) (hr : r ∈ argRefs) : W13 m ρ c (Proc.devRef .tc r) = W0 m ρ c (Proc.devRef .tc r) :=
  (W13_keep m ρ c r (hostOps3_args r hr)).trans (W12_args m ρ c r hr)
theorem W14_args (c : Dev nD) (r : Ref sig .tc) (hr : r ∈ argRefs) : W14 m ρ c (Proc.devRef .tc r) = W0 m ρ c (Proc.devRef .tc r) :=
  (W14_keep m ρ c r (spec3_args r hr)).trans (W13_args m ρ c r hr)
theorem W15_args (c : Dev nD) (r : Ref sig .tc) (hr : r ∈ argRefs) : W15 m ρ c (Proc.devRef .tc r) = W0 m ρ c (Proc.devRef .tc r) :=
  (W15_keep m ρ c r (hostOps4_args r hr)).trans (W14_args m ρ c r hr)

/-! # Two regions' outputs are kept until they are read

`main_v2` (region 0's output) and `main_v6` (region 1's) are written by no later stretch and are the output of
no later region, up to region 2's exit. -/

theorem W12_v2 (c : Dev nD) : W12 m ρ c (Proc.devRef .tc main_v2) = W4 m ρ c (Proc.devRef .tc main_v2) :=
  calc W12 m ρ c (Proc.devRef .tc main_v2)
    _ = W11 m ρ c (Proc.devRef .tc main_v2) := W12_keep m ρ c main_v2 (by decide)
    _ = W10 m ρ c (Proc.devRef .tc main_v2) := W11_keep m ρ c main_v2 (by decide)
    _ = W9 m ρ c (Proc.devRef .tc main_v2) := W10_keep m ρ c main_v2 (by decide)
    _ = W8 m ρ c (Proc.devRef .tc main_v2) := W9_keep m ρ c main_v2 (by decide)
    _ = W7 m ρ c (Proc.devRef .tc main_v2) := W8_keep m ρ c main_v2 (by decide)
    _ = W6 m ρ c (Proc.devRef .tc main_v2) := W7_keep m ρ c main_v2 (by decide)
    _ = W5 m ρ c (Proc.devRef .tc main_v2) := W6_keep m ρ c main_v2 (by decide)
    _ = W4 m ρ c (Proc.devRef .tc main_v2) := W5_keep m ρ c main_v2 (by decide)
theorem W12_v6 (c : Dev nD) : W12 m ρ c (Proc.devRef .tc main_v6) = W8 m ρ c (Proc.devRef .tc main_v6) :=
  calc W12 m ρ c (Proc.devRef .tc main_v6)
    _ = W11 m ρ c (Proc.devRef .tc main_v6) := W12_keep m ρ c main_v6 (by decide)
    _ = W10 m ρ c (Proc.devRef .tc main_v6) := W11_keep m ρ c main_v6 (by decide)
    _ = W9 m ρ c (Proc.devRef .tc main_v6) := W10_keep m ρ c main_v6 (by decide)
    _ = W8 m ρ c (Proc.devRef .tc main_v6) := W9_keep m ρ c main_v6 (by decide)

end Cert.KernelIdeal.Hand

end
-- ==== Proof.KI.Run.lean ====
/- THE RUN of @main at any float instance `F`: its fifteen segments — eleven stretches of host operations, four kernel
   regions — over the thread state "every unscoped buffer at the boundary's contents, the generator register at some
   state, nothing owed"; the launch theorem over them; each argument read back through the fold to its launch
   contents; and the frame claim. -/
import proofs.«423063_j64879775973997_3_alg».proof.Proof.KI.Fold
import proofs.«423063_j64879775973997_3_alg».proof.Proof.Gen.KernelIdeal.Launch
import proofs.«423063_j64879775973997_3_alg».proof.Proof.Gen.KernelIdeal.Skeleton
import proofs.«423063_j64879775973997_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps2_1` allocates a buffer. -/
theorem hostOps2_1_fresh : (hostOps2_1 : List (HloOp τ sig (Elt F))).Forall fun op => op.fresh = ∅ := by
  simp only [List.Forall]; repeat' constructor
/-- No operation of `hostOps2_2` allocates a buffer. -/
theorem hostOps2_2_fresh : (hostOps2_2 : List (HloOp τ sig (Elt F))).Forall fun op => op.fresh = ∅ := by
  simp only [List.Forall]; repeat' constructor
set_option maxRecDepth 16384 in
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W15`, the
    generator register at some state. -/
abbrev Tₙ (c : Dev nD) : sProp 𝕄 := iprop(StableHlo.held (c : Thread nD τ) (Pipeline.ucRefs τ sig) (W15 m ρ c) ∗ ∃ r, prngReg c r)

/-! # The regions as segments -/

set_option backward.isDefEq.respectTransparency.types false in
/-- REGION 0 over the thread state: entered from every unscoped buffer at `W3`, left at `W4` (what the
    next stretch is entered from). Its arrays are split out of the unscoped buffers and put back at the exit
    contents; the generator register goes into the class invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8` (what the
    next stretch is entered from). Its arrays are split out of the unscoped buffers and put back at the exit
    contents; the generator register goes into the class invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W11`, left at `W12` (what the
    next stretch is entered from). Its arrays are split out of the unscoped buffers and put back at the exit
    contents; the generator register goes into the class invariant and comes back; nothing is owed; the kernel
    has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W13`, left at `W14` (what the
    next stretch is entered from). Its arrays are split out of the unscoped buffers and put back at the exit
    contents; the generator register goes into the class invariant and comes back; nothing is owed; the kernel
    has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 15 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .region (reg3 m ρ),
    .host (hseg hostOps4 hostOps4_sub hostOps4_fresh (W14 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state each unscoped buffer holds the fold's last contents `W15`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W15 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-! # The arguments end as launched

No host operation and no region writes an argument (a region reads one through an input window or passes it by),
so the fold at an argument's buffer walks back to the launch memory (`W15_args`). -/

theorem W15_main_arg0 (c : Dev nD) : W15 m ρ c (Proc.devRef .tc main_arg0) = m ((c : Thread nD τ).loc main_arg0) :=
  (W15_args m ρ c main_arg0 (by decide)).trans rfl
theorem W15_main_arg1 (c : Dev nD) : W15 m ρ c (Proc.devRef .tc main_arg1) = m ((c : Thread nD τ).loc main_arg1) :=
  (W15_args m ρ c main_arg1 (by decide)).trans rfl
theorem W15_main_arg2 (c : Dev nD) : W15 m ρ c (Proc.devRef .tc main_arg2) = m ((c : Thread nD τ).loc main_arg2) :=
  (W15_args m ρ c main_arg2 (by decide)).trans rfl
theorem W15_main_arg3 (c : Dev nD) : W15 m ρ c (Proc.devRef .tc main_arg3) = m ((c : Thread nD τ).loc main_arg3) :=
  (W15_args m ρ c main_arg3 (by decide)).trans rfl
theorem W15_main_arg4 (c : Dev nD) : W15 m ρ c (Proc.devRef .tc main_arg4) = m ((c : Thread nD τ).loc main_arg4) :=
  (W15_args m ρ c main_arg4 (by decide)).trans rfl
theorem W15_main_arg5 (c : Dev nD) : W15 m ρ c (Proc.devRef .tc main_arg5) = m ((c : Thread nD τ).loc main_arg5) :=
  (W15_args m ρ c main_arg5 (by decide)).trans rfl
theorem W15_main_arg6 (c : Dev nD) : W15 m ρ c (Proc.devRef .tc main_arg6) = m ((c : Thread nD τ).loc main_arg6) :=
  (W15_args m ρ c main_arg6 (by decide)).trans rfl
theorem W15_main_arg7 (c : Dev nD) : W15 m ρ c (Proc.devRef .tc main_arg7) = m ((c : Thread nD τ).loc main_arg7) :=
  (W15_args m ρ c main_arg7 (by decide)).trans rfl
theorem W15_main_arg8 (c : Dev nD) : W15 m ρ c (Proc.devRef .tc main_arg8) = m ((c : Thread nD τ).loc main_arg8) :=
  (W15_args m ρ c main_arg8 (by decide)).trans rfl
theorem W15_main_arg9 (c : Dev nD) : W15 m ρ c (Proc.devRef .tc main_arg9) = m ((c : Thread nD τ).loc main_arg9) :=
  (W15_args m ρ c main_arg9 (by decide)).trans rfl
theorem W15_main_arg10 (c : Dev nD) : W15 m ρ c (Proc.devRef .tc main_arg10) = m ((c : Thread nD τ).loc main_arg10) :=
  (W15_args m ρ c main_arg10 (by decide)).trans rfl
theorem W15_main_arg11 (c : Dev nD) : W15 m ρ c (Proc.devRef .tc main_arg11) = m ((c : Thread nD τ).loc main_arg11) :=
  (W15_args m ρ c main_arg11 (by decide)).trans rfl
theorem W15_main_arg12 (c : Dev nD) : W15 m ρ c (Proc.devRef .tc main_arg12) = m ((c : Thread nD τ).loc main_arg12) :=
  (W15_args m ρ c main_arg12 (by decide)).trans rfl
theorem W15_main_arg13 (c : Dev nD) : W15 m ρ c (Proc.devRef .tc main_arg13) = m ((c : Thread nD τ).loc main_arg13) :=
  (W15_args m ρ c main_arg13 (by decide)).trans rfl
theorem W15_main_arg14 (c : Dev nD) : W15 m ρ c (Proc.devRef .tc main_arg14) = m ((c : Thread nD τ).loc main_arg14) :=
  (W15_args m ρ c main_arg14 (by decide)).trans rfl
theorem W15_main_arg15 (c : Dev nD) : W15 m ρ c (Proc.devRef .tc main_arg15) = m ((c : Thread nD τ).loc main_arg15) :=
  (W15_args m ρ c main_arg15 (by decide)).trans rfl
theorem W15_main_arg16 (c : Dev nD) : W15 m ρ c (Proc.devRef .tc main_arg16) = m ((c : Thread nD τ).loc main_arg16) :=
  (W15_args m ρ c main_arg16 (by decide)).trans rfl

/-- THE FRAME: at the compiled mesh, from any memory with zero counters, every weakly fair execution of @main on the
    TensorCores terminates, nothing faulting, and every final state has the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c),
      (h c _ (mem_uc main_arg15 (by decide))).trans (W15_main_arg15 m ρ c),
      (h c _ (mem_uc main_arg16 (by decide))).trans (W15_main_arg16 m ρ c)⟩) (run_main m ρ)

end Cert.KernelIdeal.Hand

end
-- ==== Proof.Br.FmForm.lean ====
import Idealize.ShloMosaic.Lib.ValueIdx
import Idealize.ShloMosaic.PureOps.Ideal.Laws

/-! # The factorization-machine row formula

For a block of six field embeddings of width 64 per row, the second-order interaction of row `b` is half the sum over
the 64 lanes of (the square of the sum over the six fields, minus the sum over the six fields of the squares); the
output adds the row's first-order term and the global bias. This is the one closed form both programs' values are
read to, row by row. The literal one half stays the bit pattern both programs print. -/

noncomputable section

namespace Cert.Bridge

open Idealize.ShloMosaic Idealize.ShloMosaic.ValueIdx

/-- Row `b` of the factorization-machine output from the stacked embeddings `C`, the first-order terms `B` and the
    global bias `g`. -/
def fmRow (C : FVec Ideal (⟨3, ![4096, 6, 64]⟩ : Shape) .f32) (B : FVec Ideal (⟨2, ![4096, 1]⟩ : Shape) .f32)
    (g : FVec Ideal (⟨2, ![1, 1]⟩ : Shape) .f32) (b : Fin 4096) : Ideal .f32 :=
  Ideal.ofBits .f32 0x3F000000#32
      * (∑ d : Fin 64, ((∑ f : Fin 6, C (ix3 b f d)) * (∑ f : Fin 6, C (ix3 b f d)) - ∑ f : Fin 6, C (ix3 b f d) * C (ix3 b f d)))
    + B (ix2 b 0) + g (ix2 0 0)

end Cert.Bridge

end
-- ==== Proof.KI.ValFm.lean ====
import proofs.«423063_j64879775973997_3_alg».proof.Proof.KI.Reg3
import proofs.«423063_j64879775973997_3_alg».proof.Proof.Br.FmForm
import Idealize.ShloMosaic.Lib.ValueIdx
import Idealize.ShloMosaic.Lib.Pipeline.Value
import Idealize.ShloMosaic.PureOps.Ideal.Laws

/-! # The value of region 3 (the factorization-machine kernel) over extended reals

The body's payload at a row of its block is the row formula `Cert.Bridge.fmRow` of the three input blocks; block `t`
of each input window is rows `1024 t … 1024 t + 1023` of its array (the bias window is the whole one-element array at
every point); the four output blocks tile the 4096 rows. So the output array after the region is the row formula of
the three input arrays as the region finds them, row by row. -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at a row -/

/-- A lane sum over the middle axis of a three-axis block. -/
theorem sum_mid (v : FVec Ideal S1024x6x64 .f32) (h : S1024x6x64.Reduces [1] S1024x64)
    (hφ : FKind.Formats .f32) (hacc : (0x00000000#32 : BitVec 32) = 0x00000000#32) (r : Fin 1024) (d : Fin 64) :
    multiReduction (F := Ideal) .add [1] S1024x64 v 0x00000000#32 h hφ hacc (ix2 r d) = ∑ f : Fin 6, v (ix3 r f d) := by
  refine (Ideal.multiReduction_add_single v 0x00000000#32 h hφ hacc (ix2 r d)).trans ?_
  refine Finset.sum_congr rfl fun f _ => congrArg v ?_
  funext a
  match a with
  | ⟨0, _⟩ => rfl
  | ⟨1, _⟩ => rfl
  | ⟨2, _⟩ => rfl

/-- A lane sum over the last axis of a two-axis block. -/
theorem sum_last (v : FVec Ideal S1024x64 .f32) (h : S1024x64.Reduces [1] S1024)
    (hφ : FKind.Formats .f32) (hacc : (0x00000000#32 : BitVec 32) = 0x00000000#32) (r : Fin 1024) :
    multiReduction (F := Ideal) .add [1] S1024 v 0x00000000#32 h hφ hacc (ix1 r) = ∑ d : Fin 64, v (ix2 r d) := by
  refine (Ideal.multiReduction_add_single v 0x00000000#32 h hφ hacc (ix1 r)).trans ?_
  refine Finset.sum_congr rfl fun d _ => congrArg v ?_
  funext a
  match a with
  | ⟨0, _⟩ => rfl
  | ⟨1, _⟩ => rfl

/-- The payload at a row: half the sum over the lanes of the square of the field sum minus the sum of the squares,
    plus the row's bias and the global bias. -/
theorem pay3_apply (x0 : Vec Ideal S1024x6x64 .f32) (x1 : Vec Ideal S1024x1 .f32) (x2 : Vec Ideal S1x1 .f32) (r : Fin 1024) :
    k3_pay1 (F := Ideal) x0 x1 x2 (ix2 r 0)
      = Ideal.ofBits .f32 0x3F000000#32
          * (∑ d : Fin 64, ((∑ f : Fin 6, x0 (ix3 r f d)) * (∑ f : Fin 6, x0 (ix3 r f d)) - ∑ f : Fin 6, x0 (ix3 r f d) * x0 (ix3 r f d)))
        + x1 (ix2 r 0) + x2 (ix2 0 0) := by
  unfold k3_pay1
  simp only [shapeCast_self]
  have hsc : ∀ (v : FVec Ideal S1024 .f32), shapeCast S1024x1 v shapeCasts_S1024_S1024x1 (ix2 r 0) = v (ix1 r) := fun v =>
    shapeCast_apply v shapeCasts_S1024_S1024x1 (ix2 r 0) (ix1 r)
      ((Shape.rowMajor_val_one (ix1 r)).trans ((Shape.rowMajor_val_two (ix2 r (0 : Fin 1))).trans (by show r.val * 1 + 0 = r.val; omega)).symm)
  have hbt : broadcastTo S1024x1 x2 broadcasts_S1x1_S1024x1 (ix2 r 0) = x2 (ix2 0 0) :=
    broadcastTo_apply x2 broadcasts_S1x1_S1024x1 (ix2 r 0) (ix2 0 0) (fun a => by
      match a with
      | ⟨0, _⟩ => rfl
      | ⟨1, _⟩ => rfl)
  refine congrArg₂ (· + ·) (congrArg (· + x1 (ix2 r 0)) (congrArg (Ideal.ofBits .f32 0x3F000000#32 * ·) ?_)) hbt
  refine (hsc _).trans ?_
  refine (sum_last _ _ _ _ r).trans ?_
  refine Finset.sum_congr rfl fun d _ => ?_
  refine congrArg₂ (· - ·) (congrArg₂ (· * ·) (sum_mid x0 _ _ _ r d) (sum_mid x0 _ _ _ r d)) ?_
  exact sum_mid (mulf x0 x0) _ _ _ r d

/-! ## From the blocks to the array -/

section Region3
-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The output array as one function of the input arrays: row `i 0` of the row formula. -/
def fmG (C : Vec Ideal S4096x6x64 .f32) (B : Vec Ideal S4096x1 .f32) (g : Vec Ideal S1x1 .f32) : Vec Ideal S4096x1 .f32 :=
  fun i => Cert.Bridge.fmRow C B g (i 0)

/-- The grid has four points. -/
theorem lt_four (t : Fin cfg3.N) : t.val < 4 := lt_of_lt_of_eq t.isLt N_3

/-- The printed index maps, decided over the four points: the embeddings', the first-order terms' and the output's
    blocks move down the rows with the point, the global bias's block stays. -/
theorem idx_facts3 : ∀ t : Fin cfg3.N,
    win3_0.index t (0 : Fin 3) = t.val ∧ win3_0.index t (1 : Fin 3) = 0 ∧ win3_0.index t (2 : Fin 3) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block `t` of the embeddings is rows `1024 t …` of their array. -/
theorem blk0_apply (c : Dev nD) (t : Fin cfg3.N) (r : Fin 1024) (f : Fin 6) (d : Fin 64) :
    iblk3 V c 0 t (ix3 r f d) = V c main_v144 (ix3 (⟨t.val * 1024 + r.val, by have := lt_four t; omega⟩ : Fin 4096) f d) := by
  show V c main_v144 (((cfg3.win 0).blk t).view.emb (ix3 r f d)) = _
  refine congrArg (V c main_v144) ?_
  obtain ⟨e0, e1, e2, -⟩ := idx_facts3 t
  funext a; apply Fin.ext
  match a with
  | ⟨0, _⟩ => show win3_0.index t (0 : Fin 3) * 1024 + 1 * r.val = t.val * 1024 + r.val; omega
  | ⟨1, _⟩ => show win3_0.index t (1 : Fin 3) * 6 + 1 * f.val = f.val; omega
  | ⟨2, _⟩ => show win3_0.index t (2 : Fin 3) * 64 + 1 * d.val = d.val; omega

/-- Block `t` of the first-order terms is rows `1024 t …` of their array. -/
theorem blk1_apply (c : Dev nD) (t : Fin cfg3.N) (r : Fin 1024) :
    iblk3 V c 1 t (ix2 r 0) = V c main_v141 (ix2 (⟨t.val * 1024 + r.val, by have := lt_four t; omega⟩ : Fin 4096) 0) := by
  show V c main_v141 (((cfg3.win 1).blk t).view.emb (ix2 r 0)) = _
  refine congrArg (V c main_v141) ?_
  obtain ⟨-, -, -, e3, e4, -⟩ := idx_facts3 t
  funext a; apply Fin.ext
  match a with
  | ⟨0, _⟩ => show win3_1.index t (0 : Fin 2) * 1024 + 1 * r.val = t.val * 1024 + r.val; omega
  | ⟨1, _⟩ => show win3_1.index t (1 : Fin 2) * 1 + 1 * 0 = 0; omega

/-- The global bias's block is its one-element array at every point. -/
theorem blk2_apply (c : Dev nD) (t : Fin cfg3.N) :
    iblk3 V c 2 t (ix2 0 0) = V c main_arg10 (ix2 0 0) := by
  show V c main_arg10 (((cfg3.win 2).blk t).view.emb (ix2 0 0)) = _
  refine congrArg (V c main_arg10) ?_
  obtain ⟨-, -, -, -, -, e5, e6, -⟩ := idx_facts3 t
  funext a; apply Fin.ext
  match a with
  | ⟨0, _⟩ => show win3_2.index t (0 : Fin 2) * 1 + 1 * 0 = 0; omega
  | ⟨1, _⟩ => show win3_2.index t (1 : Fin 2) * 1 + 1 * 0 = 0; omega

/-- The payload of blocks that are rows `1024 k …` of the arrays is, at a row of the block, the row formula of the
    arrays at that row of theirs. -/
theorem pay3_eq (x0 : Vec Ideal S1024x6x64 .f32) (x1 : Vec Ideal S1024x1 .f32) (x2 : Vec Ideal S1x1 .f32)
    (C : Vec Ideal S4096x6x64 .f32) (B : Vec Ideal S4096x1 .f32) (g : Vec Ideal S1x1 .f32) (k : Nat) (hk : k < 4)
    (h0 : ∀ (r : Fin 1024) (f : Fin 6) (d : Fin 64), x0 (ix3 r f d) = C (ix3 (⟨k * 1024 + r.val, by omega⟩ : Fin 4096) f d))
    (h1 : ∀ r : Fin 1024, x1 (ix2 r 0) = B (ix2 (⟨k * 1024 + r.val, by omega⟩ : Fin 4096) 0))
    (h2 : x2 (ix2 0 0) = g (ix2 0 0)) (y : S1024x1.Idx) (i : S4096x1.Idx) (hi : (i 0).val = k * 1024 + (y 0).val) :
    k3_pay1 (F := Ideal) x0 x1 x2 y = fmG C B g i := by
  obtain ⟨p, q, rfl⟩ : ∃ (p : Fin 1024) (q : Fin 1), y = ix2 p q := ⟨y 0, y 1, eq_ix2 y⟩
  obtain rfl : q = 0 := Subsingleton.elim _ _
  have hlt : k * 1024 + p.val < 4096 := by have := p.isLt; omega
  have hi' : (i 0 : Fin 4096) = ⟨k * 1024 + p.val, hlt⟩ := Fin.ext hi
  rw [pay3_apply]
  unfold fmG Cert.Bridge.fmRow
  rw [hi']
  simp only [h0, h1, h2]
  rfl

/-- WHAT POINT `t` WRITES BACK is block `t` of the row formula of the arrays as the region finds them. -/
theorem flushed3_eq (c : Dev nD) (t : Fin cfg3.N) :
    (dat3 V c).flushed 3 t
      = ((cfg3.win 3).blk t).view.read (Elt Ideal) (fmG (V c main_v144) (V c main_v141) (V c main_arg10)) := by
  show (cfg3.win 3).cut (grid3.coords t) ((dat3 V c).after 3 t) = _
  rw [after3_3]
  unfold out3_3
  rw [View.canon_unit_zero hz2]
  simp only [View.ld_unit_zero (S := S1024x6x64) hz3, View.ld_unit_zero (S := S1024x1) hz2, View.ld_unit_zero (S := S1x1) hz2]
  funext j
  obtain ⟨-, -, -, -, -, -, -, e7, e8⟩ := idx_facts3 t
  exact pay3_eq (iblk3 V c 0 t) (iblk3 V c 1 t) (iblk3 V c 2 t) (V c main_v144) (V c main_v141) (V c main_arg10) t.val (lt_four t)
    (blk0_apply V c t) (blk1_apply V c t) (blk2_apply V c t) j (((cfg3.win 3).blk t).view.emb j)
    (by show win3_3.index t (0 : Fin 2) * 1024 + 1 * (j 0).val = t.val * 1024 + (j 0).val; omega)

/-- An index of the output array is in point `t`'s block iff each coordinate is in the block's range on its axis. -/
theorem mem_blk3 (t : Fin cfg3.N) (i : S4096x1.Idx) :
    i ∈ ((cfg3.win 3).blk t).view.set ↔ ∀ a : Fin 2, win3_3.index t a * S1024x1.size a ≤ (i a).val ∧ (i a).val < win3_3.index t a * S1024x1.size a + S1024x1.size a := by
  show i ∈ ((View.whole main_v145).slice (win3_3.rect t)).set ↔ _
  rw [View.set_slice_whole, Rect.mem_set_unit]
  exact Iff.rfl

/-- The four blocks tile the rows: row `r` is in the block of point `r / 1024`. -/
theorem cover3 (i : S4096x1.Idx) : ∃ t : Fin cfg3.N, (cfg3.win 3).flush t = true ∧ i ∈ ((cfg3.win 3).blk t).view.set := by
  have hi0 : (i 0).val < 4096 := (i 0).isLt
  have hi1 : (i 1).val < 1 := (i 1).isLt
  have ht : (i 0).val / 1024 < cfg3.N := lt_of_lt_of_eq (by omega : (i 0).val / 1024 < 4) N_3.symm
  obtain ⟨-, -, -, -, -, -, -, e7, e8⟩ := idx_facts3 ⟨(i 0).val / 1024, ht⟩
  refine ⟨⟨(i 0).val / 1024, ht⟩, flush3_3 _, ?_⟩
  rw [mem_blk3]
  intro a
  match a with
  | ⟨0, _⟩ =>
    show win3_3.index ⟨(i 0).val / 1024, ht⟩ (0 : Fin 2) * 1024 ≤ (i 0).val ∧ (i 0).val < win3_3.index ⟨(i 0).val / 1024, ht⟩ (0 : Fin 2) * 1024 + 1024
    rw [e7]; show (i 0).val / 1024 * 1024 ≤ (i 0).val ∧ (i 0).val < (i 0).val / 1024 * 1024 + 1024; omega
  | ⟨1, _⟩ =>
    show win3_3.index ⟨(i 0).val / 1024, ht⟩ (1 : Fin 2) * 1 ≤ (i 1).val ∧ (i 1).val < win3_3.index ⟨(i 0).val / 1024, ht⟩ (1 : Fin 2) * 1 + 1
    omega

/-- THE OUTPUT ARRAY after the region: the row formula of the input arrays as the region finds them. -/
theorem fm_final (c : Dev nD) :
    (dat3 V c).arrAt 3 cfg3.N = fmG (V c main_v144) (V c main_v141) (V c main_arg10) :=
  (dat3 V c).arrAt_eq_of_cover 3 (fmG (V c main_v144) (V c main_v141) (V c main_arg10)) (fun t _ => flushed3_eq V c t) cover3

/-- Row `b` of the output array after the region. -/
theorem fm_apply (c : Dev nD) (b : Fin 4096) :
    (dat3 V c).arrAt 3 cfg3.N (ix2 b 0) = Cert.Bridge.fmRow (V c main_v144) (V c main_v141) (V c main_arg10) b :=
  congrFun (fm_final V c) (ix2 b 0)

end Region3

end Cert.KernelIdeal.Val

end
-- ==== Proof.Br.FmRef.lean ====
import proofs.«423063_j64879775973997_3_alg».proof.Proof.Gen.ReferenceIdeal
import proofs.«423063_j64879775973997_3_alg».proof.Proof.Br.FmForm
import proofs.«423063_j64879775973997_3_alg».proof.Proof.KI.ValFm
import Idealize.ShloMosaic.Lib.ValueIdx
import Idealize.ShloMosaic.Lib.IdealHost
import Idealize.ShloMosaic.Lib.Pipeline.Value
import Idealize.ShloMosaic.PureOps.Ideal.Laws

/-! # The reference's factorization machine, and its meeting with the kernel's

The reference computes the same output with host operations over the whole arrays: the sum over the six fields, its
square minus the sum over the fields of the squares, the sum of that over the 64 lanes, one half of it, plus the
first-order terms and the global bias broadcast down the rows. Read at a row, with the sums' initial zeros dropped,
it is the row formula `fmRow`; the kernel's output array after its region is the same formula row by row, so the two
arrays are equal. -/

noncomputable section

namespace Cert.Bridge

open Idealize.ShloMosaic Idealize.ShloMosaic.TcCoe Idealize.ShloMosaic.ValueIdx Idealize.SL.Sem
open Cert.ReferenceIdeal.Facts₀ Cert.ReferenceIdeal.Facts

/-- The reference's factorization-machine output before its final reshape, as the host operations spell it. -/
def fmRef (C : FVec Ideal Cert.ReferenceIdeal.S4096x6x64 .f32) (B : FVec Ideal Cert.ReferenceIdeal.S4096x1 .f32)
    (G : FVec Ideal Cert.ReferenceIdeal.S1x1 .f32) : FVec Ideal Cert.ReferenceIdeal.S4096x1 .f32 :=
  addf (addf (mulf (broadcastInDim Cert.ReferenceIdeal.S4096x1 ![] bcast_S_S4096x1 (constant (F := Ideal) Cert.ReferenceIdeal.S_ .f32 0x3F000000#32))
      (broadcastInDim Cert.ReferenceIdeal.S4096x1 ![0] bcast_S4096_S4096x1_0
        (Host.reduceAdd (F := Ideal)
          (subf (mulf (Host.reduceAdd (F := Ideal) C (constant (F := Ideal) Cert.ReferenceIdeal.S_ .f32 0x00000000#32) reducesTo_S4096x6x64_S4096x64_d1 h_S_)
                      (Host.reduceAdd (F := Ideal) C (constant (F := Ideal) Cert.ReferenceIdeal.S_ .f32 0x00000000#32) reducesTo_S4096x6x64_S4096x64_d1 h_S_))
                (Host.reduceAdd (F := Ideal) (mulf C C) (constant (F := Ideal) Cert.ReferenceIdeal.S_ .f32 0x00000000#32) reducesTo_S4096x6x64_S4096x64_d1 h_S_))
          (constant (F := Ideal) Cert.ReferenceIdeal.S_ .f32 0x00000000#32) reducesTo_S4096x64_S4096_d1 h_S_))) B)
    (broadcastInDim Cert.ReferenceIdeal.S4096x1 ![0, 1] bcast_S1x1_S4096x1_0_1 G)

/-- The host's sum over the middle axis of a three-axis array, from an initial zero, at a row and a lane. -/
theorem hsum_mid (v : FVec Ideal Cert.ReferenceIdeal.S4096x6x64 .f32)
    (h' : Cert.ReferenceIdeal.S4096x6x64.ReducesTo [1] Cert.ReferenceIdeal.S4096x64) (hu : 0 < Cert.ReferenceIdeal.S_.numel)
    (b : Fin 4096) (d : Fin 64) :
    Host.reduceAdd (F := Ideal) v (constant (F := Ideal) Cert.ReferenceIdeal.S_ .f32 0x00000000#32) h' hu (ix2 b d)
      = ∑ f : Fin 6, v (ix3 b f d) := by
  have h : Cert.ReferenceIdeal.S4096x6x64.Reduces [1] Cert.ReferenceIdeal.S4096x64 := by decide
  refine (hostReduceAdd_apply v _ h' hu (ix2 b d)).trans ?_
  refine (Ideal.hostReduceAdd_single h' h v _ (ix2 b d)).trans ?_
  rw [constant_apply, Ideal.ofBits_zero_f32, zero_add]
  refine Finset.sum_congr rfl fun f _ => congrArg v ?_
  funext a
  match a with
  | ⟨0, _⟩ => rfl
  | ⟨1, _⟩ => rfl
  | ⟨2, _⟩ => rfl

/-- The host's sum over the last axis of a two-axis array, from an initial zero, at a row. -/
theorem hsum_last (v : FVec Ideal Cert.ReferenceIdeal.S4096x64 .f32)
    (h' : Cert.ReferenceIdeal.S4096x64.ReducesTo [1] Cert.ReferenceIdeal.S4096) (hu : 0 < Cert.ReferenceIdeal.S_.numel)
    (b : Fin 4096) :
    Host.reduceAdd (F := Ideal) v (constant (F := Ideal) Cert.ReferenceIdeal.S_ .f32 0x00000000#32) h' hu (ix1 b)
      = ∑ d : Fin 64, v (ix2 b d) := by
  have h : Cert.ReferenceIdeal.S4096x64.Reduces [1] Cert.ReferenceIdeal.S4096 := by decide
  refine (hostReduceAdd_apply v _ h' hu (ix1 b)).trans ?_
  refine (Ideal.hostReduceAdd_single h' h v _ (ix1 b)).trans ?_
  rw [constant_apply, Ideal.ofBits_zero_f32, zero_add]
  refine Finset.sum_congr rfl fun d _ => congrArg v ?_
  funext a
  match a with
  | ⟨0, _⟩ => rfl
  | ⟨1, _⟩ => rfl

theorem fmRef_apply (C : FVec Ideal Cert.ReferenceIdeal.S4096x6x64 .f32) (B : FVec Ideal Cert.ReferenceIdeal.S4096x1 .f32)
    (G : FVec Ideal Cert.ReferenceIdeal.S1x1 .f32) (b : Fin 4096) : fmRef C B G (ix2 b 0) = fmRow C B G b := by
  unfold fmRef fmRow
  have hhalf : broadcastInDim Cert.ReferenceIdeal.S4096x1 ![] bcast_S_S4096x1 (constant (F := Ideal) Cert.ReferenceIdeal.S_ .f32 0x3F000000#32) (ix2 b 0)
      = Ideal.ofBits .f32 0x3F000000#32 :=
    (broadcastInDim_scalar_apply bcast_S_S4096x1 _ (ix2 b 0)).trans (constant_apply _ _)
  have hcol : ∀ v : FVec Ideal Cert.ReferenceIdeal.S4096 .f32,
      broadcastInDim Cert.ReferenceIdeal.S4096x1 ![0] bcast_S4096_S4096x1_0 v (ix2 b 0) = v (ix1 b) := fun v =>
    broadcastInDim_apply ![0] bcast_S4096_S4096x1_0 v (ix2 b 0) (ix1 b) (fun a => by
      match a with
      | ⟨0, _⟩ => rfl)
  have hg : broadcastInDim Cert.ReferenceIdeal.S4096x1 ![0, 1] bcast_S1x1_S4096x1_0_1 G (ix2 b 0) = G (ix2 0 0) :=
    broadcastInDim_apply ![0, 1] bcast_S1x1_S4096x1_0_1 G (ix2 b 0) (ix2 0 0) (fun a => by
      match a with
      | ⟨0, _⟩ => rfl
      | ⟨1, _⟩ => rfl)
  refine congrArg₂ (· + ·) (congrArg (· + B (ix2 b 0)) (congrArg₂ (· * ·) hhalf ?_)) hg
  refine (hcol _).trans ?_
  refine (hsum_last _ _ _ b).trans ?_
  refine Finset.sum_congr rfl fun d _ => ?_
  refine congrArg₂ (· - ·) (congrArg₂ (· * ·) (hsum_mid C _ _ b d) (hsum_mid C _ _ b d)) ?_
  exact hsum_mid (mulf C C) _ _ b d

/-- The kernel's closed form of its output array is the reference's term: both are the row formula at every row. -/
theorem fmG_eq_fmRef (C : FVec Ideal Cert.ReferenceIdeal.S4096x6x64 .f32) (B : FVec Ideal Cert.ReferenceIdeal.S4096x1 .f32)
    (G : FVec Ideal Cert.ReferenceIdeal.S1x1 .f32) : Cert.KernelIdeal.Val.fmG C B G = fmRef C B G := by
  funext i
  obtain ⟨b, q, rfl⟩ : ∃ (b : Fin 4096) (q : Fin 1), i = ix2 b q := ⟨i 0, i 1, eq_ix2 i⟩
  obtain rfl : q = 0 := Subsingleton.elim _ _
  exact (fmRef_apply C B G b).symm

/-- THE MEETING: the kernel's output array after its fourth region, from the arrays the region finds, is the
    reference's factorization-machine term of the same three arrays. -/
theorem fm_eq (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Hand.dat3 (F := Ideal) V c).arrAt 3 Cert.KernelIdeal.cfg3.N
      = fmRef (V c Cert.KernelIdeal.main_v144) (V c Cert.KernelIdeal.main_v141) (V c Cert.KernelIdeal.main_arg10) :=
  (Cert.KernelIdeal.Val.fm_final V c).trans
    (fmG_eq_fmRef (V c Cert.KernelIdeal.main_v144) (V c Cert.KernelIdeal.main_v141) (V c Cert.KernelIdeal.main_arg10))

end Cert.Bridge

end
-- ==== Proof.Br.Spec.lean ====
/-
  The gather-mean's counting weight, independent of any program: for three 32-bit words and a row number,
  how many of the words name that row, as an extended real. Both sides of the certificate state the
  one-hot-count product through it.
-/
import Mathlib.Data.EReal.Basic

namespace Cert.Spec

/-- One when the word `a` is the number `r` (as a 32-bit word), zero otherwise. -/
noncomputable def hit (a : BitVec 32) (r : ℕ) : EReal := if a = BitVec.ofNat 32 r then 1 else 0

/-- How many of the three words `a`, `b`, `c` name row `r`: the three indicators added, in this order,
    onto zero. -/
noncomputable def cnt (a b c : BitVec 32) (r : ℕ) : EReal := ((0 + hit a r) + hit b r) + hit c r

theorem hit_eq_coe (a : BitVec 32) (r : ℕ) :
    hit a r = (((if a = BitVec.ofNat 32 r then 1 else 0 : ℝ)) : EReal) := by
  unfold hit
  split_ifs <;> simp

/-- The count is the real number of hits, coerced. -/
theorem cnt_eq (a b c : BitVec 32) (r : ℕ) :
    cnt a b c r = (((if a = BitVec.ofNat 32 r then 1 else 0 : ℝ) + (if b = BitVec.ofNat 32 r then 1 else 0 : ℝ)
      + (if c = BitVec.ofNat 32 r then 1 else 0 : ℝ) : ℝ) : EReal) := by
  unfold cnt
  rw [zero_add, hit_eq_coe, hit_eq_coe, hit_eq_coe, EReal.coe_add, EReal.coe_add]

end Cert.Spec
-- ==== Proof.KI.ValPay0.lean ====
/-
  The gather-mean block payload read at an index, at the ideal values: for a block of rows with their own
  entries, their index triples and the whole table, the stored entry at row `p`, column `q` is

      (own p q + ∑ r, cnt (idx p 0) (idx p 1) (idx p 2) r * table r q) * ¼

  where `cnt` counts how many of the three index words name table row `r` (the one-hot rows summed, then
  multiplied against the table by the matrix unit into a zero accumulator).
-/
import proofs.«423063_j64879775973997_3_alg».proof.Proof.Gen.KernelIdeal.Skeleton
import proofs.«423063_j64879775973997_3_alg».proof.Proof.Br.Spec
import Idealize.ShloMosaic.Lib.ValueIdx
import Idealize.ShloMosaic.Lib.Pipeline.Value
import Idealize.ShloMosaic.Lib.IdealHost
import Idealize.ShloMosaic.PureOps.Ideal.Laws

noncomputable section
namespace Cert.KernelIdeal.Val

open Idealize.ShloMosaic Idealize.SL.Sem Idealize.ShloMosaic.ValueIdx
open scoped BigOperators

/-- One indicator column of the count matrix: at row `p` and lane `r` it is one exactly when the word in
    column `c` of the row's index triple is `r`. -/
theorem onehot0_apply (x1 : Vec Ideal S400x3 .i32) (c : Fin 3) (off : Fin 2 → ℕ) (h0 : off 0 = 0) (h1 : off 1 = c.val)
    (hs : S400x3.Slices off S400x1) (p : Fin 400) (r : Fin 4000) :
    (truncf .bf16 (sitofp .f32 (extui 32 (cmpi .eq
        (broadcastTo S400x4000 (extractStridedSlice S400x1 off x1 hs)
          Gen.broadcasts_S400x1_S400x4000)
        (iota .tc S400x4000 32 [1] Gen.iota_S400x4000_d1_w32)) Gen.natLt_1_32) : FVec Ideal S400x4000 .f32)
      Gen.bitsLt_bf16_f32 : FVec Ideal S400x4000 .bf16) (ix2 p r) = Spec.hit (x1 (ix2 p c)) r.val := by
  have e1 : broadcastTo S400x4000 (extractStridedSlice S400x1 off x1 hs)
          Gen.broadcasts_S400x1_S400x4000 (ix2 p r) = x1 (ix2 p c) := by
    refine (broadcastTo_apply _ _ (ix2 p r) (ix2 p (0 : Fin 1)) fun ax => ?_).trans ?_
    · match ax with
      | ⟨0, _⟩ => rfl
      | ⟨1, _⟩ => rfl
    refine (extractStridedSlice_apply off _ hs (ix2 p (0 : Fin 1)) (ix2 p c) fun ax => ?_).trans ?_
    · match ax with
      | ⟨0, _⟩ => show p.val = off 0 + p.val; omega
      | ⟨1, _⟩ => show c.val = off 1 + 0; omega
    rfl
  have e2 : iota .tc S400x4000 32 [1] Gen.iota_S400x4000_d1_w32 (ix2 p r) = BitVec.ofNat 32 r.val :=
    iota_single_apply .tc S400x4000 32 1 _ (ix2 p r)
  show (((BitVec.setWidth 32 (IntOp.cmpi .eq
        (broadcastTo S400x4000 (extractStridedSlice S400x1 off x1 hs)
          Gen.broadcasts_S400x1_S400x4000 (ix2 p r))
        (iota .tc S400x4000 32 [1] Gen.iota_S400x4000_d1_w32 (ix2 p r)))).toInt : ℝ) : EReal) = _
  rw [e1, e2]
  unfold Spec.hit IntOp.cmpi
  by_cases h : x1 (ix2 p c) = BitVec.ofNat 32 r.val
  · simp [h]
  · have hb : (x1 (ix2 p c) == BitVec.ofNat 32 r.val) = false := by simpa using h
    simp [h, hb]

/-! ### The product's index maps, coordinate by coordinate -/

theorem dot0_lhs_0 (j : S400x64.Idx) (k : dot_S400x4000_S4000x64_S400x64_1_0_0_1_n_n.contr.Idx) :
    (dot_S400x4000_S4000x64_S400x64_1_0_0_1_n_n.lhsIdx j k 0 : ℕ) = j 0 := by
  simp [DotDims.lhsIdx, dot_S400x4000_S4000x64_S400x64_1_0_0_1_n_n]; rfl
theorem dot0_lhs_1 (j : S400x64.Idx) (k : dot_S400x4000_S4000x64_S400x64_1_0_0_1_n_n.contr.Idx) :
    (dot_S400x4000_S4000x64_S400x64_1_0_0_1_n_n.lhsIdx j k 1 : ℕ) = k ⟨0, by decide⟩ :=
  dot_S400x4000_S4000x64_S400x64_1_0_0_1_n_n.lhsIdx_val_of_single (cl := 1) rfl j k
theorem dot0_rhs_0 (j : S400x64.Idx) (k : dot_S400x4000_S4000x64_S400x64_1_0_0_1_n_n.contr.Idx) :
    (dot_S400x4000_S4000x64_S400x64_1_0_0_1_n_n.rhsIdx j k 0 : ℕ) = k ⟨0, by decide⟩ :=
  dot_S400x4000_S4000x64_S400x64_1_0_0_1_n_n.rhsIdx_val_of_single (cr := 0) rfl j k
theorem dot0_rhs_1 (j : S400x64.Idx) (k : dot_S400x4000_S4000x64_S400x64_1_0_0_1_n_n.contr.Idx) :
    (dot_S400x4000_S4000x64_S400x64_1_0_0_1_n_n.rhsIdx j k 1 : ℕ) = j 1 := by
  simp [DotDims.rhsIdx, dot_S400x4000_S4000x64_S400x64_1_0_0_1_n_n]; rfl

/-- The block product into a zero accumulator, at row `p` and column `q`: the sum over the table's rows. -/
theorem matmul0_apply (A : FVec Ideal S400x4000 .bf16) (B : FVec Ideal S4000x64 .bf16) (p : Fin 400) (q : Fin 64) :
    matmul dot_S400x4000_S4000x64_S400x64_1_0_0_1_n_n none A B (constant S400x64 .f32 0x00000000#32) (ix2 p q)
      = ∑ r : Fin 4000, A (ix2 p r) * B (ix2 r q) := by
  refine (Ideal.matmul_constant_zero_apply dot_S400x4000_S4000x64_S400x64_1_0_0_1_n_n none A B (ix2 p q)).trans ?_
  rw [← Equiv.sum_comp (contrEquiv1 dot_S400x4000_S4000x64_S400x64_1_0_0_1_n_n 4000 rfl rfl).symm]
  refine Finset.sum_congr rfl fun r _ => ?_
  have hl : dot_S400x4000_S4000x64_S400x64_1_0_0_1_n_n.lhsIdx (ix2 p q)
      ((contrEquiv1 dot_S400x4000_S4000x64_S400x64_1_0_0_1_n_n 4000 rfl rfl).symm r) = ix2 p r :=
    Shape.idx_ext₂ (dot0_lhs_0 _ _)
      ((dot0_lhs_1 _ _).trans (contrEquiv1_symm_val dot_S400x4000_S4000x64_S400x64_1_0_0_1_n_n 4000 rfl rfl r))
  have hr : dot_S400x4000_S4000x64_S400x64_1_0_0_1_n_n.rhsIdx (ix2 p q)
      ((contrEquiv1 dot_S400x4000_S4000x64_S400x64_1_0_0_1_n_n 4000 rfl rfl).symm r) = ix2 r q :=
    Shape.idx_ext₂
      ((dot0_rhs_0 _ _).trans (contrEquiv1_symm_val dot_S400x4000_S4000x64_S400x64_1_0_0_1_n_n 4000 rfl rfl r))
      (dot0_rhs_1 _ _)
  rw [hl, hr]

/-- The gather-mean block payload at row `p`, column `q`: the row's own entry plus the count-weighted sum of
    the table's rows, times the quarter. -/
theorem pay0_apply (x0 : Vec Ideal S400x64 .f32) (x1 : Vec Ideal S400x3 .i32) (x2 : Vec Ideal S4000x64 .bf16)
    (p : Fin 400) (q : Fin 64) :
    Gen.k0_pay1 (F := Ideal) x0 x1 x2 (ix2 p q)
      = (x0 (ix2 p q) + ∑ r : Fin 4000, Spec.cnt (x1 (ix2 p 0)) (x1 (ix2 p 1)) (x1 (ix2 p 2)) r.val * x2 (ix2 r q))
          * Ideal.ofBits .f32 0x3E800000#32 := by
  unfold Gen.k0_pay1
  simp only [mulf_apply, addf_apply, broadcast_apply, shapeCast_self]
  refine congrArg (· * Ideal.ofBits .f32 0x3E800000#32) (congrArg (x0 (ix2 p q) + ·) ?_)
  refine (matmul0_apply _ _ p q).trans (Finset.sum_congr rfl fun r _ => ?_)
  refine congrArg (· * x2 (ix2 r q)) ?_
  simp only [addf_apply, broadcast_apply]
  rw [onehot0_apply x1 0 ![0, 0] rfl rfl, onehot0_apply x1 1 ![0, 1] rfl rfl, onehot0_apply x1 2 ![0, 2] rfl rfl]
  show ((Ideal.ofBits .bf16 0x0000#16 + _) + _) + _ = _
  rw [Ideal.ofBits_zero_bf16]
  rfl

end Cert.KernelIdeal.Val
-- ==== Proof.KI.ValEnc0.lean ====
/-
  What the gather-mean region 0 leaves in its output array, index by index, at the ideal values: row `p`,
  column `q` of the output is

      (own p q + ∑ r, cnt (idx p 0) (idx p 1) (idx p 2) r * table r q) * ¼

  over the WHOLE arrays the region finds (the rows' own entries, their index triples, the table). Each grid
  point writes back the payload of its blocks; a block's element sits in its array at the block index times
  the block's extent plus its own coordinate; the row blocks tile the output, so every row is some point's.
-/
import proofs.«423063_j64879775973997_3_alg».proof.Proof.KI.Reg0
import proofs.«423063_j64879775973997_3_alg».proof.Proof.KI.ValPay0
import Idealize.ShloMosaic.Lib.Pipeline.Value

noncomputable section
namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

-- the TensorCore's buffer contents when the region is entered
variable (V : (c : Dev nD) → (b : Ref sig .tc) → Buf (Elt Ideal) ((c : Thread nD τ).loc b))

theorem enc0_hz : (![0, 0] : Fin 2 → Nat) = fun _ => 0 := funext fun a => by fin_cases a <;> rfl

/-- The printed index maps, decided once over the grid: the row windows' block row is the point's number, the
    table's block is block zero, and no window moves along the columns. -/
theorem enc0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' own block at point `t` is rows `400 t …` of the array. -/
theorem enc0_blk0_apply (c : Dev nD) (t : Fin cfg0.N) (a : Fin 400) (b : Fin 64) (k : Fin 50000)
    (hk : k.val = t.val * 400 + a.val) :
    (Hand.iblk0 V c 0 t : Vec Ideal S400x64 .f32) (ix2 a b) = (V c main_arg3 : Vec Ideal S50000x64 .f32) (ix2 k b) := by
  obtain ⟨e0, e1, -⟩ := enc0_idx_facts t
  unfold Hand.iblk0
  rw [View.read_apply]
  show V c main_arg3 _ = V c main_arg3 _
  congr 1
  funext ax
  apply Fin.ext
  match ax with
  | ⟨0, _⟩ => show win0_0.index t (0 : Fin 2) * 400 + 1 * a.val = k.val; omega
  | ⟨1, _⟩ => show win0_0.index t (1 : Fin 2) * 64 + 1 * b.val = b.val; omega

/-- The rows' index-triple block at point `t` is rows `400 t …` of the index array. -/
theorem enc0_blk1_apply (c : Dev nD) (t : Fin cfg0.N) (a : Fin 400) (b : Fin 3) (k : Fin 50000)
    (hk : k.val = t.val * 400 + a.val) :
    (Hand.iblk0 V c 1 t : Vec Ideal S400x3 .i32) (ix2 a b) = (V c main_v0 : Vec Ideal S50000x3 .i32) (ix2 k b) := by
  obtain ⟨-, -, e0, e1, -⟩ := enc0_idx_facts t
  unfold Hand.iblk0
  rw [View.read_apply]
  show V c main_v0 _ = V c main_v0 _
  congr 1
  funext ax
  apply Fin.ext
  match ax with
  | ⟨0, _⟩ => show win0_1.index t (0 : Fin 2) * 400 + 1 * a.val = k.val; omega
  | ⟨1, _⟩ => show win0_1.index t (1 : Fin 2) * 3 + 1 * b.val = b.val; omega

/-- The table's block at every point is the whole table. -/
theorem enc0_blk2_apply (c : Dev nD) (t : Fin cfg0.N) (r : Fin 4000) (b : Fin 64) :
    (Hand.iblk0 V c 2 t : Vec Ideal S4000x64 .bf16) (ix2 r b) = (V c main_v1 : Vec Ideal S4000x64 .bf16) (ix2 r b) := by
  obtain ⟨-, -, -, -, e0, e1, -⟩ := enc0_idx_facts t
  unfold Hand.iblk0
  rw [View.read_apply]
  show V c main_v1 _ = V c main_v1 _
  congr 1
  funext ax
  apply Fin.ext
  match ax with
  | ⟨0, _⟩ => show win0_2.index t (0 : Fin 2) * 4000 + 1 * r.val = r.val; omega
  | ⟨1, _⟩ => show win0_2.index t (1 : Fin 2) * 64 + 1 * b.val = b.val; omega

/-- The closed form: the output array as one function of the three arrays the region finds. -/
def enc0_G (own : Vec Ideal S50000x64 .f32) (idx : Vec Ideal S50000x3 .i32) (tab : Vec Ideal S4000x64 .bf16) :
    Vec Ideal S50000x64 .f32 := fun i =>
  (own i + ∑ r : Fin 4000,
      Spec.cnt (idx (ix2 (⟨(i 0).val, idx2_lt0 i⟩ : Fin 50000) 0)) (idx (ix2 (⟨(i 0).val, idx2_lt0 i⟩ : Fin 50000) 1))
        (idx (ix2 (⟨(i 0).val, idx2_lt0 i⟩ : Fin 50000) 2)) r.val
        * tab (ix2 r (⟨(i 1).val, idx2_lt1 i⟩ : Fin 64)))
    * Ideal.ofBits .f32 0x3E800000#32

theorem enc0_G_apply (own : Vec Ideal S50000x64 .f32) (idx : Vec Ideal S50000x3 .i32) (tab : Vec Ideal S4000x64 .bf16)
    (p : Fin 50000) (q : Fin 64) :
    enc0_G own idx tab (ix2 p q)
      = (own (ix2 p q) + ∑ r : Fin 4000, Spec.cnt (idx (ix2 p 0)) (idx (ix2 p 1)) (idx (ix2 p 2)) r.val * tab (ix2 r q))
          * Ideal.ofBits .f32 0x3E800000#32 := rfl

/-- One written-back element: if the three blocks are the arrays' rows `400 n …` (the table whole), the payload at
    a block index is the closed form at the array index `400 n` rows further down. -/
theorem enc0_point (x0 : Vec Ideal S400x64 .f32) (x1 : Vec Ideal S400x3 .i32) (x2 : Vec Ideal S4000x64 .bf16)
    (own : Vec Ideal S50000x64 .f32) (idx : Vec Ideal S50000x3 .i32) (tab : Vec Ideal S4000x64 .bf16) (n : ℕ)
    (h0 : ∀ (a : Fin 400) (b : Fin 64) (k : Fin 50000), k.val = n * 400 + a.val → x0 (ix2 a b) = own (ix2 k b))
    (h1 : ∀ (a : Fin 400) (b : Fin 3) (k : Fin 50000), k.val = n * 400 + a.val → x1 (ix2 a b) = idx (ix2 k b))
    (h2 : ∀ (r : Fin 4000) (b : Fin 64), x2 (ix2 r b) = tab (ix2 r b))
    (y : S400x64.Idx) (i : S50000x64.Idx) (hi0 : (i 0).val = n * 400 + (y 0).val) (hi1 : (i 1).val = (y 1).val) :
    Gen.k0_pay1 (F := Ideal) x0 x1 x2 y = enc0_G own idx tab i := by
  obtain ⟨a, b, rfl⟩ : ∃ (a : Fin 400) (b : Fin 64), y = ix2 a b := ⟨y 0, y 1, eq_ix2 y⟩
  obtain ⟨k, b', rfl⟩ : ∃ (k : Fin 50000) (b' : Fin 64), i = ix2 k b' := ⟨i 0, i 1, eq_ix2 i⟩
  obtain rfl : b' = b := Fin.ext hi1
  rw [pay0_apply, enc0_G_apply, h0 a b' k hi0, h1 a 0 k hi0, h1 a 1 k hi0, h1 a 2 k hi0]
  simp only [h2]

/-- WHAT POINT `t` WRITES BACK is block `t` of the closed form of the arrays the region finds. -/
theorem enc0_flushed_eq (c : Dev nD) (t : Fin cfg0.N) :
    (Hand.dat0 V c).flushed 3 t
      = ((cfg0.win 3).blk t).view.read (Elt Ideal) (enc0_G (V c main_arg3) (V c main_v0) (V c main_v1)) := by
  show (cfg0.win 3).cut (grid0.coords t) ((Hand.dat0 V c).after 3 t) = _
  rw [Hand.after0_3]
  unfold Hand.out0_3
  rw [View.canon_unit_zero enc0_hz]
  simp only [View.ld_unit_zero (S := S400x64) enc0_hz, View.ld_unit_zero (S := S400x3) enc0_hz,
    View.ld_unit_zero (S := S4000x64) enc0_hz]
  obtain ⟨-, -, -, -, -, -, e0, e1⟩ := enc0_idx_facts t
  funext j
  show Gen.k0_pay1 (F := Ideal) (Hand.iblk0 V c 0 t) (Hand.iblk0 V c 1 t) (Hand.iblk0 V c 2 t) j
    = enc0_G (V c main_arg3) (V c main_v0) (V c main_v1) (((cfg0.win 3).blk t).view.emb j)
  refine enc0_point (Hand.iblk0 V c 0 t) (Hand.iblk0 V c 1 t) (Hand.iblk0 V c 2 t) (V c main_arg3) (V c main_v0) (V c main_v1)
    t.val (fun a b k hk => enc0_blk0_apply V c t a b k hk) (fun a b k hk => enc0_blk1_apply V c t a b k hk)
    (fun r b => enc0_blk2_apply V c t r b) j (((cfg0.win 3).blk t).view.emb j) ?_ ?_
  · show win0_3.index t (0 : Fin 2) * 400 + 1 * (j 0).val = t.val * 400 + (j 0).val; omega
  · show win0_3.index t (1 : Fin 2) * 64 + 1 * (j 1).val = (j 1).val; omega

/-- An index of the output array is in point `t`'s block iff each coordinate is in the block's range on its axis. -/
theorem enc0_mem_blk (t : Fin cfg0.N) (i : S50000x64.Idx) :
    i ∈ ((cfg0.win 3).blk t).view.set ↔ ∀ a : Fin 2, win0_3.index t a * S400x64.size a ≤ (i a).val
      ∧ (i a).val < win0_3.index t a * S400x64.size a + S400x64.size a := by
  show i ∈ ((View.whole main_v2).slice (win0_3.rect t)).set ↔ _
  rw [View.set_slice_whole, Rect.mem_set_unit]
  exact Iff.rfl

/-- The row blocks tile the output: row `p` lies in the block of point `p / 400`, which writes back. -/
theorem enc0_cover (i : S50000x64.Idx) :
    ∃ t : Fin cfg0.N, (cfg0.win 3).flush t = true ∧ i ∈ ((cfg0.win 3).blk t).view.set := by
  have hN : cfg0.N = 125 := N_0
  have hi0 : (i 0).val < 50000 := (i 0).isLt
  have hi1 : (i 1).val < 64 := (i 1).isLt
  have ht : (i 0).val / 400 < cfg0.N := by rw [hN]; omega
  obtain ⟨-, -, -, -, -, -, e0, e1⟩ := enc0_idx_facts ⟨(i 0).val / 400, ht⟩
  have e0' : win0_3.index ⟨(i 0).val / 400, ht⟩ (0 : Fin 2) = (i 0).val / 400 := e0
  refine ⟨⟨(i 0).val / 400, ht⟩, flush0_3 _, ?_⟩
  rw [enc0_mem_blk]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    omega
  | ⟨1, _⟩ =>
    show win0_3.index ⟨(i 0).val / 400, ht⟩ (1 : Fin 2) * 64 ≤ (i 1).val
      ∧ (i 1).val < win0_3.index ⟨(i 0).val / 400, ht⟩ (1 : Fin 2) * 64 + 64
    omega

/-- THE OUTPUT ARRAY after the region: the closed form of the arrays the region finds. -/
theorem enc0_final (c : Dev nD) :
    (Hand.dat0 V c).arrAt 3 cfg0.N = enc0_G (V c main_arg3) (V c main_v0) (V c main_v1) :=
  (Hand.dat0 V c).arrAt_eq_of_cover 3 (enc0_G (V c main_arg3) (V c main_v0) (V c main_v1))
    (fun t _ => enc0_flushed_eq V c t) enc0_cover

/-- The three arrays the region reads, as it finds them, and its output array after it, by their literal types. -/
abbrev enc0_own (c : Dev nD) : Vec Ideal S50000x64 .f32 := V c main_arg3
abbrev enc0_idx (c : Dev nD) : Vec Ideal S50000x3 .i32 := V c main_v0
abbrev enc0_tab (c : Dev nD) : Vec Ideal S4000x64 .bf16 := V c main_v1
abbrev enc0_out (c : Dev nD) : Vec Ideal S50000x64 .f32 := (Hand.dat0 V c).arrAt 3 cfg0.N

/-- Row `p`, column `q` of the output after the region: the row's own entry plus the count-weighted sum of the
    table's rows, times the quarter. -/
theorem enc0_apply (c : Dev nD) (p : Fin 50000) (q : Fin 64) :
    enc0_out V c (ix2 p q)
      = (enc0_own V c (ix2 p q)
          + ∑ r : Fin 4000, Spec.cnt (enc0_idx V c (ix2 p 0)) (enc0_idx V c (ix2 p 1)) (enc0_idx V c (ix2 p 2)) r.val
            * enc0_tab V c (ix2 r q))
        * Ideal.ofBits .f32 0x3E800000#32 :=
  (congrFun (enc0_final V c) (ix2 p q)).trans (enc0_G_apply (V c main_arg3) (V c main_v0) (V c main_v1) p q)

end Cert.KernelIdeal.Val
-- ==== Proof.Br.HostK.lean ====
import proofs.«423063_j64879775973997_3_alg».proof.Proof.KI.Fold
import Idealize.ShloMosaic.Lib.StableHlo.Run

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Idealize.ShloMosaic.StableHlo

variable {F : FTy → Type} [FloatOps F]

/-! # What the host stretches before each gather-and-mean launch leave in the launch's input arrays

Each of the three launches is preceded by three stretches of host operations: constants, an index clamp, and a
narrowing of the table to bfloat16 (before the second launch also a slice of the features; before the third also a
gather of feature rows). Over ANY contents `Wp` at the start of the three stretches, the arrays the launch reads
hold the pure terms below of `Wp`'s argument arrays. -/

section Stretches
variable (Wp : Valuation τ sig (Elt F))

/-- After the first three stretches: the neighbour indices, clamped entrywise to `[0, 3999]`
    (`min 3999 (max 0 ·)`, the two bounds broadcast from scalars). -/
theorem stretch0_idx :
    after hostOps0_2 (after hostOps0_1 (after hostOps0 Wp)) (Proc.devRef .tc main_v0)
      = minsi (broadcastInDim S50000x3 ![] bcast_S_S50000x3 (constantI S_ 32 3999#32))
          (maxsi (broadcastInDim S50000x3 ![] bcast_S_S50000x3 (constantI S_ 32 0#32)) (Wp (Proc.devRef .tc main_arg11))) := by
  after_results
  rfl

/-- After the first three stretches: the table, each entry rounded to bfloat16. -/
theorem stretch0_tab :
    after hostOps0_2 (after hostOps0_1 (after hostOps0 Wp)) (Proc.devRef .tc main_v1)
      = truncf .bf16 (Wp (Proc.devRef .tc main_arg5)) bitsLt_bf16_f32 := by
  after_results

/-- Before the second launch: the rows' own features are the first 20000 rows of the feature array. -/
theorem stretch1_own :
    after hostOps1_2 (after hostOps1_1 (after hostOps1 Wp)) (Proc.devRef .tc main_v3)
      = extractStridedSlice S20000x64 ![0, 0] (Wp (Proc.devRef .tc main_arg4)) slices_S22000x64_S20000x64_0_0 := by
  after_results

/-- Before the second launch: the neighbour indices, clamped entrywise to `[0, 3999]`. -/
theorem stretch1_idx :
    after hostOps1_2 (after hostOps1_1 (after hostOps1 Wp)) (Proc.devRef .tc main_v4)
      = minsi (broadcastInDim S20000x3 ![] bcast_S_S20000x3 (constantI S_ 32 3999#32))
          (maxsi (broadcastInDim S20000x3 ![] bcast_S_S20000x3 (constantI S_ 32 0#32)) (Wp (Proc.devRef .tc main_arg12))) := by
  after_results
  rfl

/-- Before the second launch: the table, each entry rounded to bfloat16. -/
theorem stretch1_tab :
    after hostOps1_2 (after hostOps1_1 (after hostOps1 Wp)) (Proc.devRef .tc main_v5)
      = truncf .bf16 (Wp (Proc.devRef .tc main_arg6)) bitsLt_bf16_f32 := by
  after_results

/-- The row numbers the third launch's own features are gathered at: column 3 of the index array as a vector. -/
abbrev selfRow (a13 : IVec S100000x4 32) : IVec S100000 32 :=
  shapeCast S100000 (extractStridedSlice S100000x1 ![0, 3] a13 slices_S100000x4_S100000x1_0_3) shapeCasts_S100000x1_S100000

/-- Before the third launch: the rows' own features are rows of the feature array gathered at `selfRow`, a
    negative row number counted from the end (22000 added to it). -/
theorem stretch2_own :
    after hostOps2_2 (after hostOps2_1 (after hostOps2 Wp)) (Proc.devRef .tc main_v15)
      = Host.gather gather_S22000x64_S100000x1_S100000x64_1_0_n_n_0_1_164 (Wp (Proc.devRef .tc main_arg4))
          (broadcastInDim S100000x1 ![0] bcast_S100000_S100000x1_0
            (select (cmpi .slt (selfRow (Wp (Proc.devRef .tc main_arg13))) (broadcastInDim S100000 ![] bcast_S_S100000 (constantI S_ 32 0#32)))
              (addi (selfRow (Wp (Proc.devRef .tc main_arg13))) (broadcastInDim S100000 ![] bcast_S_S100000 (constantI S_ 32 22000#32)))
              (selfRow (Wp (Proc.devRef .tc main_arg13))))) := by
  after_results
  rfl

/-- Before the third launch: the neighbour indices are columns 0 to 2 of the index array, clamped entrywise to
    `[0, 999]`. -/
theorem stretch2_idx :
    after hostOps2_2 (after hostOps2_1 (after hostOps2 Wp)) (Proc.devRef .tc main_v17)
      = minsi (broadcastInDim S100000x3 ![] bcast_S_S100000x3 (constantI S_ 32 999#32))
          (maxsi (broadcastInDim S100000x3 ![] bcast_S_S100000x3 (constantI S_ 32 0#32))
            (extractStridedSlice S100000x3 ![0, 0] (Wp (Proc.devRef .tc main_arg13)) slices_S100000x4_S100000x3_0_0)) := by
  after_results
  rfl

/-- Before the third launch: the table, each entry rounded to bfloat16. -/
theorem stretch2_tab :
    after hostOps2_2 (after hostOps2_1 (after hostOps2 Wp)) (Proc.devRef .tc main_v18)
      = truncf .bf16 (Wp (Proc.devRef .tc main_arg7)) bitsLt_bf16_f32 := by
  after_results

end Stretches

/-! # The same at @main's boundaries, in terms of the launch contents

The contents when a launch is entered are the three stretches run from the contents at the previous launch's exit
(for the first launch, from the launch memory). No stretch and no launch writes an argument array, so at every
boundary an argument array still holds what it held at launch. -/

section Boundaries
variable (m : (ℓ : Loc nD τ sig) → Buf (Elt F) ℓ) (ρ : Dev nD → PrngReg) (c : Dev nD)

/-! ## The first launch (entered at boundary 3) -/

/-- Its own-features array is an argument array, untouched. -/
theorem hk0_own : W3 m ρ c (Proc.devRef .tc main_arg3) = W0 m ρ c (Proc.devRef .tc main_arg3) :=
  W3_args m ρ c main_arg3 (by decide)

/-- Its index array: argument 11 clamped entrywise to `[0, 3999]`. -/
theorem hk0_idx :
    W3 m ρ c (Proc.devRef .tc main_v0)
      = minsi (broadcastInDim S50000x3 ![] bcast_S_S50000x3 (constantI S_ 32 3999#32))
          (maxsi (broadcastInDim S50000x3 ![] bcast_S_S50000x3 (constantI S_ 32 0#32)) (W0 m ρ c (Proc.devRef .tc main_arg11))) :=
  stretch0_idx (W0 m ρ c)

/-- Its table: argument 5 rounded entrywise to bfloat16. -/
theorem hk0_tab :
    W3 m ρ c (Proc.devRef .tc main_v1) = truncf .bf16 (W0 m ρ c (Proc.devRef .tc main_arg5)) bitsLt_bf16_f32 :=
  stretch0_tab (W0 m ρ c)

/-! ## The second launch (entered at boundary 7) -/

/-- Its own-features array: the first 20000 rows of argument 4. -/
theorem hk1_own :
    W7 m ρ c (Proc.devRef .tc main_v3)
      = extractStridedSlice S20000x64 ![0, 0] (W0 m ρ c (Proc.devRef .tc main_arg4)) slices_S22000x64_S20000x64_0_0 :=
  (stretch1_own (W4 m ρ c)).trans (by rw [W4_args m ρ c main_arg4 (by decide)])

/-- Its index array: argument 12 clamped entrywise to `[0, 3999]`. -/
theorem hk1_idx :
    W7 m ρ c (Proc.devRef .tc main_v4)
      = minsi (broadcastInDim S20000x3 ![] bcast_S_S20000x3 (constantI S_ 32 3999#32))
          (maxsi (broadcastInDim S20000x3 ![] bcast_S_S20000x3 (constantI S_ 32 0#32)) (W0 m ρ c (Proc.devRef .tc main_arg12))) :=
  (stretch1_idx (W4 m ρ c)).trans (by rw [W4_args m ρ c main_arg12 (by decide)])

/-- Its table: argument 6 rounded entrywise to bfloat16. -/
theorem hk1_tab :
    W7 m ρ c (Proc.devRef .tc main_v5) = truncf .bf16 (W0 m ρ c (Proc.devRef .tc main_arg6)) bitsLt_bf16_f32 :=
  (stretch1_tab (W4 m ρ c)).trans (by rw [W4_args m ρ c main_arg6 (by decide)])

/-! ## The third launch (entered at boundary 11) -/

/-- Its own-features array: rows of argument 4 gathered at column 3 of argument 13, a negative row number counted
    from the end. -/
theorem hk2_own :
    W11 m ρ c (Proc.devRef .tc main_v15)
      = Host.gather gather_S22000x64_S100000x1_S100000x64_1_0_n_n_0_1_164 (W0 m ρ c (Proc.devRef .tc main_arg4))
          (broadcastInDim S100000x1 ![0] bcast_S100000_S100000x1_0
            (select (cmpi .slt (selfRow (W0 m ρ c (Proc.devRef .tc main_arg13))) (broadcastInDim S100000 ![] bcast_S_S100000 (constantI S_ 32 0#32)))
              (addi (selfRow (W0 m ρ c (Proc.devRef .tc main_arg13))) (broadcastInDim S100000 ![] bcast_S_S100000 (constantI S_ 32 22000#32)))
              (selfRow (W0 m ρ c (Proc.devRef .tc main_arg13))))) :=
  (stretch2_own (W8 m ρ c)).trans (by rw [W8_args m ρ c main_arg4 (by decide), W8_args m ρ c main_arg13 (by decide)])

/-- Its index array: columns 0 to 2 of argument 13 clamped entrywise to `[0, 999]`. -/
theorem hk2_idx :
    W11 m ρ c (Proc.devRef .tc main_v17)
      = minsi (broadcastInDim S100000x3 ![] bcast_S_S100000x3 (constantI S_ 32 999#32))
          (maxsi (broadcastInDim S100000x3 ![] bcast_S_S100000x3 (constantI S_ 32 0#32))
            (extractStridedSlice S100000x3 ![0, 0] (W0 m ρ c (Proc.devRef .tc main_arg13)) slices_S100000x4_S100000x3_0_0)) :=
  (stretch2_idx (W8 m ρ c)).trans (by rw [W8_args m ρ c main_arg13 (by decide)])

/-- Its table: argument 7 rounded entrywise to bfloat16. -/
theorem hk2_tab :
    W11 m ρ c (Proc.devRef .tc main_v18) = truncf .bf16 (W0 m ρ c (Proc.devRef .tc main_arg7)) bitsLt_bf16_f32 :=
  (stretch2_tab (W8 m ρ c)).trans (by rw [W8_args m ρ c main_arg7 (by decide)])

end Boundaries

end Cert.Bridge

end
-- ==== Proof.Br.EncRef.lean ====
/- The reference's node encodings — the mean of a node's own row and three gathered table rows, as the host program
   spells it (broadcast, NumPy-style wrap of the row numbers, row gather, concatenation, sum over the four rows, division
   by four) — named over their leaves, and read at an index for row numbers that are in range. -/
import proofs.«423063_j64879775973997_3_alg».proof.Proof.Gen.ReferenceIdeal.Run
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

namespace Cert.Bridge

open Idealize.ShloMosaic Idealize.ShloMosaic.ValueIdx Idealize.ShloMosaic.TcCoe Idealize.SL.Sem Idealize.ShloMosaic.StableHlo
open scoped BigOperators

/-! ## The three encodings of the reference, over their leaves -/

/-- The user encoding: the mean of a user's own row and the three rows of its table its row numbers name. -/
def encRef0 (own : FVec Ideal Cert.ReferenceIdeal.S50000x64 .f32) (idx : IVec Cert.ReferenceIdeal.S50000x3 32)
    (tab : FVec Ideal Cert.ReferenceIdeal.S4000x64 .f32) : FVec Ideal Cert.ReferenceIdeal.S50000x64 .f32 :=
  Host.divf (Host.reduceAdd (concatenate Cert.ReferenceIdeal.S50000x4x64 1 [⟨Cert.ReferenceIdeal.S50000x1x64, (broadcastInDim Cert.ReferenceIdeal.S50000x1x64 ![0, 2] Cert.ReferenceIdeal.Facts₀.bcast_S50000x64_S50000x1x64_0_2 own)⟩, ⟨Cert.ReferenceIdeal.S50000x3x64, (Host.gather Cert.ReferenceIdeal.gather_S4000x64_S50000x3x1_S50000x3x64_2_0_n_n_0_2_164 tab (broadcastInDim Cert.ReferenceIdeal.S50000x3x1 ![0, 1] Cert.ReferenceIdeal.Facts₀.bcast_S50000x3_S50000x3x1_0_1 (select (cmpi .slt idx (broadcastInDim Cert.ReferenceIdeal.S50000x3 ![] Cert.ReferenceIdeal.Facts₀.bcast_S_S50000x3 (constantI Cert.ReferenceIdeal.S_ 32 0#32))) (addi idx (broadcastInDim Cert.ReferenceIdeal.S50000x3 ![] Cert.ReferenceIdeal.Facts₀.bcast_S_S50000x3 (constantI Cert.ReferenceIdeal.S_ 32 4000#32))) idx)))⟩] Cert.ReferenceIdeal.Facts₀.concatenates_S50000x1x64_S50000x3x64_S50000x4x64_d1) (constant Cert.ReferenceIdeal.S_ .f32 0x00000000#32) Cert.ReferenceIdeal.Facts₀.reducesTo_S50000x4x64_S50000x64_d1 Cert.ReferenceIdeal.Facts₀.h_S_) (broadcastInDim Cert.ReferenceIdeal.S50000x64 ![] Cert.ReferenceIdeal.Facts₀.bcast_S_S50000x64 (constant Cert.ReferenceIdeal.S_ .f32 0x40800000#32))

/-- The item encoding: the same over 20000 rows. -/
def encRef1 (own : FVec Ideal Cert.ReferenceIdeal.S20000x64 .f32) (idx : IVec Cert.ReferenceIdeal.S20000x3 32)
    (tab : FVec Ideal Cert.ReferenceIdeal.S4000x64 .f32) : FVec Ideal Cert.ReferenceIdeal.S20000x64 .f32 :=
  Host.divf (Host.reduceAdd (concatenate Cert.ReferenceIdeal.S20000x4x64 1 [⟨Cert.ReferenceIdeal.S20000x1x64, (broadcastInDim Cert.ReferenceIdeal.S20000x1x64 ![0, 2] Cert.ReferenceIdeal.Facts₀.bcast_S20000x64_S20000x1x64_0_2 own)⟩, ⟨Cert.ReferenceIdeal.S20000x3x64, (Host.gather Cert.ReferenceIdeal.gather_S4000x64_S20000x3x1_S20000x3x64_2_0_n_n_0_2_164 tab (broadcastInDim Cert.ReferenceIdeal.S20000x3x1 ![0, 1] Cert.ReferenceIdeal.Facts₀.bcast_S20000x3_S20000x3x1_0_1 (select (cmpi .slt idx (broadcastInDim Cert.ReferenceIdeal.S20000x3 ![] Cert.ReferenceIdeal.Facts₀.bcast_S_S20000x3 (constantI Cert.ReferenceIdeal.S_ 32 0#32))) (addi idx (broadcastInDim Cert.ReferenceIdeal.S20000x3 ![] Cert.ReferenceIdeal.Facts₀.bcast_S_S20000x3 (constantI Cert.ReferenceIdeal.S_ 32 4000#32))) idx)))⟩] Cert.ReferenceIdeal.Facts₀.concatenates_S20000x1x64_S20000x3x64_S20000x4x64_d1) (constant Cert.ReferenceIdeal.S_ .f32 0x00000000#32) Cert.ReferenceIdeal.Facts₀.reducesTo_S20000x4x64_S20000x64_d1 Cert.ReferenceIdeal.Facts₀.h_S_) (broadcastInDim Cert.ReferenceIdeal.S20000x64 ![] Cert.ReferenceIdeal.Facts₀.bcast_S_S20000x64 (constant Cert.ReferenceIdeal.S_ .f32 0x40800000#32))

/-- The context encoding: the same mean over 100000 rows and a 1000-row table, the three gathered rows first. -/
def encRef2 (own : FVec Ideal Cert.ReferenceIdeal.S100000x64 .f32) (idx : IVec Cert.ReferenceIdeal.S100000x3 32)
    (tab : FVec Ideal Cert.ReferenceIdeal.S1000x64 .f32) : FVec Ideal Cert.ReferenceIdeal.S100000x64 .f32 :=
  Host.divf (Host.reduceAdd (concatenate Cert.ReferenceIdeal.S100000x4x64 1 [⟨Cert.ReferenceIdeal.S100000x3x64, (Host.gather Cert.ReferenceIdeal.gather_S1000x64_S100000x3x1_S100000x3x64_2_0_n_n_0_2_164 tab (broadcastInDim Cert.ReferenceIdeal.S100000x3x1 ![0, 1] Cert.ReferenceIdeal.Facts₀.bcast_S100000x3_S100000x3x1_0_1 (select (cmpi .slt idx (broadcastInDim Cert.ReferenceIdeal.S100000x3 ![] Cert.ReferenceIdeal.Facts₀.bcast_S_S100000x3 (constantI Cert.ReferenceIdeal.S_ 32 0#32))) (addi idx (broadcastInDim Cert.ReferenceIdeal.S100000x3 ![] Cert.ReferenceIdeal.Facts₀.bcast_S_S100000x3 (constantI Cert.ReferenceIdeal.S_ 32 1000#32))) idx)))⟩, ⟨Cert.ReferenceIdeal.S100000x1x64, (broadcastInDim Cert.ReferenceIdeal.S100000x1x64 ![0, 2] Cert.ReferenceIdeal.Facts₀.bcast_S100000x64_S100000x1x64_0_2 own)⟩] Cert.ReferenceIdeal.Facts₀.concatenates_S100000x3x64_S100000x1x64_S100000x4x64_d1) (constant Cert.ReferenceIdeal.S_ .f32 0x00000000#32) Cert.ReferenceIdeal.Facts₀.reducesTo_S100000x4x64_S100000x64_d1 Cert.ReferenceIdeal.Facts₀.h_S_) (broadcastInDim Cert.ReferenceIdeal.S100000x64 ![] Cert.ReferenceIdeal.Facts₀.bcast_S_S100000x64 (constant Cert.ReferenceIdeal.S_ .f32 0x40800000#32))

/-- The context encoding's own rows: the feature rows its row numbers name (wrapped, then clamped by the gather). -/
def ownRef2 (feat : FVec Ideal Cert.ReferenceIdeal.S22000x64 .f32) (rows : IVec Cert.ReferenceIdeal.S100000 32) :
    FVec Ideal Cert.ReferenceIdeal.S100000x64 .f32 :=
  (Host.gather Cert.ReferenceIdeal.gather_S22000x64_S100000x1_S100000x64_1_0_n_n_0_1_164 feat (broadcastInDim Cert.ReferenceIdeal.S100000x1 ![0] Cert.ReferenceIdeal.Facts₀.bcast_S100000_S100000x1_0 (select (cmpi .slt rows (broadcastInDim Cert.ReferenceIdeal.S100000 ![] Cert.ReferenceIdeal.Facts₀.bcast_S_S100000 (constantI Cert.ReferenceIdeal.S_ 32 0#32))) (addi rows (broadcastInDim Cert.ReferenceIdeal.S100000 ![] Cert.ReferenceIdeal.Facts₀.bcast_S_S100000 (constantI Cert.ReferenceIdeal.S_ 32 22000#32))) rows)))

/-- The start indices of the last row gather: the selecting row numbers wrapped, as a column. -/
def selRef2 (sel : IVec Cert.ReferenceIdeal.S500000 32) : IVec Cert.ReferenceIdeal.S500000x1 32 :=
  (broadcastInDim Cert.ReferenceIdeal.S500000x1 ![0] Cert.ReferenceIdeal.Facts₀.bcast_S500000_S500000x1_0 (select (cmpi .slt sel (broadcastInDim Cert.ReferenceIdeal.S500000 ![] Cert.ReferenceIdeal.Facts₀.bcast_S_S500000 (constantI Cert.ReferenceIdeal.S_ 32 0#32))) (addi sel (broadcastInDim Cert.ReferenceIdeal.S500000 ![] Cert.ReferenceIdeal.Facts₀.bcast_S_S500000 (constantI Cert.ReferenceIdeal.S_ 32 100000#32))) sel))

/-! ## The generated terms are these -/

theorem res_main_v11_eq (V0 : Valuation Cert.ReferenceIdeal.τ Cert.ReferenceIdeal.sig (Elt Ideal)) :
    Cert.ReferenceIdeal.Value.res_main_v11 (F := Ideal) V0
      = encRef0 (V0 (Proc.devRef .tc Cert.ReferenceIdeal.main_arg3)) (V0 (Proc.devRef .tc Cert.ReferenceIdeal.main_arg11))
          (V0 (Proc.devRef .tc Cert.ReferenceIdeal.main_arg5)) := by
  unfold Cert.ReferenceIdeal.Value.res_main_v11 encRef0; rfl

theorem res_main_v24_eq (V0 : Valuation Cert.ReferenceIdeal.τ Cert.ReferenceIdeal.sig (Elt Ideal)) :
    Cert.ReferenceIdeal.Value.res_main_v24 (F := Ideal) V0
      = encRef1 (extractStridedSlice Cert.ReferenceIdeal.S20000x64 ![0, 0] (V0 (Proc.devRef .tc Cert.ReferenceIdeal.main_arg4))
            Cert.ReferenceIdeal.Facts₀.slices_S22000x64_S20000x64_0_0)
          (V0 (Proc.devRef .tc Cert.ReferenceIdeal.main_arg12)) (V0 (Proc.devRef .tc Cert.ReferenceIdeal.main_arg6)) := by
  unfold Cert.ReferenceIdeal.Value.res_main_v24 encRef1; rfl

theorem res_main_v79_eq (V0 : Valuation Cert.ReferenceIdeal.τ Cert.ReferenceIdeal.sig (Elt Ideal)) :
    Cert.ReferenceIdeal.Value.res_main_v79 (F := Ideal) V0
      = Host.gather Cert.ReferenceIdeal.gather_S100000x64_S500000x1_S500000x64_1_0_n_n_0_1_164
          (encRef2 (ownRef2 (V0 (Proc.devRef .tc Cert.ReferenceIdeal.main_arg4)) (Cert.ReferenceIdeal.Value.res_main_v60 (F := Ideal) V0))
            (Cert.ReferenceIdeal.Value.res_main_v51 (F := Ideal) V0) (V0 (Proc.devRef .tc Cert.ReferenceIdeal.main_arg7)))
          (selRef2 (V0 (Proc.devRef .tc Cert.ReferenceIdeal.main_arg16))) := by
  unfold Cert.ReferenceIdeal.Value.res_main_v79 encRef2 ownRef2 selRef2; rfl

/-! ## Reading the pieces at an index -/

/-- The dimension numbers of a gather of whole rows of an [N, C] table by an [R, K, 1] array of row numbers. -/
abbrev rowsDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- The row gather at (p, k, q): the table's row whose number is the start index at (p, k, 0), read signed and
    clamped into the table, at column q. -/
theorem gather_rows_apply {α : Type} {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (p : Fin R) (k : Fin K) (q : Fin C) :
    Host.gather (rowsDims N C R K wf) x idx (ix3 p k q)
      = x (ix2 ⟨min (idx (ix3 p k (0 : Fin 1))).toInt.toNat (N - 1), by omega⟩ q) := by
  unfold Host.gather
  congr 1
  funext a
  refine Fin.ext ?_
  match a with
  | ⟨0, _⟩ =>
    show (rowsDims N C R K wf).start (ix3 p k q) idx 0 + (rowsDims N C R K wf).batchCoord (ix3 p k q) 0
      + (rowsDims N C R K wf).offCoord (ix3 p k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R K wf).startIndexMap from List.mem_singleton.mpr rfl)]
    have hsi : (rowsDims N C R K wf).siIdx (ix3 p k q) ⟨List.idxOf (0 : Fin 2) (rowsDims N C R K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N C R K wf).start (ix3 p k q) idx 1 + (rowsDims N C R K wf).batchCoord (ix3 p k q) 1
      + (rowsDims N C R K wf).offCoord (ix3 p k q) 1 = _
    rw [GatherDims.batchCoord_eq_zero _ _ _ List.not_mem_nil]
    unfold GatherDims.start
    rw [dif_neg (show ¬ (1 : Fin 2) ∈ (rowsDims N C R K wf).startIndexMap from (show (1 : Fin 2) ∉ ([0] : List (Fin 2)) by decide))]
    unfold GatherDims.offCoord
    rw [dif_pos (show (1 : Fin 2) ∈ (rowsDims N C R K wf).sKept from (GatherDims.mem_sKept _ _).mpr ⟨(show (1 : Fin 2) ∉ ([0] : List (Fin 2)) by decide), List.not_mem_nil⟩)]
    simp only [Nat.zero_add]
    rfl

/-! ### Layout operations of the encodings at an index -/

/-- A row vector array laid along axes 0 and 2 of an [R, 1, C] array reads, at (p, 0, q), the array at (p, q). -/
theorem bcast_mid_apply {α : Type} {R C : Nat}
    (h : (⟨2, ![R, C]⟩ : Shape).BroadcastsInDim ⟨3, ![R, 1, C]⟩ ![0, 2]) (x : (⟨2, ![R, C]⟩ : Shape).Idx → α)
    (p : Fin R) (z : Fin 1) (q : Fin C) :
    broadcastInDim ⟨3, ![R, 1, C]⟩ ![0, 2] h x (ix3 p z q) = x (ix2 p q) := by
  refine broadcastInDim_apply _ h x _ (ix2 p q) (fun a => ?_)
  have hp := p.isLt
  have hq := q.isLt
  match a with
  | ⟨0, _⟩ =>
    show p.val = if R = 1 then 0 else p.val
    split <;> omega
  | ⟨1, _⟩ =>
    show q.val = if C = 1 then 0 else q.val
    split <;> omega

/-- An [R, K] array given a trailing unit axis reads, at (p, k, 0), the array at (p, k). -/
theorem bcast_last_apply {α : Type} {R K : Nat}
    (h : (⟨2, ![R, K]⟩ : Shape).BroadcastsInDim ⟨3, ![R, K, 1]⟩ ![0, 1]) (x : (⟨2, ![R, K]⟩ : Shape).Idx → α)
    (p : Fin R) (k : Fin K) (z : Fin 1) :
    broadcastInDim ⟨3, ![R, K, 1]⟩ ![0, 1] h x (ix3 p k z) = x (ix2 p k) := by
  refine broadcastInDim_apply _ h x _ (ix2 p k) (fun a => ?_)
  have hp := p.isLt
  have hk := k.isLt
  match a with
  | ⟨0, _⟩ =>
    show p.val = if R = 1 then 0 else p.val
    split <;> omega
  | ⟨1, _⟩ =>
    show k.val = if K = 1 then 0 else k.val
    split <;> omega

/-- NumPy's wrap of a row number that is in range leaves it as it is: the word is non-negative as a signed number. -/
theorem wrap_of_lt (w n : BitVec 32) (hw : w.toNat < 2 ^ 31) :
    Scalar.select (IntOp.cmpi .slt w 0#32) (IntOp.addi w n) w = w := by
  have h : ¬ IntOp.cmpi .slt w 0#32 = 1#1 := by
    rw [StableHlo.Predicate.slt_iff_toNat hw (by decide)]
    simp
  rw [eq_zero_of_ne_one h, select_zero]

/-- A one-row piece followed by a three-row piece along axis 1: row 0 is the first piece's. -/
theorem cat13_first {α : Type} {R C : Nat}
    (h : Shape.Concatenates [(⟨3, ![R, 1, C]⟩ : Shape), ⟨3, ![R, 3, C]⟩] ⟨3, ![R, 4, C]⟩ 1)
    (x₁ : (⟨3, ![R, 1, C]⟩ : Shape).Idx → α) (x₃ : (⟨3, ![R, 3, C]⟩ : Shape).Idx → α) (p : Fin R) (q : Fin C) :
    concatenate ⟨3, ![R, 4, C]⟩ 1 [⟨⟨3, ![R, 1, C]⟩, x₁⟩, ⟨⟨3, ![R, 3, C]⟩, x₃⟩] h (ix3 p (0 : Fin 4) q)
      = x₁ (ix3 p (0 : Fin 1) q) := by
  refine concatenate_pair_apply_left 1 x₁ x₃ h _ rfl (ix3 p (0 : Fin 1) q) (fun b => ?_)
  match b with
  | ⟨0, _⟩ => rfl
  | ⟨1, _⟩ => rfl
  | ⟨2, _⟩ => rfl

/-- … and row k + 1 is the second piece's row k. -/
theorem cat13_rest {α : Type} {R C : Nat}
    (h : Shape.Concatenates [(⟨3, ![R, 1, C]⟩ : Shape), ⟨3, ![R, 3, C]⟩] ⟨3, ![R, 4, C]⟩ 1)
    (x₁ : (⟨3, ![R, 1, C]⟩ : Shape).Idx → α) (x₃ : (⟨3, ![R, 3, C]⟩ : Shape).Idx → α) (p : Fin R) (q : Fin C)
    (k₄ : Fin 4) (k : Fin 3) (hk : k.val + 1 = k₄.val) :
    concatenate ⟨3, ![R, 4, C]⟩ 1 [⟨⟨3, ![R, 1, C]⟩, x₁⟩, ⟨⟨3, ![R, 3, C]⟩, x₃⟩] h (ix3 p k₄ q)
      = x₃ (ix3 p k q) := by
  refine concatenate_pair_apply_right 1 x₁ x₃ h _ rfl rfl (ix3 p k q) (fun b hb => ?_) hk
  match b with
  | ⟨0, _⟩ => rfl
  | ⟨1, _⟩ => exact absurd rfl hb
  | ⟨2, _⟩ => rfl

/-- A three-row piece followed by a one-row piece along axis 1: rows 0, 1, 2 are the first piece's. -/
theorem cat31_first {α : Type} {R C : Nat}
    (h : Shape.Concatenates [(⟨3, ![R, 3, C]⟩ : Shape), ⟨3, ![R, 1, C]⟩] ⟨3, ![R, 4, C]⟩ 1)
    (x₃ : (⟨3, ![R, 3, C]⟩ : Shape).Idx → α) (x₁ : (⟨3, ![R, 1, C]⟩ : Shape).Idx → α) (p : Fin R) (q : Fin C)
    (k₄ : Fin 4) (k : Fin 3) (hk : k.val = k₄.val) :
    concatenate ⟨3, ![R, 4, C]⟩ 1 [⟨⟨3, ![R, 3, C]⟩, x₃⟩, ⟨⟨3, ![R, 1, C]⟩, x₁⟩] h (ix3 p k₄ q)
      = x₃ (ix3 p k q) := by
  refine concatenate_pair_apply_left 1 x₃ x₁ h _ rfl (ix3 p k q) (fun b => ?_)
  match b with
  | ⟨0, _⟩ => rfl
  | ⟨1, _⟩ => exact hk
  | ⟨2, _⟩ => rfl

/-- … and row 3 is the second piece's. -/
theorem cat31_last {α : Type} {R C : Nat}
    (h : Shape.Concatenates [(⟨3, ![R, 3, C]⟩ : Shape), ⟨3, ![R, 1, C]⟩] ⟨3, ![R, 4, C]⟩ 1)
    (x₃ : (⟨3, ![R, 3, C]⟩ : Shape).Idx → α) (x₁ : (⟨3, ![R, 1, C]⟩ : Shape).Idx → α) (p : Fin R) (q : Fin C) :
    concatenate ⟨3, ![R, 4, C]⟩ 1 [⟨⟨3, ![R, 3, C]⟩, x₃⟩, ⟨⟨3, ![R, 1, C]⟩, x₁⟩] h (ix3 p (3 : Fin 4) q)
      = x₁ (ix3 p (0 : Fin 1) q) := by
  refine concatenate_pair_apply_right 1 x₃ x₁ h _ rfl rfl (ix3 p (0 : Fin 1) q) (fun b hb => ?_) rfl
  match b with
  | ⟨0, _⟩ => rfl
  | ⟨1, _⟩ => exact absurd rfl hb
  | ⟨2, _⟩ => rfl

/-- The host's sum over the middle axis of an [R, 4, C] array at (p, q): the initial value and the four rows. -/
theorem reduce_mid4_apply {R C : Nat} (h : (⟨3, ![R, 4, C]⟩ : Shape).ReducesTo [1] ⟨2, ![R, C]⟩)
    (hu : 0 < (⟨0, ![]⟩ : Shape).numel) (x : FVec Ideal ⟨3, ![R, 4, C]⟩ .f32) (init : FVec Ideal ⟨0, ![]⟩ .f32)
    (p : Fin R) (q : Fin C) :
    Host.reduceAdd (F := Ideal) x init h hu (ix2 p q)
      = init ix0 + (x (ix3 p (0 : Fin 4) q) + x (ix3 p (1 : Fin 4) q) + x (ix3 p (2 : Fin 4) q) + x (ix3 p (3 : Fin 4) q)) := by
  have hR : Shape.Reduces (⟨3, ![R, 4, C]⟩ : Shape) [1] ⟨2, ![R, C]⟩ :=
    ⟨rfl, Nat.succ_pos 1, fun b => by match b with | ⟨0, _⟩ => rfl | ⟨1, _⟩ => rfl⟩
  have hl : ∀ k : Fin 4, hR.lift (ix2 p q) k = ix3 p k q := fun k => by
    funext c; refine Fin.ext ?_
    match c with
    | ⟨0, _⟩ => rfl
    | ⟨1, _⟩ => rfl
    | ⟨2, _⟩ => rfl
  rw [hostReduceAdd_apply]
  refine (Ideal.hostReduceAdd_single h hR x _ (ix2 p q)).trans ?_
  show init _ + ∑ k : Fin 4, x (hR.lift (ix2 p q) k) = _
  rw [Fin.sum_univ_four, hl, hl, hl, hl]
  exact congrArg (fun i => init i + _) (funext fun a => a.elim0)

/-- The f32 pattern 0x40800000 is the real four. -/
theorem ofBits_four_f32 : Ideal.ofBits .f32 0x40800000#32 = ((4 : ℝ) : EReal) := by
  simp [Ideal.ofBits, Ideal.ieee, -EReal.coe_mul]; norm_num

/-- A row number in range, wrapped the NumPy way and then clamped by the gather, is itself. -/
theorem clamp_of_lt {N : Nat} (w : BitVec 32) (hN : N ≤ 2 ^ 31) (hw : w.toNat < N) :
    min w.toInt.toNat (N - 1) = w.toNat := by
  rw [StableHlo.Predicate.toInt_eq_toNat_of_lt (by omega)]
  simp only [Int.toNat_natCast]
  omega

/-- The three gathered rows of an encoding at (p, k, q), for a row number in range: the table's row of that number. -/
theorem gathered_apply {R N : Nat} (hN : 0 < N) (hN31 : N ≤ 2 ^ 31)
    (hb_s : (⟨0, ![]⟩ : Shape).BroadcastsInDim ⟨2, ![R, 3]⟩ ![])
    (hb_idx : (⟨2, ![R, 3]⟩ : Shape).BroadcastsInDim ⟨3, ![R, 3, 1]⟩ ![0, 1])
    (wf : GatherDims.WF ⟨2, ![N, 64]⟩ ⟨3, ![R, 3, 1]⟩ ⟨3, ![R, 3, 64]⟩ [2] [0] [] [0] [] 2 ![1, 64])
    (idx : IVec ⟨2, ![R, 3]⟩ 32) (tab : FVec Ideal ⟨2, ![N, 64]⟩ .f32) (nw : BitVec 32)
    (p : Fin R) (k : Fin 3) (q : Fin 64) (hk : (idx (ix2 p k)).toNat < N) :
    Host.gather (rowsDims N 64 R 3 wf) tab
        (broadcastInDim ⟨3, ![R, 3, 1]⟩ ![0, 1] hb_idx
          (select (cmpi .slt idx (broadcastInDim ⟨2, ![R, 3]⟩ ![] hb_s (constantI ⟨0, ![]⟩ 32 0#32)))
            (addi idx (broadcastInDim ⟨2, ![R, 3]⟩ ![] hb_s (constantI ⟨0, ![]⟩ 32 nw))) idx)) (ix3 p k q)
      = tab (ix2 ⟨(idx (ix2 p k)).toNat, hk⟩ q) := by
  rw [gather_rows_apply hN]
  refine congrArg tab (congrArg (fun r => ix2 r q) (Fin.ext ?_))
  show min (BitVec.toInt (broadcastInDim _ _ hb_idx _ (ix3 p k (0 : Fin 1)))).toNat (N - 1) = _
  rw [bcast_last_apply]
  show min (Scalar.select (IntOp.cmpi .slt (idx (ix2 p k)) 0#32) (IntOp.addi (idx (ix2 p k)) nw) (idx (ix2 p k))).toInt.toNat (N - 1) = _
  rw [wrap_of_lt _ _ (by omega), clamp_of_lt _ hN31 hk]

/-- The mean of an own row and three gathered rows as the host program spells it, the own row first, read at (p, q)
    for row numbers in range. -/
theorem mean_own_first_apply {R N : Nat} (hN : 0 < N) (hN31 : N ≤ 2 ^ 31)
    (hb_own : (⟨2, ![R, 64]⟩ : Shape).BroadcastsInDim ⟨3, ![R, 1, 64]⟩ ![0, 2])
    (hb_s : (⟨0, ![]⟩ : Shape).BroadcastsInDim ⟨2, ![R, 3]⟩ ![])
    (hb_idx : (⟨2, ![R, 3]⟩ : Shape).BroadcastsInDim ⟨3, ![R, 3, 1]⟩ ![0, 1])
    (wf : GatherDims.WF ⟨2, ![N, 64]⟩ ⟨3, ![R, 3, 1]⟩ ⟨3, ![R, 3, 64]⟩ [2] [0] [] [0] [] 2 ![1, 64])
    (hcat : Shape.Concatenates [(⟨3, ![R, 1, 64]⟩ : Shape), ⟨3, ![R, 3, 64]⟩] ⟨3, ![R, 4, 64]⟩ 1)
    (hred : (⟨3, ![R, 4, 64]⟩ : Shape).ReducesTo [1] ⟨2, ![R, 64]⟩) (hu : 0 < (⟨0, ![]⟩ : Shape).numel)
    (hb_four : (⟨0, ![]⟩ : Shape).BroadcastsInDim ⟨2, ![R, 64]⟩ ![])
    (own : FVec Ideal ⟨2, ![R, 64]⟩ .f32) (idx : IVec ⟨2, ![R, 3]⟩ 32) (tab : FVec Ideal ⟨2, ![N, 64]⟩ .f32) (nw : BitVec 32)
    (p : Fin R) (q : Fin 64)
    (h0 : (idx (ix2 p (0 : Fin 3))).toNat < N) (h1 : (idx (ix2 p (1 : Fin 3))).toNat < N)
    (h2 : (idx (ix2 p (2 : Fin 3))).toNat < N) :
    Host.divf (F := Ideal)
        (Host.reduceAdd (F := Ideal)
          (concatenate ⟨3, ![R, 4, 64]⟩ 1
            [⟨⟨3, ![R, 1, 64]⟩, broadcastInDim ⟨3, ![R, 1, 64]⟩ ![0, 2] hb_own own⟩,
             ⟨⟨3, ![R, 3, 64]⟩, Host.gather (rowsDims N 64 R 3 wf) tab
                (broadcastInDim ⟨3, ![R, 3, 1]⟩ ![0, 1] hb_idx
                  (select (cmpi .slt idx (broadcastInDim ⟨2, ![R, 3]⟩ ![] hb_s (constantI ⟨0, ![]⟩ 32 0#32)))
                    (addi idx (broadcastInDim ⟨2, ![R, 3]⟩ ![] hb_s (constantI ⟨0, ![]⟩ 32 nw))) idx))⟩] hcat)
          (constant (F := Ideal) ⟨0, ![]⟩ .f32 0x00000000#32) hred hu)
        (broadcastInDim ⟨2, ![R, 64]⟩ ![] hb_four (constant (F := Ideal) ⟨0, ![]⟩ .f32 0x40800000#32)) (ix2 p q)
      = Ideal.div (own (ix2 p q) + tab (ix2 ⟨(idx (ix2 p (0 : Fin 3))).toNat, h0⟩ q)
          + tab (ix2 ⟨(idx (ix2 p (1 : Fin 3))).toNat, h1⟩ q) + tab (ix2 ⟨(idx (ix2 p (2 : Fin 3))).toNat, h2⟩ q))
          ((4 : ℝ) : EReal) := by
  rw [hostDivf_apply, reduce_mid4_apply, broadcastInDim_scalar_apply, constant_apply, constant_apply,
    Ideal.ofBits_zero_f32, ofBits_four_f32, zero_add,
    cat13_first, cat13_rest hcat _ _ p q (1 : Fin 4) (0 : Fin 3) rfl, cat13_rest hcat _ _ p q (2 : Fin 4) (1 : Fin 3) rfl,
    cat13_rest hcat _ _ p q (3 : Fin 4) (2 : Fin 3) rfl, bcast_mid_apply,
    gathered_apply hN hN31 hb_s hb_idx wf idx tab nw p (0 : Fin 3) q h0,
    gathered_apply hN hN31 hb_s hb_idx wf idx tab nw p (1 : Fin 3) q h1,
    gathered_apply hN hN31 hb_s hb_idx wf idx tab nw p (2 : Fin 3) q h2]

/-- The same mean with the three gathered rows first and the own row last. -/
theorem mean_own_last_apply {R N : Nat} (hN : 0 < N) (hN31 : N ≤ 2 ^ 31)
    (hb_own : (⟨2, ![R, 64]⟩ : Shape).BroadcastsInDim ⟨3, ![R, 1, 64]⟩ ![0, 2])
    (hb_s : (⟨0, ![]⟩ : Shape).BroadcastsInDim ⟨2, ![R, 3]⟩ ![])
    (hb_idx : (⟨2, ![R, 3]⟩ : Shape).BroadcastsInDim ⟨3, ![R, 3, 1]⟩ ![0, 1])
    (wf : GatherDims.WF ⟨2, ![N, 64]⟩ ⟨3, ![R, 3, 1]⟩ ⟨3, ![R, 3, 64]⟩ [2] [0] [] [0] [] 2 ![1, 64])
    (hcat : Shape.Concatenates [(⟨3, ![R, 3, 64]⟩ : Shape), ⟨3, ![R, 1, 64]⟩] ⟨3, ![R, 4, 64]⟩ 1)
    (hred : (⟨3, ![R, 4, 64]⟩ : Shape).ReducesTo [1] ⟨2, ![R, 64]⟩) (hu : 0 < (⟨0, ![]⟩ : Shape).numel)
    (hb_four : (⟨0, ![]⟩ : Shape).BroadcastsInDim ⟨2, ![R, 64]⟩ ![])
    (own : FVec Ideal ⟨2, ![R, 64]⟩ .f32) (idx : IVec ⟨2, ![R, 3]⟩ 32) (tab : FVec Ideal ⟨2, ![N, 64]⟩ .f32) (nw : BitVec 32)
    (p : Fin R) (q : Fin 64)
    (h0 : (idx (ix2 p (0 : Fin 3))).toNat < N) (h1 : (idx (ix2 p (1 : Fin 3))).toNat < N)
    (h2 : (idx (ix2 p (2 : Fin 3))).toNat < N) :
    Host.divf (F := Ideal)
        (Host.reduceAdd (F := Ideal)
          (concatenate ⟨3, ![R, 4, 64]⟩ 1
            [⟨⟨3, ![R, 3, 64]⟩, Host.gather (rowsDims N 64 R 3 wf) tab
                (broadcastInDim ⟨3, ![R, 3, 1]⟩ ![0, 1] hb_idx
                  (select (cmpi .slt idx (broadcastInDim ⟨2, ![R, 3]⟩ ![] hb_s (constantI ⟨0, ![]⟩ 32 0#32)))
                    (addi idx (broadcastInDim ⟨2, ![R, 3]⟩ ![] hb_s (constantI ⟨0, ![]⟩ 32 nw))) idx))⟩,
             ⟨⟨3, ![R, 1, 64]⟩, broadcastInDim ⟨3, ![R, 1, 64]⟩ ![0, 2] hb_own own⟩] hcat)
          (constant (F := Ideal) ⟨0, ![]⟩ .f32 0x00000000#32) hred hu)
        (broadcastInDim ⟨2, ![R, 64]⟩ ![] hb_four (constant (F := Ideal) ⟨0, ![]⟩ .f32 0x40800000#32)) (ix2 p q)
      = Ideal.div (tab (ix2 ⟨(idx (ix2 p (0 : Fin 3))).toNat, h0⟩ q)
          + tab (ix2 ⟨(idx (ix2 p (1 : Fin 3))).toNat, h1⟩ q) + tab (ix2 ⟨(idx (ix2 p (2 : Fin 3))).toNat, h2⟩ q)
          + own (ix2 p q))
          ((4 : ℝ) : EReal) := by
  rw [hostDivf_apply, reduce_mid4_apply, broadcastInDim_scalar_apply, constant_apply, constant_apply,
    Ideal.ofBits_zero_f32, ofBits_four_f32, zero_add,
    cat31_first hcat _ _ p q (0 : Fin 4) (0 : Fin 3) rfl, cat31_first hcat _ _ p q (1 : Fin 4) (1 : Fin 3) rfl,
    cat31_first hcat _ _ p q (2 : Fin 4) (2 : Fin 3) rfl, cat31_last, bcast_mid_apply,
    gathered_apply hN hN31 hb_s hb_idx wf idx tab nw p (0 : Fin 3) q h0,
    gathered_apply hN hN31 hb_s hb_idx wf idx tab nw p (1 : Fin 3) q h1,
    gathered_apply hN hN31 hb_s hb_idx wf idx tab nw p (2 : Fin 3) q h2]

/-! ## The three encodings at an index, for row numbers in range -/

theorem encRef0_apply (own : FVec Ideal Cert.ReferenceIdeal.S50000x64 .f32) (idx : IVec Cert.ReferenceIdeal.S50000x3 32)
    (tab : FVec Ideal Cert.ReferenceIdeal.S4000x64 .f32) (p : Fin 50000) (q : Fin 64)
    (h0 : (idx (ix2 p (0 : Fin 3))).toNat < 4000) (h1 : (idx (ix2 p (1 : Fin 3))).toNat < 4000)
    (h2 : (idx (ix2 p (2 : Fin 3))).toNat < 4000) :
    encRef0 own idx tab (ix2 p q)
      = Ideal.div (own (ix2 p q) + tab (ix2 ⟨(idx (ix2 p (0 : Fin 3))).toNat, h0⟩ q)
          + tab (ix2 ⟨(idx (ix2 p (1 : Fin 3))).toNat, h1⟩ q) + tab (ix2 ⟨(idx (ix2 p (2 : Fin 3))).toNat, h2⟩ q))
          ((4 : ℝ) : EReal) := by
  unfold encRef0
  exact mean_own_first_apply (R := 50000) (N := 4000) (by decide) (by decide) _ _ _
    Cert.ReferenceIdeal.Facts₀.gather_S4000x64_S50000x3x1_S50000x3x64_2_0_n_n_0_2_164_wf _ _ _ _ own idx tab 4000#32 p q h0 h1 h2

theorem encRef1_apply (own : FVec Ideal Cert.ReferenceIdeal.S20000x64 .f32) (idx : IVec Cert.ReferenceIdeal.S20000x3 32)
    (tab : FVec Ideal Cert.ReferenceIdeal.S4000x64 .f32) (p : Fin 20000) (q : Fin 64)
    (h0 : (idx (ix2 p (0 : Fin 3))).toNat < 4000) (h1 : (idx (ix2 p (1 : Fin 3))).toNat < 4000)
    (h2 : (idx (ix2 p (2 : Fin 3))).toNat < 4000) :
    encRef1 own idx tab (ix2 p q)
      = Ideal.div (own (ix2 p q) + tab (ix2 ⟨(idx (ix2 p (0 : Fin 3))).toNat, h0⟩ q)
          + tab (ix2 ⟨(idx (ix2 p (1 : Fin 3))).toNat, h1⟩ q) + tab (ix2 ⟨(idx (ix2 p (2 : Fin 3))).toNat, h2⟩ q))
          ((4 : ℝ) : EReal) := by
  unfold encRef1
  exact mean_own_first_apply (R := 20000) (N := 4000) (by decide) (by decide) _ _ _
    Cert.ReferenceIdeal.Facts₀.gather_S4000x64_S20000x3x1_S20000x3x64_2_0_n_n_0_2_164_wf _ _ _ _ own idx tab 4000#32 p q h0 h1 h2

theorem encRef2_apply (own : FVec Ideal Cert.ReferenceIdeal.S100000x64 .f32) (idx : IVec Cert.ReferenceIdeal.S100000x3 32)
    (tab : FVec Ideal Cert.ReferenceIdeal.S1000x64 .f32) (p : Fin 100000) (q : Fin 64)
    (h0 : (idx (ix2 p (0 : Fin 3))).toNat < 1000) (h1 : (idx (ix2 p (1 : Fin 3))).toNat < 1000)
    (h2 : (idx (ix2 p (2 : Fin 3))).toNat < 1000) :
    encRef2 own idx tab (ix2 p q)
      = Ideal.div (tab (ix2 ⟨(idx (ix2 p (0 : Fin 3))).toNat, h0⟩ q)
          + tab (ix2 ⟨(idx (ix2 p (1 : Fin 3))).toNat, h1⟩ q) + tab (ix2 ⟨(idx (ix2 p (2 : Fin 3))).toNat, h2⟩ q)
          + own (ix2 p q))
          ((4 : ℝ) : EReal) := by
  unfold encRef2
  exact mean_own_last_apply (R := 100000) (N := 1000) (by decide) (by decide) _ _ _
    Cert.ReferenceIdeal.Facts₀.gather_S1000x64_S100000x3x1_S100000x3x64_2_0_n_n_0_2_164_wf _ _ _ _ own idx tab 1000#32 p q h0 h1 h2

end Cert.Bridge

end
-- ==== Proof.Br.EncLaw.lean ====
/-
  The algebraic law that joins the two encodings of the gather-mean. The kernel adds to a point's own feature the
  product of a counting weight with the table (for each row, how many of the point's three index words name it,
  times the row) and scales by a quarter; the reference adds the three named rows to the own feature and divides
  by four. Over a table of real entries the weighted sum collapses to the three named rows, so the two agree, whatever
  the own feature is.
-/
import proofs.«423063_j64879775973997_3_alg».proof.Proof.Br.Spec
import Idealize.ShloMosaic.PureOps.Ideal

noncomputable section

open scoped BigOperators

namespace Cert.Bridge

open Idealize.ShloMosaic Cert.Spec

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A word below the table's height is the 32-bit word of a row number exactly when that row is the one it names. -/
theorem word_eq_iff {T : ℕ} (hT : T ≤ 2 ^ 32) (a : BitVec 32) (ha : a.toNat < T) (r : Fin T) :
    a = BitVec.ofNat 32 r.val ↔ r = ⟨a.toNat, ha⟩ := by
  have hr := r.isLt
  constructor
  · intro h
    apply Fin.ext
    show r.val = a.toNat
    rw [h, BitVec.toNat_ofNat]
    exact (Nat.mod_eq_of_lt (by omega)).symm
  · intro h
    subst h
    apply BitVec.eq_of_toNat_eq
    rw [BitVec.toNat_ofNat]
    exact (Nat.mod_eq_of_lt a.isLt).symm

/-- Over the reals: the table weighted by the three indicators sums to the three named rows. -/
theorem sum_hits {T : ℕ} (hT : T ≤ 2 ^ 32) (x : Fin T → ℝ) (a b c : BitVec 32)
    (ha : a.toNat < T) (hb : b.toNat < T) (hc : c.toNat < T) :
    ∑ r : Fin T, ((if a = BitVec.ofNat 32 r.val then (1 : ℝ) else 0) + (if b = BitVec.ofNat 32 r.val then (1 : ℝ) else 0)
        + (if c = BitVec.ofNat 32 r.val then (1 : ℝ) else 0)) * x r
      = x ⟨a.toNat, ha⟩ + x ⟨b.toNat, hb⟩ + x ⟨c.toNat, hc⟩ := by
  simp only [word_eq_iff hT a ha, word_eq_iff hT b hb, word_eq_iff hT c hc, add_mul, ite_mul, one_mul, zero_mul,
    Finset.sum_add_distrib, Finset.sum_ite_eq', Finset.mem_univ, if_true]

/-- The counting-weight product against a table of reals is the sum of the three named rows. -/
theorem sum_cnt_mul {T : ℕ} (hT : T ≤ 2 ^ 32) (tab : Fin T → EReal) (htab : ∀ r, ∃ x : ℝ, tab r = (x : EReal))
    (a b c : BitVec 32) (ha : a.toNat < T) (hb : b.toNat < T) (hc : c.toNat < T) :
    ∑ r : Fin T, cnt a b c r.val * tab r = tab ⟨a.toNat, ha⟩ + tab ⟨b.toNat, hb⟩ + tab ⟨c.toNat, hc⟩ := by
  choose x hx using htab
  simp only [cnt_eq, hx, ← EReal.coe_mul]
  rw [← coe_finset_sum, sum_hits hT x a b c ha hb hc, EReal.coe_add, EReal.coe_add]

/-- The f32 words of the kernel's and the reference's constants. -/
theorem quarter_word : Ideal.ofBits .f32 0x3E800000#32 = ((1 / 4 : ℝ) : EReal) := by
  simp [Ideal.ofBits, Ideal.ieee, -EReal.coe_mul]; norm_num
theorem four_word : Ideal.ofBits .f32 0x40800000#32 = ((4 : ℝ) : EReal) := by
  simp [Ideal.ofBits, Ideal.ieee, -EReal.coe_mul]; norm_num
theorem zero_word : Ideal.ofBits .f32 0x00000000#32 = (0 : EReal) := by simp [Ideal.ofBits, Ideal.ieee]

/-- THE LAW, own feature first: (own + count · table) · ¼ = (0 + (own + row a + row b + row c)) / 4. -/
theorem gather_mean_law {T : ℕ} (hT : T ≤ 2 ^ 32) (tab : Fin T → EReal) (htab : ∀ r, ∃ x : ℝ, tab r = (x : EReal))
    (own : EReal) (a b c : BitVec 32) (ha : a.toNat < T) (hb : b.toNat < T) (hc : c.toNat < T) :
    (own + ∑ r : Fin T, cnt a b c r.val * tab r) * ((1 / 4 : ℝ) : EReal)
      = Ideal.div (0 + (own + tab ⟨a.toNat, ha⟩ + tab ⟨b.toNat, hb⟩ + tab ⟨c.toNat, hc⟩)) ((4 : ℝ) : EReal) := by
  rw [sum_cnt_mul hT tab htab a b c ha hb hc, Ideal.div_coe (by norm_num), zero_add, add_assoc, add_assoc, add_assoc]

/-- THE LAW, own feature last: (own + count · table) · ¼ = (0 + (row a + row b + row c + own)) / 4. -/
theorem gather_mean_law' {T : ℕ} (hT : T ≤ 2 ^ 32) (tab : Fin T → EReal) (htab : ∀ r, ∃ x : ℝ, tab r = (x : EReal))
    (own : EReal) (a b c : BitVec 32) (ha : a.toNat < T) (hb : b.toNat < T) (hc : c.toNat < T) :
    (own + ∑ r : Fin T, cnt a b c r.val * tab r) * ((1 / 4 : ℝ) : EReal)
      = Ideal.div (0 + (tab ⟨a.toNat, ha⟩ + tab ⟨b.toNat, hb⟩ + tab ⟨c.toNat, hc⟩ + own)) ((4 : ℝ) : EReal) := by
  rw [sum_cnt_mul hT tab htab a b c ha hb hc, Ideal.div_coe (by norm_num), zero_add, add_comm own]

/-- The law over the programs' f32 words, own feature first:
    (own + count · table) · 0x3E800000 = (0x00000000 + (own + row a + row b + row c)) / 0x40800000. -/
theorem gather_mean_law_w {T : ℕ} (hT : T ≤ 2 ^ 32) (tab : Fin T → EReal) (htab : ∀ r, ∃ x : ℝ, tab r = (x : EReal))
    (own : EReal) (a b c : BitVec 32) (ha : a.toNat < T) (hb : b.toNat < T) (hc : c.toNat < T) :
    (own + ∑ r : Fin T, cnt a b c r.val * tab r) * Ideal.ofBits .f32 0x3E800000#32
      = Ideal.div (Ideal.ofBits .f32 0x00000000#32 + (own + tab ⟨a.toNat, ha⟩ + tab ⟨b.toNat, hb⟩ + tab ⟨c.toNat, hc⟩))
          (Ideal.ofBits .f32 0x40800000#32) := by
  rw [quarter_word, zero_word, four_word]
  exact gather_mean_law hT tab htab own a b c ha hb hc

/-- The law over the programs' f32 words, own feature last. -/
theorem gather_mean_law_w' {T : ℕ} (hT : T ≤ 2 ^ 32) (tab : Fin T → EReal) (htab : ∀ r, ∃ x : ℝ, tab r = (x : EReal))
    (own : EReal) (a b c : BitVec 32) (ha : a.toNat < T) (hb : b.toNat < T) (hc : c.toNat < T) :
    (own + ∑ r : Fin T, cnt a b c r.val * tab r) * Ideal.ofBits .f32 0x3E800000#32
      = Ideal.div (Ideal.ofBits .f32 0x00000000#32 + (tab ⟨a.toNat, ha⟩ + tab ⟨b.toNat, hb⟩ + tab ⟨c.toNat, hc⟩ + own))
          (Ideal.ofBits .f32 0x40800000#32) := by
  rw [quarter_word, zero_word, four_word]
  exact gather_mean_law' hT tab htab own a b c ha hb hc

end Cert.Bridge

end
-- ==== Proof.Br.EncEntry.lean ====
/-
  One entry of a gather-mean region, whatever the region's sizes: the kernel's entry — the own feature plus the
  counting weight of the row's three CLIPPED index words against the table ROUNDED to bf16, times a quarter — is the
  reference's entry — the own feature and the three named rows of the table added, over four — when the table's
  entries are real and the words already lie in the table's range. Two small facts carry the difference of the
  operands: clipping a word that is in range leaves it, and at the ideal values the rounding is the identity.
-/
import proofs.«423063_j64879775973997_3_alg».proof.Proof.Br.Spec
import proofs.«423063_j64879775973997_3_alg».proof.Proof.Br.EncLaw
import Idealize.ShloMosaic.Lib.ValueIdx
import Idealize.ShloMosaic.Lib.StableHlo.Predicate

noncomputable section

open scoped BigOperators

namespace Cert.Bridge

open Idealize.ShloMosaic Idealize.ShloMosaic.ValueIdx Cert.Spec

/-- jnp's clip as the kernel's host prints it, `minimum(hi, maximum(0, w))`: a word already in [0, hi] is unchanged. -/
theorem clip_word (w : BitVec 32) (hi : ℕ) (hhi : hi < 2 ^ 31) (hw : w.toNat ≤ hi) :
    IntOp.minsi (BitVec.ofNat 32 hi) (IntOp.maxsi 0#32 w) = w := by
  have hti : w.toInt = w.toNat := StableHlo.Predicate.toInt_eq_toNat_of_lt (by omega)
  have hth : (BitVec.ofNat 32 hi).toInt = hi := StableHlo.Predicate.toInt_ofNat_small hi hhi
  have h0 : (0#32 : BitVec 32).toInt = 0 := by decide
  have hmax : IntOp.maxsi 0#32 w = w := by
    unfold IntOp.maxsi
    split <;> rename_i hc
    · rw [BitVec.slt_iff_toInt_lt, hti, h0] at hc; omega
    · rfl
  rw [hmax]
  unfold IntOp.minsi
  split <;> rename_i hc
  · rw [BitVec.slt_iff_toInt_lt, hti, hth] at hc; omega
  · rfl

/-- A clipped word that was in range is the word. -/
theorem idxc_eq {N T : ℕ} (hi : ℕ) (hhi : hi + 1 = T) (hT : T < 2 ^ 31)
    (idx idxc : (⟨2, ![N, 3]⟩ : Shape).Idx → BitVec 32)
    (hidx : ∀ i, idxc i = IntOp.minsi (BitVec.ofNat 32 hi) (IntOp.maxsi 0#32 (idx i)))
    (hrng : ∀ i, (idx i).toNat < T) (i : (⟨2, ![N, 3]⟩ : Shape).Idx) : idxc i = idx i := by
  rw [hidx i]
  exact clip_word _ hi (by omega) (by have := hrng i; omega)

/-- One entry, the own feature FIRST in the reference's sum. -/
theorem enc_entry {N T D : ℕ} (hi : ℕ) (hhi : hi + 1 = T) (hT : T < 2 ^ 31)
    (own : (⟨2, ![N, D]⟩ : Shape).Idx → EReal) (idx idxc : (⟨2, ![N, 3]⟩ : Shape).Idx → BitVec 32)
    (tab tabc : (⟨2, ![T, D]⟩ : Shape).Idx → EReal)
    (hidx : ∀ i, idxc i = IntOp.minsi (BitVec.ofNat 32 hi) (IntOp.maxsi 0#32 (idx i)))
    (htab : ∀ i, tabc i = tab i)
    (hfin : ∀ i, ∃ x : ℝ, tab i = (x : EReal)) (hrng : ∀ i, (idx i).toNat < T) (p : Fin N) (q : Fin D) :
    (own (ix2 p q) + ∑ r : Fin T, cnt (idxc (ix2 p 0)) (idxc (ix2 p 1)) (idxc (ix2 p 2)) r.val * tabc (ix2 r q))
        * Ideal.ofBits .f32 0x3E800000#32
      = Ideal.div (own (ix2 p q) + tab (ix2 ⟨(idx (ix2 p 0)).toNat, hrng _⟩ q)
          + tab (ix2 ⟨(idx (ix2 p 1)).toNat, hrng _⟩ q) + tab (ix2 ⟨(idx (ix2 p 2)).toNat, hrng _⟩ q))
          ((4 : ℝ) : EReal) := by
  rw [idxc_eq hi hhi hT idx idxc hidx hrng, idxc_eq hi hhi hT idx idxc hidx hrng, idxc_eq hi hhi hT idx idxc hidx hrng]
  simp only [htab]
  have h := gather_mean_law (by omega) (fun r => tab (ix2 r q)) (fun r => hfin _) (own (ix2 p q)) _ _ _
    (hrng (ix2 p 0)) (hrng (ix2 p 1)) (hrng (ix2 p 2))
  rw [zero_add] at h
  rw [quarter_word]
  exact h

/-- One entry, the own feature LAST in the reference's sum. -/
theorem enc_entry' {N T D : ℕ} (hi : ℕ) (hhi : hi + 1 = T) (hT : T < 2 ^ 31)
    (own : (⟨2, ![N, D]⟩ : Shape).Idx → EReal) (idx idxc : (⟨2, ![N, 3]⟩ : Shape).Idx → BitVec 32)
    (tab tabc : (⟨2, ![T, D]⟩ : Shape).Idx → EReal)
    (hidx : ∀ i, idxc i = IntOp.minsi (BitVec.ofNat 32 hi) (IntOp.maxsi 0#32 (idx i)))
    (htab : ∀ i, tabc i = tab i)
    (hfin : ∀ i, ∃ x : ℝ, tab i = (x : EReal)) (hrng : ∀ i, (idx i).toNat < T) (p : Fin N) (q : Fin D) :
    (own (ix2 p q) + ∑ r : Fin T, cnt (idxc (ix2 p 0)) (idxc (ix2 p 1)) (idxc (ix2 p 2)) r.val * tabc (ix2 r q))
        * Ideal.ofBits .f32 0x3E800000#32
      = Ideal.div (tab (ix2 ⟨(idx (ix2 p 0)).toNat, hrng _⟩ q)
          + tab (ix2 ⟨(idx (ix2 p 1)).toNat, hrng _⟩ q) + tab (ix2 ⟨(idx (ix2 p 2)).toNat, hrng _⟩ q) + own (ix2 p q))
          ((4 : ℝ) : EReal) := by
  rw [idxc_eq hi hhi hT idx idxc hidx hrng, idxc_eq hi hhi hT idx idxc hidx hrng, idxc_eq hi hhi hT idx idxc hidx hrng]
  simp only [htab]
  have h := gather_mean_law' (by omega) (fun r => tab (ix2 r q)) (fun r => hfin _) (own (ix2 p q)) _ _ _
    (hrng (ix2 p 0)) (hrng (ix2 p 1)) (hrng (ix2 p 2))
  rw [zero_add] at h
  rw [quarter_word]
  exact h

/-- One entry, own feature first, the kernel's own array given separately. -/
theorem enc_entry_own {N T D : ℕ} (hi : ℕ) (hhi : hi + 1 = T) (hT : T < 2 ^ 31)
    (own ownc : (⟨2, ![N, D]⟩ : Shape).Idx → EReal) (idx idxc : (⟨2, ![N, 3]⟩ : Shape).Idx → BitVec 32)
    (tab tabc : (⟨2, ![T, D]⟩ : Shape).Idx → EReal)
    (hidx : ∀ i, idxc i = IntOp.minsi (BitVec.ofNat 32 hi) (IntOp.maxsi 0#32 (idx i)))
    (hown : ∀ i, ownc i = own i) (htab : ∀ i, tabc i = tab i)
    (hfin : ∀ i, ∃ x : ℝ, tab i = (x : EReal)) (hrng : ∀ i, (idx i).toNat < T) (p : Fin N) (q : Fin D) :
    (ownc (ix2 p q) + ∑ r : Fin T, cnt (idxc (ix2 p 0)) (idxc (ix2 p 1)) (idxc (ix2 p 2)) r.val * tabc (ix2 r q))
        * Ideal.ofBits .f32 0x3E800000#32
      = Ideal.div (own (ix2 p q) + tab (ix2 ⟨(idx (ix2 p 0)).toNat, hrng _⟩ q)
          + tab (ix2 ⟨(idx (ix2 p 1)).toNat, hrng _⟩ q) + tab (ix2 ⟨(idx (ix2 p 2)).toNat, hrng _⟩ q))
          ((4 : ℝ) : EReal) := by
  rw [hown]
  exact enc_entry hi hhi hT own idx idxc tab tabc hidx htab hfin hrng p q

/-- One entry, own feature last, the kernel's own array given separately. -/
theorem enc_entry_own' {N T D : ℕ} (hi : ℕ) (hhi : hi + 1 = T) (hT : T < 2 ^ 31)
    (own ownc : (⟨2, ![N, D]⟩ : Shape).Idx → EReal) (idx idxc : (⟨2, ![N, 3]⟩ : Shape).Idx → BitVec 32)
    (tab tabc : (⟨2, ![T, D]⟩ : Shape).Idx → EReal)
    (hidx : ∀ i, idxc i = IntOp.minsi (BitVec.ofNat 32 hi) (IntOp.maxsi 0#32 (idx i)))
    (hown : ∀ i, ownc i = own i) (htab : ∀ i, tabc i = tab i)
    (hfin : ∀ i, ∃ x : ℝ, tab i = (x : EReal)) (hrng : ∀ i, (idx i).toNat < T) (p : Fin N) (q : Fin D) :
    (ownc (ix2 p q) + ∑ r : Fin T, cnt (idxc (ix2 p 0)) (idxc (ix2 p 1)) (idxc (ix2 p 2)) r.val * tabc (ix2 r q))
        * Ideal.ofBits .f32 0x3E800000#32
      = Ideal.div (tab (ix2 ⟨(idx (ix2 p 0)).toNat, hrng _⟩ q)
          + tab (ix2 ⟨(idx (ix2 p 1)).toNat, hrng _⟩ q) + tab (ix2 ⟨(idx (ix2 p 2)).toNat, hrng _⟩ q) + own (ix2 p q))
          ((4 : ℝ) : EReal) := by
  rw [hown]
  exact enc_entry' hi hhi hT own idx idxc tab tabc hidx htab hfin hrng p q

end Cert.Bridge

end
-- ==== Proof.Br.Enc0.lean ====
/-
  The first gather-mean region's output array is the reference's user encoding of the launch contents: entry by
  entry, the kernel's value (own feature plus the counting weight of the clipped index words against the rounded
  table, times a quarter) is the reference's (own feature plus the three named rows, over four), because the launch's
  table entries are real and its index words are in range. The arrays the region is entered with are the launch's own
  features untouched, its index words clipped to the table's range, and its table rounded to bf16.
-/
import proofs.«423063_j64879775973997_3_alg».proof.Proof.KI.ValEnc0
import proofs.«423063_j64879775973997_3_alg».proof.Proof.Br.HostK
import proofs.«423063_j64879775973997_3_alg».proof.Proof.Br.EncRef
import proofs.«423063_j64879775973997_3_alg».proof.Proof.Br.EncEntry

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open scoped BigOperators

/-- An array that holds, entry by entry, the kernel's closed form over the entered own rows, the clipped row numbers
    and the rounded table, is the reference's user encoding of the own rows, the row numbers and the table. -/
theorem enc0_of_closed_form (out own ownc : (⟨2, ![50000, 64]⟩ : Shape).Idx → EReal)
    (idx idxc : (⟨2, ![50000, 3]⟩ : Shape).Idx → BitVec 32) (tab tabc : (⟨2, ![4000, 64]⟩ : Shape).Idx → EReal)
    (hout : ∀ (p : Fin 50000) (q : Fin 64), out (ix2 p q)
      = (ownc (ix2 p q) + ∑ r : Fin 4000, Spec.cnt (idxc (ix2 p 0)) (idxc (ix2 p 1)) (idxc (ix2 p 2)) r.val * tabc (ix2 r q))
        * Ideal.ofBits .f32 0x3E800000#32)
    (hidx : ∀ i, idxc i = IntOp.minsi (BitVec.ofNat 32 3999) (IntOp.maxsi 0#32 (idx i)))
    (hown : ∀ i, ownc i = own i) (htab : ∀ i, tabc i = tab i)
    (hfin : ∀ i, ∃ x : ℝ, tab i = (x : EReal)) (hrng : ∀ i, (idx i).toNat < 4000) :
    out = encRef0 own idx tab := by
  funext i
  obtain ⟨p, q, rfl⟩ : ∃ (p : Fin 50000) (q : Fin 64), i = ix2 p q := ⟨i 0, i 1, eq_ix2 i⟩
  rw [hout p q, encRef0_apply own idx tab p q (hrng _) (hrng _) (hrng _)]
  exact enc_entry_own (N := 50000) (T := 4000) (D := 64) 3999 rfl (by decide) own ownc idx idxc tab tabc hidx hown htab
    hfin hrng p q

section Region

variable (m : (ℓ : Loc nD τ sig) → Buf (Elt Ideal) ℓ) (ρ : Dev nD → PrngReg) (c : Dev nD)

/-- The launch contents the region's value is a function of, at their literal types: the users' own features,
    their index triples, and the table. -/
abbrev own0 : FVec Ideal S50000x64 .f32 := W0 m ρ c (Proc.devRef .tc main_arg3)
abbrev idx0 : IVec S50000x3 32 := W0 m ρ c (Proc.devRef .tc main_arg11)
abbrev tab0 : FVec Ideal S4000x64 .f32 := W0 m ρ c (Proc.devRef .tc main_arg5)

/-- Region 0's output array is the reference's user encoding of the launch contents. -/
theorem enc0_eq (hfin : ∀ i, ∃ x : ℝ, tab0 m ρ c i = (x : EReal)) (hrng : ∀ i, (idx0 m ρ c i).toNat < 4000) :
    ((dat0 (F := Ideal) (V3 m ρ) c).arrAt 3 cfg0.N : FVec Ideal S50000x64 .f32)
      = encRef0 (own0 m ρ c) (idx0 m ρ c) (tab0 m ρ c) :=
  enc0_of_closed_form (Val.enc0_out (V3 m ρ) c) (own0 m ρ c) (Val.enc0_own (V3 m ρ) c) (idx0 m ρ c)
    (Val.enc0_idx (V3 m ρ) c) (tab0 m ρ c) (Val.enc0_tab (V3 m ρ) c) (Val.enc0_apply (V3 m ρ) c)
    (fun i => congrFun (hk0_idx m ρ c) i) (fun i => congrFun (hk0_own m ρ c) i)
    (fun i => congrFun (hk0_tab m ρ c) i) hfin hrng

end Region

end Cert.Bridge

end
-- ==== Proof.KI.ValPay1.lean ====
/-
  The gather-mean block payload read at an index, at the ideal values: for a block of rows with their own
  entries, their index triples and the whole table, the stored entry at row `p`, column `q` is

      (own p q + ∑ r, cnt (idx p 0) (idx p 1) (idx p 2) r * table r q) * ¼

  where `cnt` counts how many of the three index words name table row `r` (the one-hot rows summed, then
  multiplied against the table by the matrix unit into a zero accumulator).
-/
import proofs.«423063_j64879775973997_3_alg».proof.Proof.Gen.KernelIdeal.Skeleton
import proofs.«423063_j64879775973997_3_alg».proof.Proof.Br.Spec
import Idealize.ShloMosaic.Lib.ValueIdx
import Idealize.ShloMosaic.Lib.Pipeline.Value
import Idealize.ShloMosaic.Lib.IdealHost
import Idealize.ShloMosaic.PureOps.Ideal.Laws

noncomputable section
namespace Cert.KernelIdeal.Val

open Idealize.ShloMosaic Idealize.SL.Sem Idealize.ShloMosaic.ValueIdx
open scoped BigOperators

/-- One indicator column of the count matrix: at row `p` and lane `r` it is one exactly when the word in
    column `c` of the row's index triple is `r`. -/
theorem onehot1_apply (x1 : Vec Ideal S400x3 .i32) (c : Fin 3) (off : Fin 2 → ℕ) (h0 : off 0 = 0) (h1 : off 1 = c.val)
    (hs : S400x3.Slices off S400x1) (p : Fin 400) (r : Fin 4000) :
    (truncf .bf16 (sitofp .f32 (extui 32 (cmpi .eq
        (broadcastTo S400x4000 (extractStridedSlice S400x1 off x1 hs)
          Gen.broadcasts_S400x1_S400x4000)
        (iota .tc S400x4000 32 [1] Gen.iota_S400x4000_d1_w32)) Gen.natLt_1_32) : FVec Ideal S400x4000 .f32)
      Gen.bitsLt_bf16_f32 : FVec Ideal S400x4000 .bf16) (ix2 p r) = Spec.hit (x1 (ix2 p c)) r.val := by
  have e1 : broadcastTo S400x4000 (extractStridedSlice S400x1 off x1 hs)
          Gen.broadcasts_S400x1_S400x4000 (ix2 p r) = x1 (ix2 p c) := by
    refine (broadcastTo_apply _ _ (ix2 p r) (ix2 p (0 : Fin 1)) fun ax => ?_).trans ?_
    · match ax with
      | ⟨0, _⟩ => rfl
      | ⟨1, _⟩ => rfl
    refine (extractStridedSlice_apply off _ hs (ix2 p (0 : Fin 1)) (ix2 p c) fun ax => ?_).trans ?_
    · match ax with
      | ⟨0, _⟩ => show p.val = off 0 + p.val; omega
      | ⟨1, _⟩ => show c.val = off 1 + 0; omega
    rfl
  have e2 : iota .tc S400x4000 32 [1] Gen.iota_S400x4000_d1_w32 (ix2 p r) = BitVec.ofNat 32 r.val :=
    iota_single_apply .tc S400x4000 32 1 _ (ix2 p r)
  show (((BitVec.setWidth 32 (IntOp.cmpi .eq
        (broadcastTo S400x4000 (extractStridedSlice S400x1 off x1 hs)
          Gen.broadcasts_S400x1_S400x4000 (ix2 p r))
        (iota .tc S400x4000 32 [1] Gen.iota_S400x4000_d1_w32 (ix2 p r)))).toInt : ℝ) : EReal) = _
  rw [e1, e2]
  unfold Spec.hit IntOp.cmpi
  by_cases h : x1 (ix2 p c) = BitVec.ofNat 32 r.val
  · simp [h]
  · have hb : (x1 (ix2 p c) == BitVec.ofNat 32 r.val) = false := by simpa using h
    simp [h, hb]

/-! ### The product's index maps, coordinate by coordinate -/

theorem dot1_lhs_0 (j : S400x64.Idx) (k : dot_S400x4000_S4000x64_S400x64_1_0_0_1_n_n.contr.Idx) :
    (dot_S400x4000_S4000x64_S400x64_1_0_0_1_n_n.lhsIdx j k 0 : ℕ) = j 0 := by
  simp [DotDims.lhsIdx, dot_S400x4000_S4000x64_S400x64_1_0_0_1_n_n]; rfl
theorem dot1_lhs_1 (j : S400x64.Idx) (k : dot_S400x4000_S4000x64_S400x64_1_0_0_1_n_n.contr.Idx) :
    (dot_S400x4000_S4000x64_S400x64_1_0_0_1_n_n.lhsIdx j k 1 : ℕ) = k ⟨0, by decide⟩ :=
  dot_S400x4000_S4000x64_S400x64_1_0_0_1_n_n.lhsIdx_val_of_single (cl := 1) rfl j k
theorem dot1_rhs_0 (j : S400x64.Idx) (k : dot_S400x4000_S4000x64_S400x64_1_0_0_1_n_n.contr.Idx) :
    (dot_S400x4000_S4000x64_S400x64_1_0_0_1_n_n.rhsIdx j k 0 : ℕ) = k ⟨0, by decide⟩ :=
  dot_S400x4000_S4000x64_S400x64_1_0_0_1_n_n.rhsIdx_val_of_single (cr := 0) rfl j k
theorem dot1_rhs_1 (j : S400x64.Idx) (k : dot_S400x4000_S4000x64_S400x64_1_0_0_1_n_n.contr.Idx) :
    (dot_S400x4000_S4000x64_S400x64_1_0_0_1_n_n.rhsIdx j k 1 : ℕ) = j 1 := by
  simp [DotDims.rhsIdx, dot_S400x4000_S4000x64_S400x64_1_0_0_1_n_n]; rfl

/-- The block product into a zero accumulator, at row `p` and column `q`: the sum over the table's rows. -/
theorem matmul1_apply (A : FVec Ideal S400x4000 .bf16) (B : FVec Ideal S4000x64 .bf16) (p : Fin 400) (q : Fin 64) :
    matmul dot_S400x4000_S4000x64_S400x64_1_0_0_1_n_n none A B (constant S400x64 .f32 0x00000000#32) (ix2 p q)
      = ∑ r : Fin 4000, A (ix2 p r) * B (ix2 r q) := by
  refine (Ideal.matmul_constant_zero_apply dot_S400x4000_S4000x64_S400x64_1_0_0_1_n_n none A B (ix2 p q)).trans ?_
  rw [← Equiv.sum_comp (contrEquiv1 dot_S400x4000_S4000x64_S400x64_1_0_0_1_n_n 4000 rfl rfl).symm]
  refine Finset.sum_congr rfl fun r _ => ?_
  have hl : dot_S400x4000_S4000x64_S400x64_1_0_0_1_n_n.lhsIdx (ix2 p q)
      ((contrEquiv1 dot_S400x4000_S4000x64_S400x64_1_0_0_1_n_n 4000 rfl rfl).symm r) = ix2 p r :=
    Shape.idx_ext₂ (dot1_lhs_0 _ _)
      ((dot1_lhs_1 _ _).trans (contrEquiv1_symm_val dot_S400x4000_S4000x64_S400x64_1_0_0_1_n_n 4000 rfl rfl r))
  have hr : dot_S400x4000_S4000x64_S400x64_1_0_0_1_n_n.rhsIdx (ix2 p q)
      ((contrEquiv1 dot_S400x4000_S4000x64_S400x64_1_0_0_1_n_n 4000 rfl rfl).symm r) = ix2 r q :=
    Shape.idx_ext₂
      ((dot1_rhs_0 _ _).trans (contrEquiv1_symm_val dot_S400x4000_S4000x64_S400x64_1_0_0_1_n_n 4000 rfl rfl r))
      (dot1_rhs_1 _ _)
  rw [hl, hr]

/-- The gather-mean block payload at row `p`, column `q`: the row's own entry plus the count-weighted sum of
    the table's rows, times the quarter. -/
theorem pay1_apply (x0 : Vec Ideal S400x64 .f32) (x1 : Vec Ideal S400x3 .i32) (x2 : Vec Ideal S4000x64 .bf16)
    (p : Fin 400) (q : Fin 64) :
    Gen.k1_pay1 (F := Ideal) x0 x1 x2 (ix2 p q)
      = (x0 (ix2 p q) + ∑ r : Fin 4000, Spec.cnt (x1 (ix2 p 0)) (x1 (ix2 p 1)) (x1 (ix2 p 2)) r.val * x2 (ix2 r q))
          * Ideal.ofBits .f32 0x3E800000#32 := by
  unfold Gen.k1_pay1
  simp only [mulf_apply, addf_apply, broadcast_apply, shapeCast_self]
  refine congrArg (· * Ideal.ofBits .f32 0x3E800000#32) (congrArg (x0 (ix2 p q) + ·) ?_)
  refine (matmul1_apply _ _ p q).trans (Finset.sum_congr rfl fun r _ => ?_)
  refine congrArg (· * x2 (ix2 r q)) ?_
  simp only [addf_apply, broadcast_apply]
  rw [onehot1_apply x1 0 ![0, 0] rfl rfl, onehot1_apply x1 1 ![0, 1] rfl rfl, onehot1_apply x1 2 ![0, 2] rfl rfl]
  show ((Ideal.ofBits .bf16 0x0000#16 + _) + _) + _ = _
  rw [Ideal.ofBits_zero_bf16]
  rfl

end Cert.KernelIdeal.Val
-- ==== Proof.KI.ValEnc1.lean ====
/-
  What the gather-mean region 1 leaves in its output array, index by index, at the ideal values: row `p`,
  column `q` of the output is

      (own p q + ∑ r, cnt (idx p 0) (idx p 1) (idx p 2) r * table r q) * ¼

  over the WHOLE arrays the region finds (the rows' own entries, their index triples, the table). Each grid
  point writes back the payload of its blocks; a block's element sits in its array at the block index times
  the block's extent plus its own coordinate; the row blocks tile the output, so every row is some point's.
-/
import proofs.«423063_j64879775973997_3_alg».proof.Proof.KI.Reg1
import proofs.«423063_j64879775973997_3_alg».proof.Proof.KI.ValPay1
import Idealize.ShloMosaic.Lib.Pipeline.Value

noncomputable section
namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

-- the TensorCore's buffer contents when the region is entered
variable (V : (c : Dev nD) → (b : Ref sig .tc) → Buf (Elt Ideal) ((c : Thread nD τ).loc b))

theorem enc1_hz : (![0, 0] : Fin 2 → Nat) = fun _ => 0 := funext fun a => by fin_cases a <;> rfl

/-- The printed index maps, decided once over the grid: the row windows' block row is the point's number, the
    table's block is block zero, and no window moves along the columns. -/
theorem enc1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' own block at point `t` is rows `400 t …` of the array. -/
theorem enc1_blk0_apply (c : Dev nD) (t : Fin cfg1.N) (a : Fin 400) (b : Fin 64) (k : Fin 20000)
    (hk : k.val = t.val * 400 + a.val) :
    (Hand.iblk1 V c 0 t : Vec Ideal S400x64 .f32) (ix2 a b) = (V c main_v3 : Vec Ideal S20000x64 .f32) (ix2 k b) := by
  obtain ⟨e0, e1, -⟩ := enc1_idx_facts t
  unfold Hand.iblk1
  rw [View.read_apply]
  show V c main_v3 _ = V c main_v3 _
  congr 1
  funext ax
  apply Fin.ext
  match ax with
  | ⟨0, _⟩ => show win1_0.index t (0 : Fin 2) * 400 + 1 * a.val = k.val; omega
  | ⟨1, _⟩ => show win1_0.index t (1 : Fin 2) * 64 + 1 * b.val = b.val; omega

/-- The rows' index-triple block at point `t` is rows `400 t …` of the index array. -/
theorem enc1_blk1_apply (c : Dev nD) (t : Fin cfg1.N) (a : Fin 400) (b : Fin 3) (k : Fin 20000)
    (hk : k.val = t.val * 400 + a.val) :
    (Hand.iblk1 V c 1 t : Vec Ideal S400x3 .i32) (ix2 a b) = (V c main_v4 : Vec Ideal S20000x3 .i32) (ix2 k b) := by
  obtain ⟨-, -, e0, e1, -⟩ := enc1_idx_facts t
  unfold Hand.iblk1
  rw [View.read_apply]
  show V c main_v4 _ = V c main_v4 _
  congr 1
  funext ax
  apply Fin.ext
  match ax with
  | ⟨0, _⟩ => show win1_1.index t (0 : Fin 2) * 400 + 1 * a.val = k.val; omega
  | ⟨1, _⟩ => show win1_1.index t (1 : Fin 2) * 3 + 1 * b.val = b.val; omega

/-- The table's block at every point is the whole table. -/
theorem enc1_blk2_apply (c : Dev nD) (t : Fin cfg1.N) (r : Fin 4000) (b : Fin 64) :
    (Hand.iblk1 V c 2 t : Vec Ideal S4000x64 .bf16) (ix2 r b) = (V c main_v5 : Vec Ideal S4000x64 .bf16) (ix2 r b) := by
  obtain ⟨-, -, -, -, e0, e1, -⟩ := enc1_idx_facts t
  unfold Hand.iblk1
  rw [View.read_apply]
  show V c main_v5 _ = V c main_v5 _
  congr 1
  funext ax
  apply Fin.ext
  match ax with
  | ⟨0, _⟩ => show win1_2.index t (0 : Fin 2) * 4000 + 1 * r.val = r.val; omega
  | ⟨1, _⟩ => show win1_2.index t (1 : Fin 2) * 64 + 1 * b.val = b.val; omega

/-- The closed form: the output array as one function of the three arrays the region finds. -/
def enc1_G (own : Vec Ideal S20000x64 .f32) (idx : Vec Ideal S20000x3 .i32) (tab : Vec Ideal S4000x64 .bf16) :
    Vec Ideal S20000x64 .f32 := fun i =>
  (own i + ∑ r : Fin 4000,
      Spec.cnt (idx (ix2 (⟨(i 0).val, idx2_lt0 i⟩ : Fin 20000) 0)) (idx (ix2 (⟨(i 0).val, idx2_lt0 i⟩ : Fin 20000) 1))
        (idx (ix2 (⟨(i 0).val, idx2_lt0 i⟩ : Fin 20000) 2)) r.val
        * tab (ix2 r (⟨(i 1).val, idx2_lt1 i⟩ : Fin 64)))
    * Ideal.ofBits .f32 0x3E800000#32

theorem enc1_G_apply (own : Vec Ideal S20000x64 .f32) (idx : Vec Ideal S20000x3 .i32) (tab : Vec Ideal S4000x64 .bf16)
    (p : Fin 20000) (q : Fin 64) :
    enc1_G own idx tab (ix2 p q)
      = (own (ix2 p q) + ∑ r : Fin 4000, Spec.cnt (idx (ix2 p 0)) (idx (ix2 p 1)) (idx (ix2 p 2)) r.val * tab (ix2 r q))
          * Ideal.ofBits .f32 0x3E800000#32 := rfl

/-- One written-back element: if the three blocks are the arrays' rows `400 n …` (the table whole), the payload at
    a block index is the closed form at the array index `400 n` rows further down. -/
theorem enc1_point (x0 : Vec Ideal S400x64 .f32) (x1 : Vec Ideal S400x3 .i32) (x2 : Vec Ideal S4000x64 .bf16)
    (own : Vec Ideal S20000x64 .f32) (idx : Vec Ideal S20000x3 .i32) (tab : Vec Ideal S4000x64 .bf16) (n : ℕ)
    (h0 : ∀ (a : Fin 400) (b : Fin 64) (k : Fin 20000), k.val = n * 400 + a.val → x0 (ix2 a b) = own (ix2 k b))
    (h1 : ∀ (a : Fin 400) (b : Fin 3) (k : Fin 20000), k.val = n * 400 + a.val → x1 (ix2 a b) = idx (ix2 k b))
    (h2 : ∀ (r : Fin 4000) (b : Fin 64), x2 (ix2 r b) = tab (ix2 r b))
    (y : S400x64.Idx) (i : S20000x64.Idx) (hi0 : (i 0).val = n * 400 + (y 0).val) (hi1 : (i 1).val = (y 1).val) :
    Gen.k1_pay1 (F := Ideal) x0 x1 x2 y = enc1_G own idx tab i := by
  obtain ⟨a, b, rfl⟩ : ∃ (a : Fin 400) (b : Fin 64), y = ix2 a b := ⟨y 0, y 1, eq_ix2 y⟩
  obtain ⟨k, b', rfl⟩ : ∃ (k : Fin 20000) (b' : Fin 64), i = ix2 k b' := ⟨i 0, i 1, eq_ix2 i⟩
  obtain rfl : b' = b := Fin.ext hi1
  rw [pay1_apply, enc1_G_apply, h0 a b' k hi0, h1 a 0 k hi0, h1 a 1 k hi0, h1 a 2 k hi0]
  simp only [h2]

/-- WHAT POINT `t` WRITES BACK is block `t` of the closed form of the arrays the region finds. -/
theorem enc1_flushed_eq (c : Dev nD) (t : Fin cfg1.N) :
    (Hand.dat1 V c).flushed 3 t
      = ((cfg1.win 3).blk t).view.read (Elt Ideal) (enc1_G (V c main_v3) (V c main_v4) (V c main_v5)) := by
  show (cfg1.win 3).cut (grid1.coords t) ((Hand.dat1 V c).after 3 t) = _
  rw [Hand.after1_3]
  unfold Hand.out1_3
  rw [View.canon_unit_zero enc1_hz]
  simp only [View.ld_unit_zero (S := S400x64) enc1_hz, View.ld_unit_zero (S := S400x3) enc1_hz,
    View.ld_unit_zero (S := S4000x64) enc1_hz]
  obtain ⟨-, -, -, -, -, -, e0, e1⟩ := enc1_idx_facts t
  funext j
  show Gen.k1_pay1 (F := Ideal) (Hand.iblk1 V c 0 t) (Hand.iblk1 V c 1 t) (Hand.iblk1 V c 2 t) j
    = enc1_G (V c main_v3) (V c main_v4) (V c main_v5) (((cfg1.win 3).blk t).view.emb j)
  refine enc1_point (Hand.iblk1 V c 0 t) (Hand.iblk1 V c 1 t) (Hand.iblk1 V c 2 t) (V c main_v3) (V c main_v4) (V c main_v5)
    t.val (fun a b k hk => enc1_blk0_apply V c t a b k hk) (fun a b k hk => enc1_blk1_apply V c t a b k hk)
    (fun r b => enc1_blk2_apply V c t r b) j (((cfg1.win 3).blk t).view.emb j) ?_ ?_
  · show win1_3.index t (0 : Fin 2) * 400 + 1 * (j 0).val = t.val * 400 + (j 0).val; omega
  · show win1_3.index t (1 : Fin 2) * 64 + 1 * (j 1).val = (j 1).val; omega

/-- An index of the output array is in point `t`'s block iff each coordinate is in the block's range on its axis. -/
theorem enc1_mem_blk (t : Fin cfg1.N) (i : S20000x64.Idx) :
    i ∈ ((cfg1.win 3).blk t).view.set ↔ ∀ a : Fin 2, win1_3.index t a * S400x64.size a ≤ (i a).val
      ∧ (i a).val < win1_3.index t a * S400x64.size a + S400x64.size a := by
  show i ∈ ((View.whole main_v6).slice (win1_3.rect t)).set ↔ _
  rw [View.set_slice_whole, Rect.mem_set_unit]
  exact Iff.rfl

/-- The row blocks tile the output: row `p` lies in the block of point `p / 400`, which writes back. -/
theorem enc1_cover (i : S20000x64.Idx) :
    ∃ t : Fin cfg1.N, (cfg1.win 3).flush t = true ∧ i ∈ ((cfg1.win 3).blk t).view.set := by
  have hN : cfg1.N = 50 := N_1
  have hi0 : (i 0).val < 20000 := (i 0).isLt
  have hi1 : (i 1).val < 64 := (i 1).isLt
  have ht : (i 0).val / 400 < cfg1.N := by rw [hN]; omega
  obtain ⟨-, -, -, -, -, -, e0, e1⟩ := enc1_idx_facts ⟨(i 0).val / 400, ht⟩
  have e0' : win1_3.index ⟨(i 0).val / 400, ht⟩ (0 : Fin 2) = (i 0).val / 400 := e0
  refine ⟨⟨(i 0).val / 400, ht⟩, flush1_3 _, ?_⟩
  rw [enc1_mem_blk]
  intro a
  match a with
  | ⟨0, _⟩ =>
    show win1_3.index ⟨(i 0).val / 400, ht⟩ (0 : Fin 2) * 400 ≤ (i 0).val
      ∧ (i 0).val < win1_3.index ⟨(i 0).val / 400, ht⟩ (0 : Fin 2) * 400 + 400
    omega
  | ⟨1, _⟩ =>
    show win1_3.index ⟨(i 0).val / 400, ht⟩ (1 : Fin 2) * 64 ≤ (i 1).val
      ∧ (i 1).val < win1_3.index ⟨(i 0).val / 400, ht⟩ (1 : Fin 2) * 64 + 64
    omega

/-- THE OUTPUT ARRAY after the region: the closed form of the arrays the region finds. -/
theorem enc1_final (c : Dev nD) :
    (Hand.dat1 V c).arrAt 3 cfg1.N = enc1_G (V c main_v3) (V c main_v4) (V c main_v5) :=
  (Hand.dat1 V c).arrAt_eq_of_cover 3 (enc1_G (V c main_v3) (V c main_v4) (V c main_v5))
    (fun t _ => enc1_flushed_eq V c t) enc1_cover

/-- The three arrays the region reads, as it finds them, and its output array after it, by their literal types. -/
abbrev enc1_own (c : Dev nD) : Vec Ideal S20000x64 .f32 := V c main_v3
abbrev enc1_idx (c : Dev nD) : Vec Ideal S20000x3 .i32 := V c main_v4
abbrev enc1_tab (c : Dev nD) : Vec Ideal S4000x64 .bf16 := V c main_v5
abbrev enc1_out (c : Dev nD) : Vec Ideal S20000x64 .f32 := (Hand.dat1 V c).arrAt 3 cfg1.N

/-- Row `p`, column `q` of the output after the region: the row's own entry plus the count-weighted sum of the
    table's rows, times the quarter. -/
theorem enc1_apply (c : Dev nD) (p : Fin 20000) (q : Fin 64) :
    enc1_out V c (ix2 p q)
      = (enc1_own V c (ix2 p q)
          + ∑ r : Fin 4000, Spec.cnt (enc1_idx V c (ix2 p 0)) (enc1_idx V c (ix2 p 1)) (enc1_idx V c (ix2 p 2)) r.val
            * enc1_tab V c (ix2 r q))
        * Ideal.ofBits .f32 0x3E800000#32 :=
  (congrFun (enc1_final V c) (ix2 p q)).trans (enc1_G_apply (V c main_v3) (V c main_v4) (V c main_v5) p q)

end Cert.KernelIdeal.Val
-- ==== Proof.Br.Enc1.lean ====
/-
  The second gather-mean region's output array is the reference's item encoding of the launch contents: the own
  features are the first 20000 rows of the feature array on both sides; entry by entry the kernel's value (own feature
  plus the counting weight of the clipped index words against the rounded table, times a quarter) is the reference's
  (own feature plus the three named rows, over four), the table's entries being real and the index words in range.
-/
import proofs.«423063_j64879775973997_3_alg».proof.Proof.KI.ValEnc1
import proofs.«423063_j64879775973997_3_alg».proof.Proof.Br.HostK
import proofs.«423063_j64879775973997_3_alg».proof.Proof.Br.EncRef
import proofs.«423063_j64879775973997_3_alg».proof.Proof.Br.EncEntry

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open scoped BigOperators

/-- An array that holds, entry by entry, the kernel's closed form over the entered own rows, the clipped row numbers
    and the rounded table, is the reference's item encoding of the own rows, the row numbers and the table. -/
theorem enc1_of_closed_form (out own ownc : (⟨2, ![20000, 64]⟩ : Shape).Idx → EReal)
    (idx idxc : (⟨2, ![20000, 3]⟩ : Shape).Idx → BitVec 32) (tab tabc : (⟨2, ![4000, 64]⟩ : Shape).Idx → EReal)
    (hout : ∀ (p : Fin 20000) (q : Fin 64), out (ix2 p q)
      = (ownc (ix2 p q) + ∑ r : Fin 4000, Spec.cnt (idxc (ix2 p 0)) (idxc (ix2 p 1)) (idxc (ix2 p 2)) r.val * tabc (ix2 r q))
        * Ideal.ofBits .f32 0x3E800000#32)
    (hidx : ∀ i, idxc i = IntOp.minsi (BitVec.ofNat 32 3999) (IntOp.maxsi 0#32 (idx i)))
    (hown : ∀ i, ownc i = own i) (htab : ∀ i, tabc i = tab i)
    (hfin : ∀ i, ∃ x : ℝ, tab i = (x : EReal)) (hrng : ∀ i, (idx i).toNat < 4000) :
    out = encRef1 own idx tab := by
  funext i
  obtain ⟨p, q, rfl⟩ : ∃ (p : Fin 20000) (q : Fin 64), i = ix2 p q := ⟨i 0, i 1, eq_ix2 i⟩
  rw [hout p q, encRef1_apply own idx tab p q (hrng _) (hrng _) (hrng _)]
  exact enc_entry_own (N := 20000) (T := 4000) (D := 64) 3999 rfl (by decide) own ownc idx idxc tab tabc hidx hown htab
    hfin hrng p q

section Region

variable (m : (ℓ : Loc nD τ sig) → Buf (Elt Ideal) ℓ) (ρ : Dev nD → PrngReg) (c : Dev nD)

/-- The launch contents the region's value is a function of, at their literal types: the items' own features (the
    first 20000 rows of the feature array),
    their index triples, and the table. -/
abbrev own1 : FVec Ideal S20000x64 .f32 := extractStridedSlice S20000x64 ![0, 0] (W0 m ρ c (Proc.devRef .tc main_arg4)) slices_S22000x64_S20000x64_0_0
abbrev idx1 : IVec S20000x3 32 := W0 m ρ c (Proc.devRef .tc main_arg12)
abbrev tab1 : FVec Ideal S4000x64 .f32 := W0 m ρ c (Proc.devRef .tc main_arg6)

/-- Region 1's output array is the reference's item encoding of the launch contents. -/
theorem enc1_eq (hfin : ∀ i, ∃ x : ℝ, tab1 m ρ c i = (x : EReal)) (hrng : ∀ i, (idx1 m ρ c i).toNat < 4000) :
    ((dat1 (F := Ideal) (V7 m ρ) c).arrAt 3 cfg1.N : FVec Ideal S20000x64 .f32)
      = encRef1 (own1 m ρ c) (idx1 m ρ c) (tab1 m ρ c) :=
  enc1_of_closed_form (Val.enc1_out (V7 m ρ) c) (own1 m ρ c) (Val.enc1_own (V7 m ρ) c) (idx1 m ρ c)
    (Val.enc1_idx (V7 m ρ) c) (tab1 m ρ c) (Val.enc1_tab (V7 m ρ) c) (Val.enc1_apply (V7 m ρ) c)
    (fun i => congrFun (hk1_idx m ρ c) i) (fun i => congrFun (hk1_own m ρ c) i)
    (fun i => congrFun (hk1_tab m ρ c) i) hfin hrng

end Region

end Cert.Bridge

end
-- ==== Proof.KI.ValPay2.lean ====
/-
  The gather-mean block payload read at an index, at the ideal values: for a block of rows with their own
  entries, their index triples and the whole table, the stored entry at row `p`, column `q` is

      (own p q + ∑ r, cnt (idx p 0) (idx p 1) (idx p 2) r * table r q) * ¼

  where `cnt` counts how many of the three index words name table row `r` (the one-hot rows summed, then
  multiplied against the table by the matrix unit into a zero accumulator).
-/
import proofs.«423063_j64879775973997_3_alg».proof.Proof.Gen.KernelIdeal.Skeleton
import proofs.«423063_j64879775973997_3_alg».proof.Proof.Br.Spec
import Idealize.ShloMosaic.Lib.ValueIdx
import Idealize.ShloMosaic.Lib.Pipeline.Value
import Idealize.ShloMosaic.Lib.IdealHost
import Idealize.ShloMosaic.PureOps.Ideal.Laws

noncomputable section
namespace Cert.KernelIdeal.Val

open Idealize.ShloMosaic Idealize.SL.Sem Idealize.ShloMosaic.ValueIdx
open scoped BigOperators

/-- One indicator column of the count matrix: at row `p` and lane `r` it is one exactly when the word in
    column `c` of the row's index triple is `r`. -/
theorem onehot2_apply (x1 : Vec Ideal S2000x3 .i32) (c : Fin 3) (off : Fin 2 → ℕ) (h0 : off 0 = 0) (h1 : off 1 = c.val)
    (hs : S2000x3.Slices off S2000x1) (p : Fin 2000) (r : Fin 1000) :
    (truncf .bf16 (sitofp .f32 (extui 32 (cmpi .eq
        (broadcastTo S2000x1000 (extractStridedSlice S2000x1 off x1 hs)
          Gen.broadcasts_S2000x1_S2000x1000)
        (iota .tc S2000x1000 32 [1] Gen.iota_S2000x1000_d1_w32)) Gen.natLt_1_32) : FVec Ideal S2000x1000 .f32)
      Gen.bitsLt_bf16_f32 : FVec Ideal S2000x1000 .bf16) (ix2 p r) = Spec.hit (x1 (ix2 p c)) r.val := by
  have e1 : broadcastTo S2000x1000 (extractStridedSlice S2000x1 off x1 hs)
          Gen.broadcasts_S2000x1_S2000x1000 (ix2 p r) = x1 (ix2 p c) := by
    refine (broadcastTo_apply _ _ (ix2 p r) (ix2 p (0 : Fin 1)) fun ax => ?_).trans ?_
    · match ax with
      | ⟨0, _⟩ => rfl
      | ⟨1, _⟩ => rfl
    refine (extractStridedSlice_apply off _ hs (ix2 p (0 : Fin 1)) (ix2 p c) fun ax => ?_).trans ?_
    · match ax with
      | ⟨0, _⟩ => show p.val = off 0 + p.val; omega
      | ⟨1, _⟩ => show c.val = off 1 + 0; omega
    rfl
  have e2 : iota .tc S2000x1000 32 [1] Gen.iota_S2000x1000_d1_w32 (ix2 p r) = BitVec.ofNat 32 r.val :=
    iota_single_apply .tc S2000x1000 32 1 _ (ix2 p r)
  show (((BitVec.setWidth 32 (IntOp.cmpi .eq
        (broadcastTo S2000x1000 (extractStridedSlice S2000x1 off x1 hs)
          Gen.broadcasts_S2000x1_S2000x1000 (ix2 p r))
        (iota .tc S2000x1000 32 [1] Gen.iota_S2000x1000_d1_w32 (ix2 p r)))).toInt : ℝ) : EReal) = _
  rw [e1, e2]
  unfold Spec.hit IntOp.cmpi
  by_cases h : x1 (ix2 p c) = BitVec.ofNat 32 r.val
  · simp [h]
  · have hb : (x1 (ix2 p c) == BitVec.ofNat 32 r.val) = false := by simpa using h
    simp [h, hb]

/-! ### The product's index maps, coordinate by coordinate -/

theorem dot2_lhs_0 (j : S2000x64.Idx) (k : dot_S2000x1000_S1000x64_S2000x64_1_0_0_1_n_n.contr.Idx) :
    (dot_S2000x1000_S1000x64_S2000x64_1_0_0_1_n_n.lhsIdx j k 0 : ℕ) = j 0 := by
  simp [DotDims.lhsIdx, dot_S2000x1000_S1000x64_S2000x64_1_0_0_1_n_n]; rfl
theorem dot2_lhs_1 (j : S2000x64.Idx) (k : dot_S2000x1000_S1000x64_S2000x64_1_0_0_1_n_n.contr.Idx) :
    (dot_S2000x1000_S1000x64_S2000x64_1_0_0_1_n_n.lhsIdx j k 1 : ℕ) = k ⟨0, by decide⟩ :=
  dot_S2000x1000_S1000x64_S2000x64_1_0_0_1_n_n.lhsIdx_val_of_single (cl := 1) rfl j k
theorem dot2_rhs_0 (j : S2000x64.Idx) (k : dot_S2000x1000_S1000x64_S2000x64_1_0_0_1_n_n.contr.Idx) :
    (dot_S2000x1000_S1000x64_S2000x64_1_0_0_1_n_n.rhsIdx j k 0 : ℕ) = k ⟨0, by decide⟩ :=
  dot_S2000x1000_S1000x64_S2000x64_1_0_0_1_n_n.rhsIdx_val_of_single (cr := 0) rfl j k
theorem dot2_rhs_1 (j : S2000x64.Idx) (k : dot_S2000x1000_S1000x64_S2000x64_1_0_0_1_n_n.contr.Idx) :
    (dot_S2000x1000_S1000x64_S2000x64_1_0_0_1_n_n.rhsIdx j k 1 : ℕ) = j 1 := by
  simp [DotDims.rhsIdx, dot_S2000x1000_S1000x64_S2000x64_1_0_0_1_n_n]; rfl

/-- The block product into a zero accumulator, at row `p` and column `q`: the sum over the table's rows. -/
theorem matmul2_apply (A : FVec Ideal S2000x1000 .bf16) (B : FVec Ideal S1000x64 .bf16) (p : Fin 2000) (q : Fin 64) :
    matmul dot_S2000x1000_S1000x64_S2000x64_1_0_0_1_n_n none A B (constant S2000x64 .f32 0x00000000#32) (ix2 p q)
      = ∑ r : Fin 1000, A (ix2 p r) * B (ix2 r q) := by
  refine (Ideal.matmul_constant_zero_apply dot_S2000x1000_S1000x64_S2000x64_1_0_0_1_n_n none A B (ix2 p q)).trans ?_
  rw [← Equiv.sum_comp (contrEquiv1 dot_S2000x1000_S1000x64_S2000x64_1_0_0_1_n_n 1000 rfl rfl).symm]
  refine Finset.sum_congr rfl fun r _ => ?_
  have hl : dot_S2000x1000_S1000x64_S2000x64_1_0_0_1_n_n.lhsIdx (ix2 p q)
      ((contrEquiv1 dot_S2000x1000_S1000x64_S2000x64_1_0_0_1_n_n 1000 rfl rfl).symm r) = ix2 p r :=
    Shape.idx_ext₂ (dot2_lhs_0 _ _)
      ((dot2_lhs_1 _ _).trans (contrEquiv1_symm_val dot_S2000x1000_S1000x64_S2000x64_1_0_0_1_n_n 1000 rfl rfl r))
  have hr : dot_S2000x1000_S1000x64_S2000x64_1_0_0_1_n_n.rhsIdx (ix2 p q)
      ((contrEquiv1 dot_S2000x1000_S1000x64_S2000x64_1_0_0_1_n_n 1000 rfl rfl).symm r) = ix2 r q :=
    Shape.idx_ext₂
      ((dot2_rhs_0 _ _).trans (contrEquiv1_symm_val dot_S2000x1000_S1000x64_S2000x64_1_0_0_1_n_n 1000 rfl rfl r))
      (dot2_rhs_1 _ _)
  rw [hl, hr]

/-- The gather-mean block payload at row `p`, column `q`: the row's own entry plus the count-weighted sum of
    the table's rows, times the quarter. -/
theorem pay2_apply (x0 : Vec Ideal S2000x64 .f32) (x1 : Vec Ideal S2000x3 .i32) (x2 : Vec Ideal S1000x64 .bf16)
    (p : Fin 2000) (q : Fin 64) :
    Gen.k2_pay1 (F := Ideal) x0 x1 x2 (ix2 p q)
      = (x0 (ix2 p q) + ∑ r : Fin 1000, Spec.cnt (x1 (ix2 p 0)) (x1 (ix2 p 1)) (x1 (ix2 p 2)) r.val * x2 (ix2 r q))
          * Ideal.ofBits .f32 0x3E800000#32 := by
  unfold Gen.k2_pay1
  simp only [mulf_apply, addf_apply, broadcast_apply, shapeCast_self]
  refine congrArg (· * Ideal.ofBits .f32 0x3E800000#32) (congrArg (x0 (ix2 p q) + ·) ?_)
  refine (matmul2_apply _ _ p q).trans (Finset.sum_congr rfl fun r _ => ?_)
  refine congrArg (· * x2 (ix2 r q)) ?_
  simp only [addf_apply, broadcast_apply]
  rw [onehot2_apply x1 0 ![0, 0] rfl rfl, onehot2_apply x1 1 ![0, 1] rfl rfl, onehot2_apply x1 2 ![0, 2] rfl rfl]
  show ((Ideal.ofBits .bf16 0x0000#16 + _) + _) + _ = _
  rw [Ideal.ofBits_zero_bf16]
  rfl

end Cert.KernelIdeal.Val
-- ==== Proof.KI.ValEnc2.lean ====
/-
  What the gather-mean region 2 leaves in its output array, index by index, at the ideal values: row `p`,
  column `q` of the output is

      (own p q + ∑ r, cnt (idx p 0) (idx p 1) (idx p 2) r * table r q) * ¼

  over the WHOLE arrays the region finds (the rows' own entries, their index triples, the table). Each grid
  point writes back the payload of its blocks; a block's element sits in its array at the block index times
  the block's extent plus its own coordinate; the row blocks tile the output, so every row is some point's.
-/
import proofs.«423063_j64879775973997_3_alg».proof.Proof.KI.Reg2
import proofs.«423063_j64879775973997_3_alg».proof.Proof.KI.ValPay2
import Idealize.ShloMosaic.Lib.Pipeline.Value

noncomputable section
namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

-- the TensorCore's buffer contents when the region is entered
variable (V : (c : Dev nD) → (b : Ref sig .tc) → Buf (Elt Ideal) ((c : Thread nD τ).loc b))

theorem enc2_hz : (![0, 0] : Fin 2 → Nat) = fun _ => 0 := funext fun a => by fin_cases a <;> rfl

/-- The printed index maps, decided once over the grid: the row windows' block row is the point's number, the
    table's block is block zero, and no window moves along the columns. -/
theorem enc2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' own block at point `t` is rows `2000 t …` of the array. -/
theorem enc2_blk0_apply (c : Dev nD) (t : Fin cfg2.N) (a : Fin 2000) (b : Fin 64) (k : Fin 100000)
    (hk : k.val = t.val * 2000 + a.val) :
    (Hand.iblk2 V c 0 t : Vec Ideal S2000x64 .f32) (ix2 a b) = (V c main_v15 : Vec Ideal S100000x64 .f32) (ix2 k b) := by
  obtain ⟨e0, e1, -⟩ := enc2_idx_facts t
  unfold Hand.iblk2
  rw [View.read_apply]
  show V c main_v15 _ = V c main_v15 _
  congr 1
  funext ax
  apply Fin.ext
  match ax with
  | ⟨0, _⟩ => show win2_0.index t (0 : Fin 2) * 2000 + 1 * a.val = k.val; omega
  | ⟨1, _⟩ => show win2_0.index t (1 : Fin 2) * 64 + 1 * b.val = b.val; omega

/-- The rows' index-triple block at point `t` is rows `2000 t …` of the index array. -/
theorem enc2_blk1_apply (c : Dev nD) (t : Fin cfg2.N) (a : Fin 2000) (b : Fin 3) (k : Fin 100000)
    (hk : k.val = t.val * 2000 + a.val) :
    (Hand.iblk2 V c 1 t : Vec Ideal S2000x3 .i32) (ix2 a b) = (V c main_v17 : Vec Ideal S100000x3 .i32) (ix2 k b) := by
  obtain ⟨-, -, e0, e1, -⟩ := enc2_idx_facts t
  unfold Hand.iblk2
  rw [View.read_apply]
  show V c main_v17 _ = V c main_v17 _
  congr 1
  funext ax
  apply Fin.ext
  match ax with
  | ⟨0, _⟩ => show win2_1.index t (0 : Fin 2) * 2000 + 1 * a.val = k.val; omega
  | ⟨1, _⟩ => show win2_1.index t (1 : Fin 2) * 3 + 1 * b.val = b.val; omega

/-- The table's block at every point is the whole table. -/
theorem enc2_blk2_apply (c : Dev nD) (t : Fin cfg2.N) (r : Fin 1000) (b : Fin 64) :
    (Hand.iblk2 V c 2 t : Vec Ideal S1000x64 .bf16) (ix2 r b) = (V c main_v18 : Vec Ideal S1000x64 .bf16) (ix2 r b) := by
  obtain ⟨-, -, -, -, e0, e1, -⟩ := enc2_idx_facts t
  unfold Hand.iblk2
  rw [View.read_apply]
  show V c main_v18 _ = V c main_v18 _
  congr 1
  funext ax
  apply Fin.ext
  match ax with
  | ⟨0, _⟩ => show win2_2.index t (0 : Fin 2) * 1000 + 1 * r.val = r.val; omega
  | ⟨1, _⟩ => show win2_2.index t (1 : Fin 2) * 64 + 1 * b.val = b.val; omega

/-- The closed form: the output array as one function of the three arrays the region finds. -/
def enc2_G (own : Vec Ideal S100000x64 .f32) (idx : Vec Ideal S100000x3 .i32) (tab : Vec Ideal S1000x64 .bf16) :
    Vec Ideal S100000x64 .f32 := fun i =>
  (own i + ∑ r : Fin 1000,
      Spec.cnt (idx (ix2 (⟨(i 0).val, idx2_lt0 i⟩ : Fin 100000) 0)) (idx (ix2 (⟨(i 0).val, idx2_lt0 i⟩ : Fin 100000) 1))
        (idx (ix2 (⟨(i 0).val, idx2_lt0 i⟩ : Fin 100000) 2)) r.val
        * tab (ix2 r (⟨(i 1).val, idx2_lt1 i⟩ : Fin 64)))
    * Ideal.ofBits .f32 0x3E800000#32

theorem enc2_G_apply (own : Vec Ideal S100000x64 .f32) (idx : Vec Ideal S100000x3 .i32) (tab : Vec Ideal S1000x64 .bf16)
    (p : Fin 100000) (q : Fin 64) :
    enc2_G own idx tab (ix2 p q)
      = (own (ix2 p q) + ∑ r : Fin 1000, Spec.cnt (idx (ix2 p 0)) (idx (ix2 p 1)) (idx (ix2 p 2)) r.val * tab (ix2 r q))
          * Ideal.ofBits .f32 0x3E800000#32 := rfl

/-- One written-back element: if the three blocks are the arrays' rows `2000 n …` (the table whole), the payload at
    a block index is the closed form at the array index `2000 n` rows further down. -/
theorem enc2_point (x0 : Vec Ideal S2000x64 .f32) (x1 : Vec Ideal S2000x3 .i32) (x2 : Vec Ideal S1000x64 .bf16)
    (own : Vec Ideal S100000x64 .f32) (idx : Vec Ideal S100000x3 .i32) (tab : Vec Ideal S1000x64 .bf16) (n : ℕ)
    (h0 : ∀ (a : Fin 2000) (b : Fin 64) (k : Fin 100000), k.val = n * 2000 + a.val → x0 (ix2 a b) = own (ix2 k b))
    (h1 : ∀ (a : Fin 2000) (b : Fin 3) (k : Fin 100000), k.val = n * 2000 + a.val → x1 (ix2 a b) = idx (ix2 k b))
    (h2 : ∀ (r : Fin 1000) (b : Fin 64), x2 (ix2 r b) = tab (ix2 r b))
    (y : S2000x64.Idx) (i : S100000x64.Idx) (hi0 : (i 0).val = n * 2000 + (y 0).val) (hi1 : (i 1).val = (y 1).val) :
    Gen.k2_pay1 (F := Ideal) x0 x1 x2 y = enc2_G own idx tab i := by
  obtain ⟨a, b, rfl⟩ : ∃ (a : Fin 2000) (b : Fin 64), y = ix2 a b := ⟨y 0, y 1, eq_ix2 y⟩
  obtain ⟨k, b', rfl⟩ : ∃ (k : Fin 100000) (b' : Fin 64), i = ix2 k b' := ⟨i 0, i 1, eq_ix2 i⟩
  obtain rfl : b' = b := Fin.ext hi1
  rw [pay2_apply, enc2_G_apply, h0 a b' k hi0, h1 a 0 k hi0, h1 a 1 k hi0, h1 a 2 k hi0]
  simp only [h2]

/-- WHAT POINT `t` WRITES BACK is block `t` of the closed form of the arrays the region finds. -/
theorem enc2_flushed_eq (c : Dev nD) (t : Fin cfg2.N) :
    (Hand.dat2 V c).flushed 3 t
      = ((cfg2.win 3).blk t).view.read (Elt Ideal) (enc2_G (V c main_v15) (V c main_v17) (V c main_v18)) := by
  show (cfg2.win 3).cut (grid2.coords t) ((Hand.dat2 V c).after 3 t) = _
  rw [Hand.after2_3]
  unfold Hand.out2_3
  rw [View.canon_unit_zero enc2_hz]
  simp only [View.ld_unit_zero (S := S2000x64) enc2_hz, View.ld_unit_zero (S := S2000x3) enc2_hz,
    View.ld_unit_zero (S := S1000x64) enc2_hz]
  obtain ⟨-, -, -, -, -, -, e0, e1⟩ := enc2_idx_facts t
  funext j
  show Gen.k2_pay1 (F := Ideal) (Hand.iblk2 V c 0 t) (Hand.iblk2 V c 1 t) (Hand.iblk2 V c 2 t) j
    = enc2_G (V c main_v15) (V c main_v17) (V c main_v18) (((cfg2.win 3).blk t).view.emb j)
  refine enc2_point (Hand.iblk2 V c 0 t) (Hand.iblk2 V c 1 t) (Hand.iblk2 V c 2 t) (V c main_v15) (V c main_v17) (V c main_v18)
    t.val (fun a b k hk => enc2_blk0_apply V c t a b k hk) (fun a b k hk => enc2_blk1_apply V c t a b k hk)
    (fun r b => enc2_blk2_apply V c t r b) j (((cfg2.win 3).blk t).view.emb j) ?_ ?_
  · show win2_3.index t (0 : Fin 2) * 2000 + 1 * (j 0).val = t.val * 2000 + (j 0).val; omega
  · show win2_3.index t (1 : Fin 2) * 64 + 1 * (j 1).val = (j 1).val; omega

/-- An index of the output array is in point `t`'s block iff each coordinate is in the block's range on its axis. -/
theorem enc2_mem_blk (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v19).slice (win2_3.rect t)).set ↔ _
  rw [View.set_slice_whole, Rect.mem_set_unit]
  exact Iff.rfl

/-- The row blocks tile the output: row `p` lies in the block of point `p / 2000`, which writes back. -/
theorem enc2_cover (i : S100000x64.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 64 := (i 1).isLt
  have ht : (i 0).val / 2000 < cfg2.N := by rw [hN]; omega
  obtain ⟨-, -, -, -, -, -, e0, e1⟩ := enc2_idx_facts ⟨(i 0).val / 2000, ht⟩
  have e0' : win2_3.index ⟨(i 0).val / 2000, ht⟩ (0 : Fin 2) = (i 0).val / 2000 := e0
  refine ⟨⟨(i 0).val / 2000, ht⟩, flush2_3 _, ?_⟩
  rw [enc2_mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    omega

/-- THE OUTPUT ARRAY after the region: the closed form of the arrays the region finds. -/
theorem enc2_final (c : Dev nD) :
    (Hand.dat2 V c).arrAt 3 cfg2.N = enc2_G (V c main_v15) (V c main_v17) (V c main_v18) :=
  (Hand.dat2 V c).arrAt_eq_of_cover 3 (enc2_G (V c main_v15) (V c main_v17) (V c main_v18))
    (fun t _ => enc2_flushed_eq V c t) enc2_cover

/-- The three arrays the region reads, as it finds them, and its output array after it, by their literal types. -/
abbrev enc2_own (c : Dev nD) : Vec Ideal S100000x64 .f32 := V c main_v15
abbrev enc2_idx (c : Dev nD) : Vec Ideal S100000x3 .i32 := V c main_v17
abbrev enc2_tab (c : Dev nD) : Vec Ideal S1000x64 .bf16 := V c main_v18
abbrev enc2_out (c : Dev nD) : Vec Ideal S100000x64 .f32 := (Hand.dat2 V c).arrAt 3 cfg2.N

/-- Row `p`, column `q` of the output after the region: the row's own entry plus the count-weighted sum of the
    table's rows, times the quarter. -/
theorem enc2_apply (c : Dev nD) (p : Fin 100000) (q : Fin 64) :
    enc2_out V c (ix2 p q)
      = (enc2_own V c (ix2 p q)
          + ∑ r : Fin 1000, Spec.cnt (enc2_idx V c (ix2 p 0)) (enc2_idx V c (ix2 p 1)) (enc2_idx V c (ix2 p 2)) r.val
            * enc2_tab V c (ix2 r q))
        * Ideal.ofBits .f32 0x3E800000#32 :=
  (congrFun (enc2_final V c) (ix2 p q)).trans (enc2_G_apply (V c main_v15) (V c main_v17) (V c main_v18) p q)

end Cert.KernelIdeal.Val
-- ==== Proof.Br.Enc2.lean ====
/- The context region's joining equation. After the third gather-and-mean launch the output array holds, entry by
   entry, the own row plus the counting weight of the three clipped row numbers against the table rounded to bf16, times
   a quarter; for a table of real entries and row numbers in the table's range that is the reference's mean of the three
   named table rows and the own row. The own rows are, on both sides, the same gather of the feature rows. -/
import proofs.«423063_j64879775973997_3_alg».proof.Proof.Br.EncRef
import proofs.«423063_j64879775973997_3_alg».proof.Proof.Br.EncEntry
import proofs.«423063_j64879775973997_3_alg».proof.Proof.Br.HostK
import proofs.«423063_j64879775973997_3_alg».proof.Proof.KI.ValEnc2

noncomputable section

namespace Cert.Bridge

open Idealize.ShloMosaic Idealize.ShloMosaic.ValueIdx Idealize.ShloMosaic.TcCoe Idealize.SL.Sem Idealize.ShloMosaic.StableHlo
open scoped BigOperators

/-- The two programs print the own-row gather's dimension numbers alike. -/
theorem gather_own2_eq :
    Cert.KernelIdeal.gather_S22000x64_S100000x1_S100000x64_1_0_n_n_0_1_164
      = Cert.ReferenceIdeal.gather_S22000x64_S100000x1_S100000x64_1_0_n_n_0_1_164 := rfl

/-- The packed row-number table's last column as a vector, in the reference's spelling. -/
abbrev selfRowRef (a13 : IVec Cert.ReferenceIdeal.S100000x4 32) : IVec Cert.ReferenceIdeal.S100000 32 :=
  shapeCast Cert.ReferenceIdeal.S100000 (extractStridedSlice Cert.ReferenceIdeal.S100000x1 ![0, 3] a13
    Cert.ReferenceIdeal.Facts₀.slices_S100000x4_S100000x1_0_3) Cert.ReferenceIdeal.Facts₀.shapeCasts_S100000x1_S100000

/-- The packed table's first three columns, in the reference's spelling. -/
abbrev nbrRowsRef (a13 : IVec Cert.ReferenceIdeal.S100000x4 32) : IVec Cert.ReferenceIdeal.S100000x3 32 :=
  extractStridedSlice Cert.ReferenceIdeal.S100000x3 ![0, 0] a13 Cert.ReferenceIdeal.Facts₀.slices_S100000x4_S100000x3_0_0

/-- An array that holds, entry by entry, the kernel's closed form over the own rows, the clipped row numbers and the
    rounded table, is the reference's context encoding of the unclipped row numbers and the table itself. -/
theorem enc2_of_closed_form (out own : FVec Ideal Cert.ReferenceIdeal.S100000x64 .f32) (idx idxc : IVec Cert.ReferenceIdeal.S100000x3 32)
    (tab : FVec Ideal Cert.ReferenceIdeal.S1000x64 .f32) (tabc : (⟨2, ![1000, 64]⟩ : Shape).Idx → EReal)
    (hout : ∀ (p : Fin 100000) (q : Fin 64), out (ix2 p q)
      = (own (ix2 p q) + ∑ r : Fin 1000, Spec.cnt (idxc (ix2 p 0)) (idxc (ix2 p 1)) (idxc (ix2 p 2)) r.val * tabc (ix2 r q))
        * Ideal.ofBits .f32 0x3E800000#32)
    (hidx : ∀ i, idxc i = IntOp.minsi (BitVec.ofNat 32 999) (IntOp.maxsi 0#32 (idx i)))
    (htab : ∀ i, tabc i = tab i)
    (hfin : ∀ i, ∃ x : ℝ, tab i = (x : EReal)) (hrng : ∀ i, (idx i).toNat < 1000) :
    out = encRef2 own idx tab := by
  funext i
  obtain ⟨p, q, rfl⟩ : ∃ (p : Fin 100000) (q : Fin 64), i = ix2 p q := ⟨i 0, i 1, eq_ix2 i⟩
  rw [hout p q, encRef2_apply own idx tab p q (hrng _) (hrng _) (hrng _)]
  exact enc_entry' (N := 100000) (T := 1000) (D := 64) 999 rfl (by decide) own idx idxc tab tabc hidx htab hfin hrng p q

section Region
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The launch's own rows are the reference's own rows of the launch contents: one gather, spelt twice. -/
theorem own2_eq :
    (Cert.KernelIdeal.Hand.W11 m ρ c (Proc.devRef .tc Cert.KernelIdeal.main_v15) : FVec Ideal Cert.ReferenceIdeal.S100000x64 .f32)
      = ownRef2 (Cert.KernelIdeal.Hand.W0 m ρ c (Proc.devRef .tc Cert.KernelIdeal.main_arg4))
          (selfRowRef (Cert.KernelIdeal.Hand.W0 m ρ c (Proc.devRef .tc Cert.KernelIdeal.main_arg13))) := by
  rw [hk2_own (F := Ideal) m ρ c, gather_own2_eq]
  rfl

/-- The launch's row numbers are the packed table's first three columns, clipped to the table's range. -/
theorem idxc2_apply (i : Cert.ReferenceIdeal.S100000x3.Idx) :
    (Cert.KernelIdeal.Hand.W11 m ρ c (Proc.devRef .tc Cert.KernelIdeal.main_v17) : IVec Cert.ReferenceIdeal.S100000x3 32) i
      = IntOp.minsi (BitVec.ofNat 32 999)
          (IntOp.maxsi 0#32 (nbrRowsRef (Cert.KernelIdeal.Hand.W0 m ρ c (Proc.devRef .tc Cert.KernelIdeal.main_arg13)) i)) := by
  rw [hk2_idx (F := Ideal) m ρ c]
  rfl

/-- The launch's table is the table's launch contents: at the ideal values the rounding to bf16 changes nothing. -/
theorem tabc2_apply (i : Cert.ReferenceIdeal.S1000x64.Idx) :
    (Cert.KernelIdeal.Hand.W11 m ρ c (Proc.devRef .tc Cert.KernelIdeal.main_v18) : FVec Ideal Cert.ReferenceIdeal.S1000x64 .bf16) i
      = (Cert.KernelIdeal.Hand.W0 m ρ c (Proc.devRef .tc Cert.KernelIdeal.main_arg7) : FVec Ideal Cert.ReferenceIdeal.S1000x64 .f32) i := by
  rw [hk2_tab (F := Ideal) m ρ c]
  rfl

/-- The reference's spelling of the first three columns at (p, k). -/
theorem nbrRowsRef_apply (a13 : IVec Cert.ReferenceIdeal.S100000x4 32) (p : Fin 100000) (k : Fin 3) :
    nbrRowsRef a13 (ix2 p k) = a13 (ix2 p ⟨k.val, by omega⟩) := by
  refine extractStridedSlice_apply _ _ _ _ (ix2 p ⟨k.val, by omega⟩) (fun a => ?_)
  match a with
  | ⟨0, _⟩ => exact (Nat.zero_add _).symm
  | ⟨1, _⟩ => exact (Nat.zero_add _).symm

/-- THE JOIN for the context region: its output array after the launch is the reference's context encoding of the
    launch contents of the feature rows, the packed row numbers and the table. -/
theorem enc2_eq
    (hfin : ∀ i, ∃ x : ℝ, (Cert.KernelIdeal.Hand.W0 m ρ c (Proc.devRef .tc Cert.KernelIdeal.main_arg7) : FVec Ideal Cert.ReferenceIdeal.S1000x64 .f32) i = (x : EReal))
    (hrng : ∀ (p : Fin 100000) (k : Fin 3),
      ((Cert.KernelIdeal.Hand.W0 m ρ c (Proc.devRef .tc Cert.KernelIdeal.main_arg13) : IVec Cert.ReferenceIdeal.S100000x4 32) (ix2 p ⟨k.val, by omega⟩)).toNat < 1000) :
    (Cert.KernelIdeal.Hand.dat2 (F := Ideal) (Cert.KernelIdeal.Hand.V11 m ρ) c).arrAt 3 Cert.KernelIdeal.cfg2.N
      = encRef2 (ownRef2 (Cert.KernelIdeal.Hand.W0 m ρ c (Proc.devRef .tc Cert.KernelIdeal.main_arg4))
            (selfRowRef (Cert.KernelIdeal.Hand.W0 m ρ c (Proc.devRef .tc Cert.KernelIdeal.main_arg13))))
          (nbrRowsRef (Cert.KernelIdeal.Hand.W0 m ρ c (Proc.devRef .tc Cert.KernelIdeal.main_arg13)))
          (Cert.KernelIdeal.Hand.W0 m ρ c (Proc.devRef .tc Cert.KernelIdeal.main_arg7)) := by
  refine enc2_of_closed_form _ _ _ (Cert.KernelIdeal.Hand.W11 m ρ c (Proc.devRef .tc Cert.KernelIdeal.main_v17)) _
    (Cert.KernelIdeal.Hand.W11 m ρ c (Proc.devRef .tc Cert.KernelIdeal.main_v18)) (fun p q => ?_) (idxc2_apply m ρ c) (tabc2_apply m ρ c) hfin
    (fun i => ?_)
  · refine (Cert.KernelIdeal.Val.enc2_apply (Cert.KernelIdeal.Hand.V11 m ρ) c p q).trans ?_
    exact congrArg (fun o : FVec Ideal Cert.ReferenceIdeal.S100000x64 .f32 => (o (ix2 p q) + ∑ r : Fin 1000,
        Spec.cnt ((Cert.KernelIdeal.Hand.W11 m ρ c (Proc.devRef .tc Cert.KernelIdeal.main_v17) : IVec Cert.ReferenceIdeal.S100000x3 32) (ix2 p 0))
          ((Cert.KernelIdeal.Hand.W11 m ρ c (Proc.devRef .tc Cert.KernelIdeal.main_v17) : IVec Cert.ReferenceIdeal.S100000x3 32) (ix2 p 1))
          ((Cert.KernelIdeal.Hand.W11 m ρ c (Proc.devRef .tc Cert.KernelIdeal.main_v17) : IVec Cert.ReferenceIdeal.S100000x3 32) (ix2 p 2)) r.val
          * (Cert.KernelIdeal.Hand.W11 m ρ c (Proc.devRef .tc Cert.KernelIdeal.main_v18) : FVec Ideal Cert.ReferenceIdeal.S1000x64 .bf16) (ix2 r q))
        * Ideal.ofBits .f32 0x3E800000#32) (own2_eq m ρ c)
  · obtain ⟨p, k, rfl⟩ : ∃ (p : Fin 100000) (k : Fin 3), i = ix2 p k := ⟨i 0, i 1, eq_ix2 i⟩
    rw [nbrRowsRef_apply]
    exact hrng p k

end Region

end Cert.Bridge

end
-- ==== Proof.Br.EncRefV.lean ====
/- The reference's three encodings with the reference's argument arrays replaced by arrays known equal to them (the
   other program's launch contents), and the context mean's two index columns in the spelling the context region's
   joining equation uses. -/
import proofs.«423063_j64879775973997_3_alg».proof.Proof.Br.EncRef
import proofs.«423063_j64879775973997_3_alg».proof.Proof.Br.Enc2

noncomputable section

namespace Cert.Bridge

open Idealize.ShloMosaic Idealize.ShloMosaic.ValueIdx Idealize.ShloMosaic.TcCoe Idealize.SL.Sem Idealize.ShloMosaic.StableHlo

/-- The reference's own-row numbers of the context: the packed table's last column. -/
theorem res_main_v60_eq (V0 : Valuation Cert.ReferenceIdeal.τ Cert.ReferenceIdeal.sig (Elt Ideal)) :
    Cert.ReferenceIdeal.Value.res_main_v60 (F := Ideal) V0 = selfRowRef (V0 (Proc.devRef .tc Cert.ReferenceIdeal.main_arg13)) := by
  unfold Cert.ReferenceIdeal.Value.res_main_v60; rfl

/-- The reference's three row numbers of the context: the packed table's first three columns. -/
theorem res_main_v51_eq (V0 : Valuation Cert.ReferenceIdeal.τ Cert.ReferenceIdeal.sig (Elt Ideal)) :
    Cert.ReferenceIdeal.Value.res_main_v51 (F := Ideal) V0 = nbrRowsRef (V0 (Proc.devRef .tc Cert.ReferenceIdeal.main_arg13)) := by
  unfold Cert.ReferenceIdeal.Value.res_main_v51; rfl

/-- The user encoding over arrays equal to the reference's arguments. -/
theorem res_main_v11_of (V0 : Valuation Cert.ReferenceIdeal.τ Cert.ReferenceIdeal.sig (Elt Ideal)) (a3 : FVec Ideal Cert.ReferenceIdeal.S50000x64 .f32) (a11 : IVec Cert.ReferenceIdeal.S50000x3 32)
    (a5 : FVec Ideal Cert.ReferenceIdeal.S4000x64 .f32) (h3 : (V0 (Proc.devRef .tc Cert.ReferenceIdeal.main_arg3)) = a3) (h11 : (V0 (Proc.devRef .tc Cert.ReferenceIdeal.main_arg11)) = a11) (h5 : (V0 (Proc.devRef .tc Cert.ReferenceIdeal.main_arg5)) = a5) :
    Cert.ReferenceIdeal.Value.res_main_v11 (F := Ideal) V0 = encRef0 a3 a11 a5 := by
  rw [res_main_v11_eq, h3, h11, h5]

/-- The item encoding over arrays equal to the reference's arguments. -/
theorem res_main_v24_of (V0 : Valuation Cert.ReferenceIdeal.τ Cert.ReferenceIdeal.sig (Elt Ideal)) (a4 : FVec Ideal Cert.ReferenceIdeal.S22000x64 .f32) (a12 : IVec Cert.ReferenceIdeal.S20000x3 32)
    (a6 : FVec Ideal Cert.ReferenceIdeal.S4000x64 .f32) (h4 : (V0 (Proc.devRef .tc Cert.ReferenceIdeal.main_arg4)) = a4) (h12 : (V0 (Proc.devRef .tc Cert.ReferenceIdeal.main_arg12)) = a12) (h6 : (V0 (Proc.devRef .tc Cert.ReferenceIdeal.main_arg6)) = a6) :
    Cert.ReferenceIdeal.Value.res_main_v24 (F := Ideal) V0
      = encRef1 (extractStridedSlice Cert.ReferenceIdeal.S20000x64 ![0, 0] a4 Cert.ReferenceIdeal.Facts₀.slices_S22000x64_S20000x64_0_0) a12 a6 := by
  rw [res_main_v24_eq, h4, h12, h6]

/-- The gathered context means: the context mean of the arguments, gathered through the wrapped selecting numbers
    (the index term as the reference prints it). -/
theorem res_main_v79_printed (V0 : Valuation Cert.ReferenceIdeal.τ Cert.ReferenceIdeal.sig (Elt Ideal)) :
    Cert.ReferenceIdeal.Value.res_main_v79 (F := Ideal) V0
      = Host.gather Cert.ReferenceIdeal.gather_S100000x64_S500000x1_S500000x64_1_0_n_n_0_1_164
          (encRef2 (ownRef2 (V0 (Proc.devRef .tc Cert.ReferenceIdeal.main_arg4)) (selfRowRef (V0 (Proc.devRef .tc Cert.ReferenceIdeal.main_arg13)))) (nbrRowsRef (V0 (Proc.devRef .tc Cert.ReferenceIdeal.main_arg13))) (V0 (Proc.devRef .tc Cert.ReferenceIdeal.main_arg7)))
          (broadcastInDim Cert.ReferenceIdeal.S500000x1 ![0] Cert.ReferenceIdeal.Facts₀.bcast_S500000_S500000x1_0 (select (cmpi .slt (V0 (Proc.devRef .tc Cert.ReferenceIdeal.main_arg16)) (broadcastInDim Cert.ReferenceIdeal.S500000 ![] Cert.ReferenceIdeal.Facts₀.bcast_S_S500000 (constantI Cert.ReferenceIdeal.S_ 32 0#32))) (addi (V0 (Proc.devRef .tc Cert.ReferenceIdeal.main_arg16)) (broadcastInDim Cert.ReferenceIdeal.S500000 ![] Cert.ReferenceIdeal.Facts₀.bcast_S_S500000 (constantI Cert.ReferenceIdeal.S_ 32 100000#32))) (V0 (Proc.devRef .tc Cert.ReferenceIdeal.main_arg16)))) := by
  rw [res_main_v79_eq, res_main_v60_eq, res_main_v51_eq]
  rfl

/-- The same over arrays equal to the reference's feature, table and packed row-number arguments. -/
theorem res_main_v79_of (V0 : Valuation Cert.ReferenceIdeal.τ Cert.ReferenceIdeal.sig (Elt Ideal)) (a4 : FVec Ideal Cert.ReferenceIdeal.S22000x64 .f32) (a7 : FVec Ideal Cert.ReferenceIdeal.S1000x64 .f32)
    (a13 : IVec Cert.ReferenceIdeal.S100000x4 32) (h4 : (V0 (Proc.devRef .tc Cert.ReferenceIdeal.main_arg4)) = a4) (h7 : (V0 (Proc.devRef .tc Cert.ReferenceIdeal.main_arg7)) = a7) (h13 : (V0 (Proc.devRef .tc Cert.ReferenceIdeal.main_arg13)) = a13) :
    Cert.ReferenceIdeal.Value.res_main_v79 (F := Ideal) V0
      = Host.gather Cert.ReferenceIdeal.gather_S100000x64_S500000x1_S500000x64_1_0_n_n_0_1_164
          (encRef2 (ownRef2 a4 (selfRowRef a13)) (nbrRowsRef a13) a7)
          (broadcastInDim Cert.ReferenceIdeal.S500000x1 ![0] Cert.ReferenceIdeal.Facts₀.bcast_S500000_S500000x1_0 (select (cmpi .slt (V0 (Proc.devRef .tc Cert.ReferenceIdeal.main_arg16)) (broadcastInDim Cert.ReferenceIdeal.S500000 ![] Cert.ReferenceIdeal.Facts₀.bcast_S_S500000 (constantI Cert.ReferenceIdeal.S_ 32 0#32))) (addi (V0 (Proc.devRef .tc Cert.ReferenceIdeal.main_arg16)) (broadcastInDim Cert.ReferenceIdeal.S500000 ![] Cert.ReferenceIdeal.Facts₀.bcast_S_S500000 (constantI Cert.ReferenceIdeal.S_ 32 100000#32))) (V0 (Proc.devRef .tc Cert.ReferenceIdeal.main_arg16)))) := by
  rw [res_main_v79_printed, h4, h7, h13]

end Cert.Bridge

end
-- ==== Proof.Br.PreFacts.lean ====
/-
  The precondition decoded: from "the printed finiteness-and-range predicate is all ones" to the arithmetic facts
  it was written to state — every entry of each float argument is a real number, and every index word lies in its
  table's range.
-/
import proofs.«423063_j64879775973997_3_alg».proof.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.Bridge

open Idealize.ShloMosaic Idealize.ShloMosaic.ValueIdx Cert.Pre_finite_inputs

/-- A rank-0 array has one index. -/
instance subsingleton_scalar_idx : Subsingleton S_.Idx := ⟨fun a b => funext fun d => d.elim0⟩

/-- The pattern 0x7F800000 is +∞. -/
theorem inf_word : Ideal.ofBits .f32 0x7F800000#32 = (⊤ : EReal) := by simp [Ideal.ofBits, Ideal.ieee]

/-- On the extended reals, |x| < +∞ says x is a real number. -/
theorem real_of_abs_lt_top (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

variable {s : Shape} {axes : List (Fin s.rank)}

/-- `jnp.all(|x| < inf)` read back: every entry of x is real. -/
theorem real_of_all_finite (x : FVec Ideal s .f32) (hb : S_.BroadcastsInDim s (![] : Fin 0 → Fin s.rank))
    (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) :
    ∀ i, ∃ r : ℝ, x i = (r : EReal) := fun i =>
  real_of_abs_lt_top (x i) (Host.reduce_andi_all _ _ hr h0 ix0 e i)

/-- `jnp.all(a >= 0)` and `jnp.all(a < n)` read back: every word of a, as a natural number, is below n. -/
theorem lt_of_all_range (a : IVec s 32) (n : ℕ) (hn : n < 2 ^ 31) (hb : S_.BroadcastsInDim s (![] : Fin 0 → Fin s.rank))
    (hr : s.ReducesTo axes S_) (h0 : 0 < S_.numel)
    (e0 : Host.reduce IntOp.andi (cmpi .sge a (broadcastInDim s ![] hb (constantI S_ 32 0#32)))
          (constantI S_ 1 1#1) hr h0 ix0 = 1#1)
    (e1 : Host.reduce IntOp.andi (cmpi .slt a (broadcastInDim s ![] hb (constantI S_ 32 (BitVec.ofNat 32 n))))
          (constantI S_ 1 1#1) hr h0 ix0 = 1#1) :
    ∀ i, (a i).toNat < n := fun i => by
  have g0 : IntOp.cmpi .sge (a i) 0#32 = 1#1 := Host.reduce_andi_all _ _ hr h0 ix0 e0 i
  have g1 : IntOp.cmpi .slt (a i) (BitVec.ofNat 32 n) = 1#1 := Host.reduce_andi_all _ _ hr h0 ix0 e1 i
  rw [IntOp.cmpi_sge] at g0
  rw [IntOp.cmpi_slt, StableHlo.Predicate.toInt_ofNat_small n hn] at g1
  have z : (0#32 : BitVec 32).toInt = 0 := by decide
  rw [z] at g0
  have h32 := (a i).isLt
  rw [BitVec.toInt_eq_toNat_cond] at g0 g1
  split at g0 <;> omega

/-- The slice of the first three columns, read at row p and column k, is the array at (p, k). -/
theorem slice_cols_apply (a : IVec S100000x4 32) (hs : S100000x4.Slices ![0, 0] S100000x3) (p : Fin 100000) (k : Fin 3) :
    extractStridedSlice S100000x3 ![0, 0] a hs (ix2 p k) = a (ix2 p ⟨k.val, by omega⟩) := by
  unfold extractStridedSlice
  refine congrArg a (funext fun d => Fin.ext ?_)
  match d with
  | ⟨0, _⟩ => show 0 + p.val = p.val; omega
  | ⟨1, _⟩ => show 0 + k.val = k.val; omega

section decode
variable [Facts]
variable (a0 a1 a2 : IVec S4096 32) (a3 : FVec Ideal S50000x64 .f32) (a4 : FVec Ideal S22000x64 .f32)
  (a5 a6 : FVec Ideal S4000x64 .f32) (a7 : FVec Ideal S1000x64 .f32) (a8 : FVec Ideal S50000x1 .f32)
  (a9 : FVec Ideal S22000x1 .f32) (a10 : FVec Ideal S1x1 .f32) (a11 : IVec S50000x3 32) (a12 : IVec S20000x3 32)
  (a13 : IVec S100000x4 32) (a14 a15 a16 : IVec S500000 32)

/-- The precondition's fourteen conjuncts, each a `jnp.all`, decoded. -/
theorem pre_decoded (h : fn (F := Ideal) a0 a1 a2 a3 a4 a5 a6 a7 a8 a9 a10 a11 a12 a13 a14 a15 a16 = fun _ => 1#1) :
    ((∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)))
    ∧ (∀ i, (a11 i).toNat < 4000) ∧ (∀ i, (a12 i).toNat < 4000)
    ∧ (∀ (p : Fin 100000) (k : Fin 3), (a13 (ix2 p ⟨k.val, by omega⟩)).toNat < 1000) := by
  have e := congrFun h ix0
  dsimp only [fn, fn_part1, fn_part2, fn_part3] at e
  simp only [Idealize.ShloMosaic.andi, IntOp.andi_eq_one] at e
  obtain ⟨⟨⟨⟨⟨⟨⟨⟨⟨⟨⟨⟨⟨f3, f4⟩, f5⟩, f6⟩, f7⟩, f8⟩, f9⟩, f10⟩, l11⟩, u11⟩, l12⟩, u12⟩, l13⟩, u13⟩ := e
  refine ⟨⟨real_of_all_finite a3 _ _ _ f3, real_of_all_finite a4 _ _ _ f4, real_of_all_finite a5 _ _ _ f5,
    real_of_all_finite a6 _ _ _ f6, real_of_all_finite a7 _ _ _ f7, real_of_all_finite a8 _ _ _ f8,
    real_of_all_finite a9 _ _ _ f9, real_of_all_finite a10 _ _ _ f10⟩,
    lt_of_all_range a11 4000 (by decide) _ _ _ l11 u11, lt_of_all_range a12 4000 (by decide) _ _ _ l12 u12, fun p k => ?_⟩
  rw [← slice_cols_apply a13 Facts.slices_S100000x4_S100000x3_0_0 p k]
  exact lt_of_all_range _ 1000 (by decide) _ _ _ l13 u13 (ix2 p k)

variable (h : fn (F := Ideal) a0 a1 a2 a3 a4 a5 a6 a7 a8 a9 a10 a11 a12 a13 a14 a15 a16 = fun _ => 1#1)
include h

theorem fin_a3 : ∀ i, ∃ x : ℝ, a3 i = (x : EReal) := (pre_decoded a0 a1 a2 a3 a4 a5 a6 a7 a8 a9 a10 a11 a12 a13 a14 a15 a16 h).1.1
theorem fin_a4 : ∀ i, ∃ x : ℝ, a4 i = (x : EReal) := (pre_decoded a0 a1 a2 a3 a4 a5 a6 a7 a8 a9 a10 a11 a12 a13 a14 a15 a16 h).1.2.1
theorem fin_a5 : ∀ i, ∃ x : ℝ, a5 i = (x : EReal) := (pre_decoded a0 a1 a2 a3 a4 a5 a6 a7 a8 a9 a10 a11 a12 a13 a14 a15 a16 h).1.2.2.1
theorem fin_a6 : ∀ i, ∃ x : ℝ, a6 i = (x : EReal) := (pre_decoded a0 a1 a2 a3 a4 a5 a6 a7 a8 a9 a10 a11 a12 a13 a14 a15 a16 h).1.2.2.2.1
theorem fin_a7 : ∀ i, ∃ x : ℝ, a7 i = (x : EReal) := (pre_decoded a0 a1 a2 a3 a4 a5 a6 a7 a8 a9 a10 a11 a12 a13 a14 a15 a16 h).1.2.2.2.2.1
theorem fin_a8 : ∀ i, ∃ x : ℝ, a8 i = (x : EReal) := (pre_decoded a0 a1 a2 a3 a4 a5 a6 a7 a8 a9 a10 a11 a12 a13 a14 a15 a16 h).1.2.2.2.2.2.1
theorem fin_a9 : ∀ i, ∃ x : ℝ, a9 i = (x : EReal) := (pre_decoded a0 a1 a2 a3 a4 a5 a6 a7 a8 a9 a10 a11 a12 a13 a14 a15 a16 h).1.2.2.2.2.2.2.1
theorem fin_a10 : ∀ i, ∃ x : ℝ, a10 i = (x : EReal) := (pre_decoded a0 a1 a2 a3 a4 a5 a6 a7 a8 a9 a10 a11 a12 a13 a14 a15 a16 h).1.2.2.2.2.2.2.2
theorem rng_a11 : ∀ i, (a11 i).toNat < 4000 := (pre_decoded a0 a1 a2 a3 a4 a5 a6 a7 a8 a9 a10 a11 a12 a13 a14 a15 a16 h).2.1
theorem rng_a12 : ∀ i, (a12 i).toNat < 4000 := (pre_decoded a0 a1 a2 a3 a4 a5 a6 a7 a8 a9 a10 a11 a12 a13 a14 a15 a16 h).2.2.1
theorem rng_a13 : ∀ (p : Fin 100000) (k : Fin 3), (a13 (ix2 p ⟨k.val, by omega⟩)).toNat < 1000 :=
  (pre_decoded a0 a1 a2 a3 a4 a5 a6 a7 a8 a9 a10 a11 a12 a13 a14 a15 a16 h).2.2.2

end decode

end Cert.Bridge

end
-- ==== Proof.Br.PreW0.lean ====
/-
  The precondition at the launch contents: what "the printed predicate is all ones on every device" says of the
  arrays each gather-mean region's value is a function of — the tables' entries are real, the index words in range.
-/
import proofs.«423063_j64879775973997_3_alg».proof.Defs
import proofs.«423063_j64879775973997_3_alg».proof.Proof.KI.Fold
import proofs.«423063_j64879775973997_3_alg».proof.Proof.Br.PreFacts

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

variable [Cert.Pre_finite_inputs.Facts]
variable (m : (ℓ : Loc nD τ sig) → Buf (Elt Ideal) ℓ) (ρ : Dev nD → PrngReg) (c : Dev nD)

/-- The launch contents of a buffer are the launch memory's. -/
theorem W0_eq (b : Ref sig .tc) : W0 m ρ c (Proc.devRef .tc b) = m ((c.tc : Thread nD τ).loc b) := rfl

variable (h : Cert.Pre_KernelIdeal m)
include h

theorem pre_fin_arg5 : ∀ i, ∃ x : ℝ, (W0 m ρ c (Proc.devRef .tc main_arg5) : FVec Ideal S4000x64 .f32) i = (x : EReal) :=
  fin_a5 _ _ _ _ _ _ _ _ _ _ _ _ _ _ _ _ _ (h c)
theorem pre_fin_arg6 : ∀ i, ∃ x : ℝ, (W0 m ρ c (Proc.devRef .tc main_arg6) : FVec Ideal S4000x64 .f32) i = (x : EReal) :=
  fin_a6 _ _ _ _ _ _ _ _ _ _ _ _ _ _ _ _ _ (h c)
theorem pre_fin_arg7 : ∀ i, ∃ x : ℝ, (W0 m ρ c (Proc.devRef .tc main_arg7) : FVec Ideal S1000x64 .f32) i = (x : EReal) :=
  fin_a7 _ _ _ _ _ _ _ _ _ _ _ _ _ _ _ _ _ (h c)
theorem pre_rng_arg11 : ∀ i, ((W0 m ρ c (Proc.devRef .tc main_arg11) : IVec S50000x3 32) i).toNat < 4000 :=
  rng_a11 _ _ _ _ _ _ _ _ _ _ _ _ _ _ _ _ _ (h c)
theorem pre_rng_arg12 : ∀ i, ((W0 m ρ c (Proc.devRef .tc main_arg12) : IVec S20000x3 32) i).toNat < 4000 :=
  rng_a12 _ _ _ _ _ _ _ _ _ _ _ _ _ _ _ _ _ (h c)
theorem pre_rng_arg13 : ∀ (p : Fin 100000) (k : Fin 3),
    ((W0 m ρ c (Proc.devRef .tc main_arg13) : IVec S100000x4 32) (ix2 p ⟨k.val, by omega⟩)).toNat < 1000 :=
  rng_a13 _ _ _ _ _ _ _ _ _ _ _ _ _ _ _ _ _ (h c)
/-- The same for the slice of the first three columns, the form the third region's index words take. -/
theorem pre_rng_arg13_slice : ∀ i,
    (extractStridedSlice S100000x3 ![0, 0] (W0 m ρ c (Proc.devRef .tc main_arg13) : IVec S100000x4 32)
      slices_S100000x4_S100000x3_0_0 i).toNat < 1000 := fun i => by
  obtain ⟨p, k, rfl⟩ : ∃ (p : Fin 100000) (k : Fin 3), i = ix2 p k := ⟨i 0, i 1, eq_ix2 i⟩
  rw [slice_cols_apply _ slices_S100000x4_S100000x3_0_0 p k]
  exact pre_rng_arg13 m ρ c h p k

end Cert.Bridge

end
-- ==== Proof.Br.Mid.lean ====
import proofs.«423063_j64879775973997_3_alg».proof.Proof.Gen.KernelIdeal.Launch
import proofs.«423063_j64879775973997_3_alg».proof.Proof.Gen.ReferenceIdeal.Run
import Idealize.ShloMosaic.Lib.StableHlo.Run
import Idealize.ShloMosaic.PureOps.Ideal

/-! # The middle of the value proof: the host operations between the regions, kernel against reference

After its third region the kernel's @main runs a stretch of host operations that computes, from the user encodings,
the item encodings, the context means and the arguments, the batch's combined features. The
reference computes the same operations, in the same order, on its own encodings. This file reads both stretches
back as composed terms and identifies them: every operation, shape and dimension record of the one program is
the other program's copy of the same literal, so once the inputs are identified the two terms are equal by
unfolding. The kernel's names are always written qualified; the reference's are opened. -/

noncomputable section

namespace Cert.Bridge

open Idealize.ShloMosaic Idealize.ShloMosaic.TcCoe Idealize.SL.Sem Idealize.ShloMosaic.StableHlo
open Cert.ReferenceIdeal Cert.ReferenceIdeal.Gen

/-! ## The two concatenations, their operands as plain arguments

A concatenation packs its operands into a list of pairs of a shape and an array of that shape, and the side
condition on the shapes is stated over that list; with the operands as plain arguments of a named function, an
equation between two concatenations splits into the equations between their operands. -/

/-- The batch's context block: the three gathered context rows, then the item row. -/
def cat2 (a : (⟨S4096x3x64, .f32⟩ : BufTy).Contents (Elt Ideal)) (b : (⟨S4096x1x64, .f32⟩ : BufTy).Contents (Elt Ideal)) :
    (⟨S4096x4x64, .f32⟩ : BufTy).Contents (Elt Ideal) :=
  concatenate S4096x4x64 1 [⟨S4096x3x64, a⟩, ⟨S4096x1x64, b⟩] concatenates_S4096x3x64_S4096x1x64_S4096x4x64_d1

/-- The batch's combined features: the user row, the item row, then the context block. -/
def cat3 (u0 u1 : (⟨S4096x1x64, .f32⟩ : BufTy).Contents (Elt Ideal)) (u2 : (⟨S4096x4x64, .f32⟩ : BufTy).Contents (Elt Ideal)) :
    (⟨S4096x6x64, .f32⟩ : BufTy).Contents (Elt Ideal) :=
  concatenate S4096x6x64 1 [⟨S4096x1x64, u0⟩, ⟨S4096x1x64, u1⟩, ⟨S4096x4x64, u2⟩] concatenates_S4096x1x64_S4096x1x64_S4096x4x64_S4096x6x64_d1

theorem cat2_congr {a a' : (⟨S4096x3x64, .f32⟩ : BufTy).Contents (Elt Ideal)} {b b' : (⟨S4096x1x64, .f32⟩ : BufTy).Contents (Elt Ideal)}
    (ha : a = a') (hb : b = b') : cat2 a b = cat2 a' b' := by subst ha hb; rfl

theorem cat3_congr {u0 u0' u1 u1' : (⟨S4096x1x64, .f32⟩ : BufTy).Contents (Elt Ideal)} {u2 u2' : (⟨S4096x4x64, .f32⟩ : BufTy).Contents (Elt Ideal)}
    (h0 : u0 = u0') (h1 : u1 = u1') (h2 : u2 = u2') : cat3 u0 u1 u2 = cat3 u0' u1' u2' := by subst h0 h1 h2; rfl

/-! ## The combined features -/

set_option maxRecDepth 8192 in
set_option maxHeartbeats 16000000 in
/-- The combined features: with the user encodings, the item encodings and the arguments identified, and the
    context means `CM` such that the reference's gathered context means are `CM` gathered through the wrapped
    neighbour indices, the kernel's stretch leaves in its feature buffer the reference's combined-feature term:
    two rounds of neighbour gathers and segment sums over the same index arrays, the batch gathers, and the
    two concatenations, operand for operand. -/
theorem mid_comb (W : Valuation Cert.KernelIdeal.τ Cert.KernelIdeal.sig (Elt Ideal)) (V0 : Valuation τ sig (Elt Ideal))
    (ha0 : W (Proc.devRef .tc Cert.KernelIdeal.main_arg0) = V0 (Proc.devRef .tc main_arg0)) (ha1 : W (Proc.devRef .tc Cert.KernelIdeal.main_arg1) = V0 (Proc.devRef .tc main_arg1))
    (ha2 : W (Proc.devRef .tc Cert.KernelIdeal.main_arg2) = V0 (Proc.devRef .tc main_arg2)) (ha4 : W (Proc.devRef .tc Cert.KernelIdeal.main_arg4) = V0 (Proc.devRef .tc main_arg4))
    (ha7 : W (Proc.devRef .tc Cert.KernelIdeal.main_arg7) = V0 (Proc.devRef .tc main_arg7)) (ha13 : W (Proc.devRef .tc Cert.KernelIdeal.main_arg13) = V0 (Proc.devRef .tc main_arg13))
    (ha14 : W (Proc.devRef .tc Cert.KernelIdeal.main_arg14) = V0 (Proc.devRef .tc main_arg14)) (ha15 : W (Proc.devRef .tc Cert.KernelIdeal.main_arg15) = V0 (Proc.devRef .tc main_arg15))
    (ha16 : W (Proc.devRef .tc Cert.KernelIdeal.main_arg16) = V0 (Proc.devRef .tc main_arg16))
    (hu : W (Proc.devRef .tc Cert.KernelIdeal.main_v2) = Value.res_main_v11 V0)
    (hi : W (Proc.devRef .tc Cert.KernelIdeal.main_v6) = Value.res_main_v24 V0)
    (CM : FVec Ideal S100000x64 .f32) (hc : W (Proc.devRef .tc Cert.KernelIdeal.main_v19) = CM)
    (h79 : Value.res_main_v79 V0 = Host.gather gather_S100000x64_S500000x1_S500000x64_1_0_n_n_0_1_164 CM (broadcastInDim S500000x1 ![0] bcast_S500000_S500000x1_0 (select (cmpi .slt (V0 (Proc.devRef .tc main_arg16)) (broadcastInDim S500000 ![] bcast_S_S500000 (constantI S_ 32 0#32))) (addi (V0 (Proc.devRef .tc main_arg16)) (broadcastInDim S500000 ![] bcast_S_S500000 (constantI S_ 32 100000#32))) (V0 (Proc.devRef .tc main_arg16))))) :
    StableHlo.after (Cert.KernelIdeal.Gen.hostOps3 (F := Ideal)) W (Proc.devRef .tc Cert.KernelIdeal.main_v144) = Value.res_main_v171 V0 := by
  simp only [Cert.KernelIdeal.Gen.hostOps3]
  after_results_simp
  dsimp only [Matrix.cons_val]
  unfold Value.res_main_v171
  show cat3 _ _ _ = cat3 _ _ (cat2 _ _)
  refine cat3_congr ?_ ?_ ?_
  · -- the user row: the batch's gather of the twice-propagated user encodings
    after_results_simp
    rw [ha0, ha14, ha15, ha16, hu, hi, hc]
    unfold Value.res_main_v101 Value.res_main_v105
    rw [h79]
    rfl
  · -- the item row: the batch's gather of the twice-propagated item encodings
    after_results_simp
    rw [ha1, ha14, ha15, ha16, hu, hi, hc]
    unfold Value.res_main_v101 Value.res_main_v105
    rw [h79]
    rfl
  · -- the context block
    after_results_simp
    show cat2 _ _ = _
    refine cat2_congr ?_ ?_
    · after_results_simp
      rw [ha2, ha7, ha13]
      unfold Value.res_main_v32 Value.res_main_v31
      rfl
    · after_results_simp
      rw [ha2, ha4, ha13]
      unfold Value.res_main_v41 Value.res_main_v31
      rfl

end Cert.Bridge

end
-- ==== Proof.Br.Final.lean ====
/-
  The equivalence of the two idealized programs, assembled.

  The kernel program ends with its result array at the reshape of what the last launch (the FM decode) writes:
  index by index `0.5 * Σ_d ((Σ_f x[b,f,d])² − Σ_f x[b,f,d]²) + bias[b] + g`, of the combined features `x` and the bias
  the host operations before it computed. The reference computes the same formula by host reductions (`fmRef`).
  The combined features are the same host operations on both sides (two rounds of gather / segment-sum over the
  edges, then the batch gathers) of the three node encodings, and each node encoding — the mean of a node's own row
  and three rows of a small table — is computed by the kernel as `(own + counts · table) / 4` with the counts of a
  one-hot comparison, and by the reference as a gather and a sum: equal when every index lies in the table's range
  and the table's entries are finite.
-/
import proofs.«423063_j64879775973997_3_alg».proof.Defs
import proofs.«423063_j64879775973997_3_alg».proof.Proof.Gen.Pre_finite_inputs
import proofs.«423063_j64879775973997_3_alg».proof.Proof.KI.Run
import proofs.«423063_j64879775973997_3_alg».proof.Proof.Br.FmRef
import proofs.«423063_j64879775973997_3_alg».proof.Proof.Br.Enc0
import proofs.«423063_j64879775973997_3_alg».proof.Proof.Br.Enc1
import proofs.«423063_j64879775973997_3_alg».proof.Proof.Br.Enc2
import proofs.«423063_j64879775973997_3_alg».proof.Proof.Br.EncRefV
import proofs.«423063_j64879775973997_3_alg».proof.Proof.Br.PreW0
import proofs.«423063_j64879775973997_3_alg».proof.Proof.Br.Mid
import proofs.«423063_j64879775973997_3_alg».proof.Proof.Br.PreFacts
import proofs.«423063_j64879775973997_3_alg».proof.Proof.Gen.ReferenceIdeal.Run
import Idealize.ShloMosaic.Lib.StableHlo.Run

noncomputable section

namespace Cert.Bridge

open Idealize.ShloMosaic Idealize.ShloMosaic.TcCoe Idealize.SL.Sem
open Idealize.ShloMosaic.StableHlo (launchContents)

section RefSide
open Idealize.ShloMosaic.StableHlo
open Cert.ReferenceIdeal Cert.ReferenceIdeal.Facts₀ Cert.ReferenceIdeal.Facts Cert.ReferenceIdeal.Value

/-- The reference's first-order term: the two bias tables gathered at the batch's user and item numbers, added. -/
def refBias (V0 : Valuation τ sig (Elt Ideal)) : FVec Ideal S4096x1 .f32 :=
  (addf (Host.gather gather_S50000x1_S4096x1_S4096x1_1_0_n_n_0_1_11 (V0 (Proc.devRef .tc main_arg8)) (broadcastInDim S4096x1 ![0] bcast_S4096_S4096x1_0 (select (cmpi .slt (V0 (Proc.devRef .tc main_arg0)) (broadcastInDim S4096 ![] bcast_S_S4096 (constantI S_ 32 0#32))) (addi (V0 (Proc.devRef .tc main_arg0)) (broadcastInDim S4096 ![] bcast_S_S4096 (constantI S_ 32 50000#32))) (V0 (Proc.devRef .tc main_arg0))))) (Host.gather gather_S22000x1_S4096x1_S4096x1_1_0_n_n_0_1_11 (V0 (Proc.devRef .tc main_arg9)) (broadcastInDim S4096x1 ![0] bcast_S4096_S4096x1_0 (select (cmpi .slt (V0 (Proc.devRef .tc main_arg1)) (broadcastInDim S4096 ![] bcast_S_S4096 (constantI S_ 32 0#32))) (addi (V0 (Proc.devRef .tc main_arg1)) (broadcastInDim S4096 ![] bcast_S_S4096 (constantI S_ 32 22000#32))) (V0 (Proc.devRef .tc main_arg1))))))

/-- The reference's result as the reshape of its factorization-machine term of the combined features, the
    first-order term and the global bias. -/
def refOut (V0 : Valuation τ sig (Elt Ideal)) : FVec Ideal S4096 .f32 :=
  shapeCast _ (fmRef (res_main_v171 (F := Ideal) V0) (refBias V0) (V0 (Proc.devRef .tc main_arg10))) shapeCasts_S4096x1_S4096

/-- The term the reference's run ends with is that. -/
theorem ref_term (V0 : Valuation τ sig (Elt Ideal)) :
    shapeCast _ (addf (addf (mulf (broadcastInDim S4096x1 ![] bcast_S_S4096x1 (constant (F := Ideal) S_ .f32 0x3F000000#32)) (broadcastInDim S4096x1 ![0] bcast_S4096_S4096x1_0 (Host.reduceAdd (F := Ideal) (subf (mulf (res_main_v172 (F := Ideal) V0) (res_main_v172 (F := Ideal) V0)) (Host.reduceAdd (F := Ideal) (mulf (res_main_v171 (F := Ideal) V0) (res_main_v171 (F := Ideal) V0)) (constant (F := Ideal) S_ .f32 0x00000000#32) reducesTo_S4096x6x64_S4096x64_d1 h_S_)) (constant (F := Ideal) S_ .f32 0x00000000#32) reducesTo_S4096x64_S4096_d1 h_S_))) (addf (Host.gather gather_S50000x1_S4096x1_S4096x1_1_0_n_n_0_1_11 (V0 (Proc.devRef .tc main_arg8)) (broadcastInDim S4096x1 ![0] bcast_S4096_S4096x1_0 (select (cmpi .slt (V0 (Proc.devRef .tc main_arg0)) (broadcastInDim S4096 ![] bcast_S_S4096 (constantI S_ 32 0#32))) (addi (V0 (Proc.devRef .tc main_arg0)) (broadcastInDim S4096 ![] bcast_S_S4096 (constantI S_ 32 50000#32))) (V0 (Proc.devRef .tc main_arg0))))) (Host.gather gather_S22000x1_S4096x1_S4096x1_1_0_n_n_0_1_11 (V0 (Proc.devRef .tc main_arg9)) (broadcastInDim S4096x1 ![0] bcast_S4096_S4096x1_0 (select (cmpi .slt (V0 (Proc.devRef .tc main_arg1)) (broadcastInDim S4096 ![] bcast_S_S4096 (constantI S_ 32 0#32))) (addi (V0 (Proc.devRef .tc main_arg1)) (broadcastInDim S4096 ![] bcast_S_S4096 (constantI S_ 32 22000#32))) (V0 (Proc.devRef .tc main_arg1))))))) (broadcastInDim S4096x1 ![0, 1] bcast_S1x1_S4096x1_0_1 (V0 (Proc.devRef .tc main_arg10)))) shapeCasts_S4096x1_S4096
      = refOut V0 := by
  unfold refOut refBias fmRef res_main_v172
  rfl

set_option maxRecDepth 8192 in
set_option maxHeartbeats 4000000 in
/-- The first-order term: with the arguments identified, the kernel's stretch of host operations before its last
    region leaves in the bias buffer the reference's first-order term, operation for operation. -/
theorem mid_bias' (W : Valuation Cert.KernelIdeal.τ Cert.KernelIdeal.sig (Elt Ideal)) (V0 : Valuation τ sig (Elt Ideal))
    (ha0 : W (Proc.devRef .tc Cert.KernelIdeal.main_arg0) = V0 (Proc.devRef .tc main_arg0)) (ha1 : W (Proc.devRef .tc Cert.KernelIdeal.main_arg1) = V0 (Proc.devRef .tc main_arg1))
    (ha8 : W (Proc.devRef .tc Cert.KernelIdeal.main_arg8) = V0 (Proc.devRef .tc main_arg8)) (ha9 : W (Proc.devRef .tc Cert.KernelIdeal.main_arg9) = V0 (Proc.devRef .tc main_arg9)) :
    Idealize.ShloMosaic.StableHlo.after (Cert.KernelIdeal.Gen.hostOps3 (F := Ideal)) W (Proc.devRef .tc Cert.KernelIdeal.main_v141) = refBias V0 := by
  simp only [Cert.KernelIdeal.Gen.hostOps3]
  after_results_simp
  rw [ha0, ha1, ha8, ha9]
  rfl

end RefSide

section KerSide
open Cert.KernelIdeal Cert.KernelIdeal.Gen Cert.KernelIdeal.Hand Idealize.ShloMosaic.StableHlo

/-- The last stretch of host operations is the one reshape of the last region's output array. -/
theorem tail_out' (W : Valuation τ sig (Elt Ideal)) :
    after (hostOps4 (F := Ideal)) W (Proc.devRef .tc main_v146)
      = shapeCast _ (W (Proc.devRef .tc main_v145)) shapeCasts_S4096x1_S4096 := by
  after_results
  rfl

/-- The kernel program's result: the reshape of the factorization-machine term of the three arrays its last
    region finds. -/
theorem ker_term (m : (ℓ : Loc nD τ sig) → Buf (Elt Ideal) ℓ) (ρ : Dev nD → PrngReg) (c : Dev nD) :
    W15 (F := Ideal) m ρ c (Proc.devRef .tc main_v146)
      = shapeCast _ (fmRef (V13 m ρ c main_v144) (V13 m ρ c main_v141) (V13 m ρ c main_arg10)) shapeCasts_S4096x1_S4096 := by
  refine (tail_out' (W14 m ρ c)).trans ?_
  refine congrArg (fun x => shapeCast _ x shapeCasts_S4096x1_S4096) ?_
  exact (W14_arr m ρ c 3).trans (fm_eq (V13 m ρ) c)

end KerSide

/-- What the last region finds in its three input arrays is what the reference's factorization machine is applied
    to: the combined features, the first-order term, the global bias. -/
theorem mids (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.KernelIdeal.Hand.V13 m ρ c Cert.KernelIdeal.main_v144 = Cert.ReferenceIdeal.Value.res_main_v171 (F := Ideal) (launchContents m' c)
    ∧ Cert.KernelIdeal.Hand.V13 m ρ c Cert.KernelIdeal.main_v141 = refBias (launchContents m' c)
    ∧ Cert.KernelIdeal.Hand.V13 m ρ c Cert.KernelIdeal.main_arg10 = launchContents m' c (Proc.devRef .tc Cert.ReferenceIdeal.main_arg10) := by
  obtain ⟨e0, e1, e2, e3, e4, e5, e6, e7, e8, e9, e10, e11, e12, e13, e14, e15, e16⟩ := hagree
  -- the launch contents of the arguments agree
  have a0 : launchContents m' c (Proc.devRef .tc Cert.ReferenceIdeal.main_arg0) = Cert.KernelIdeal.Hand.W0 m ρ c (Proc.devRef .tc Cert.KernelIdeal.main_arg0) := e0
  have a1 : launchContents m' c (Proc.devRef .tc Cert.ReferenceIdeal.main_arg1) = Cert.KernelIdeal.Hand.W0 m ρ c (Proc.devRef .tc Cert.KernelIdeal.main_arg1) := e1
  have a2 : launchContents m' c (Proc.devRef .tc Cert.ReferenceIdeal.main_arg2) = Cert.KernelIdeal.Hand.W0 m ρ c (Proc.devRef .tc Cert.KernelIdeal.main_arg2) := e2
  have a3 : launchContents m' c (Proc.devRef .tc Cert.ReferenceIdeal.main_arg3) = Cert.KernelIdeal.Hand.W0 m ρ c (Proc.devRef .tc Cert.KernelIdeal.main_arg3) := e3
  have a4 : launchContents m' c (Proc.devRef .tc Cert.ReferenceIdeal.main_arg4) = Cert.KernelIdeal.Hand.W0 m ρ c (Proc.devRef .tc Cert.KernelIdeal.main_arg4) := e4
  have a5 : launchContents m' c (Proc.devRef .tc Cert.ReferenceIdeal.main_arg5) = Cert.KernelIdeal.Hand.W0 m ρ c (Proc.devRef .tc Cert.KernelIdeal.main_arg5) := e5
  have a6 : launchContents m' c (Proc.devRef .tc Cert.ReferenceIdeal.main_arg6) = Cert.KernelIdeal.Hand.W0 m ρ c (Proc.devRef .tc Cert.KernelIdeal.main_arg6) := e6
  have a7 : launchContents m' c (Proc.devRef .tc Cert.ReferenceIdeal.main_arg7) = Cert.KernelIdeal.Hand.W0 m ρ c (Proc.devRef .tc Cert.KernelIdeal.main_arg7) := e7
  have a8 : launchContents m' c (Proc.devRef .tc Cert.ReferenceIdeal.main_arg8) = Cert.KernelIdeal.Hand.W0 m ρ c (Proc.devRef .tc Cert.KernelIdeal.main_arg8) := e8
  have a9 : launchContents m' c (Proc.devRef .tc Cert.ReferenceIdeal.main_arg9) = Cert.KernelIdeal.Hand.W0 m ρ c (Proc.devRef .tc Cert.KernelIdeal.main_arg9) := e9
  have a10 : launchContents m' c (Proc.devRef .tc Cert.ReferenceIdeal.main_arg10) = Cert.KernelIdeal.Hand.W0 m ρ c (Proc.devRef .tc Cert.KernelIdeal.main_arg10) := e10
  have a11 : launchContents m' c (Proc.devRef .tc Cert.ReferenceIdeal.main_arg11) = Cert.KernelIdeal.Hand.W0 m ρ c (Proc.devRef .tc Cert.KernelIdeal.main_arg11) := e11
  have a12 : launchContents m' c (Proc.devRef .tc Cert.ReferenceIdeal.main_arg12) = Cert.KernelIdeal.Hand.W0 m ρ c (Proc.devRef .tc Cert.KernelIdeal.main_arg12) := e12
  have a13 : launchContents m' c (Proc.devRef .tc Cert.ReferenceIdeal.main_arg13) = Cert.KernelIdeal.Hand.W0 m ρ c (Proc.devRef .tc Cert.KernelIdeal.main_arg13) := e13
  have a14 : launchContents m' c (Proc.devRef .tc Cert.ReferenceIdeal.main_arg14) = Cert.KernelIdeal.Hand.W0 m ρ c (Proc.devRef .tc Cert.KernelIdeal.main_arg14) := e14
  have a15 : launchContents m' c (Proc.devRef .tc Cert.ReferenceIdeal.main_arg15) = Cert.KernelIdeal.Hand.W0 m ρ c (Proc.devRef .tc Cert.KernelIdeal.main_arg15) := e15
  have a16 : launchContents m' c (Proc.devRef .tc Cert.ReferenceIdeal.main_arg16) = Cert.KernelIdeal.Hand.W0 m ρ c (Proc.devRef .tc Cert.KernelIdeal.main_arg16) := e16
  -- the three encodings
  have hu : Cert.KernelIdeal.Hand.W12 m ρ c (Proc.devRef .tc Cert.KernelIdeal.main_v2) = Cert.ReferenceIdeal.Value.res_main_v11 (F := Ideal) (launchContents m' c) :=
    (Cert.KernelIdeal.Hand.W12_v2 m ρ c).trans ((Cert.KernelIdeal.Hand.W4_arr m ρ c 3).trans
      ((enc0_eq m ρ c (pre_fin_arg5 m ρ c hpre) (pre_rng_arg11 m ρ c hpre)).trans
        (res_main_v11_of (launchContents m' c) (own0 m ρ c) (idx0 m ρ c) (tab0 m ρ c) a3 a11 a5).symm))
  have hi : Cert.KernelIdeal.Hand.W12 m ρ c (Proc.devRef .tc Cert.KernelIdeal.main_v6) = Cert.ReferenceIdeal.Value.res_main_v24 (F := Ideal) (launchContents m' c) :=
    (Cert.KernelIdeal.Hand.W12_v6 m ρ c).trans ((Cert.KernelIdeal.Hand.W8_arr m ρ c 3).trans
      ((enc1_eq m ρ c (pre_fin_arg6 m ρ c hpre) (pre_rng_arg12 m ρ c hpre)).trans
        (res_main_v24_of (launchContents m' c) (Cert.KernelIdeal.Hand.W0 m ρ c (Proc.devRef .tc Cert.KernelIdeal.main_arg4)) (idx1 m ρ c) (tab1 m ρ c) a4 a12 a6).symm))
  have hc : Cert.KernelIdeal.Hand.W12 m ρ c (Proc.devRef .tc Cert.KernelIdeal.main_v19)
      = encRef2 (ownRef2 (Cert.KernelIdeal.Hand.W0 m ρ c (Proc.devRef .tc Cert.KernelIdeal.main_arg4))
            (selfRowRef (Cert.KernelIdeal.Hand.W0 m ρ c (Proc.devRef .tc Cert.KernelIdeal.main_arg13))))
          (nbrRowsRef (Cert.KernelIdeal.Hand.W0 m ρ c (Proc.devRef .tc Cert.KernelIdeal.main_arg13)))
          (Cert.KernelIdeal.Hand.W0 m ρ c (Proc.devRef .tc Cert.KernelIdeal.main_arg7)) :=
    (Cert.KernelIdeal.Hand.W12_arr m ρ c 3).trans (enc2_eq m ρ c (pre_fin_arg7 m ρ c hpre) (pre_rng_arg13 m ρ c hpre))
  refine ⟨?_, ?_, ?_⟩
  · exact mid_comb (Cert.KernelIdeal.Hand.W12 m ρ c) (launchContents m' c)
      ((Cert.KernelIdeal.Hand.W12_args m ρ c Cert.KernelIdeal.main_arg0 (by decide)).trans a0.symm)
      ((Cert.KernelIdeal.Hand.W12_args m ρ c Cert.KernelIdeal.main_arg1 (by decide)).trans a1.symm)
      ((Cert.KernelIdeal.Hand.W12_args m ρ c Cert.KernelIdeal.main_arg2 (by decide)).trans a2.symm)
      ((Cert.KernelIdeal.Hand.W12_args m ρ c Cert.KernelIdeal.main_arg4 (by decide)).trans a4.symm)
      ((Cert.KernelIdeal.Hand.W12_args m ρ c Cert.KernelIdeal.main_arg7 (by decide)).trans a7.symm)
      ((Cert.KernelIdeal.Hand.W12_args m ρ c Cert.KernelIdeal.main_arg13 (by decide)).trans a13.symm)
      ((Cert.KernelIdeal.Hand.W12_args m ρ c Cert.KernelIdeal.main_arg14 (by decide)).trans a14.symm)
      ((Cert.KernelIdeal.Hand.W12_args m ρ c Cert.KernelIdeal.main_arg15 (by decide)).trans a15.symm)
      ((Cert.KernelIdeal.Hand.W12_args m ρ c Cert.KernelIdeal.main_arg16 (by decide)).trans a16.symm)
      hu hi _ hc
      (res_main_v79_of (launchContents m' c) _ _ _ a4 a7 a13)
  · exact mid_bias' (Cert.KernelIdeal.Hand.W12 m ρ c) (launchContents m' c)
      ((Cert.KernelIdeal.Hand.W12_args m ρ c Cert.KernelIdeal.main_arg0 (by decide)).trans a0.symm)
      ((Cert.KernelIdeal.Hand.W12_args m ρ c Cert.KernelIdeal.main_arg1 (by decide)).trans a1.symm)
      ((Cert.KernelIdeal.Hand.W12_args m ρ c Cert.KernelIdeal.main_arg8 (by decide)).trans a8.symm)
      ((Cert.KernelIdeal.Hand.W12_args m ρ c Cert.KernelIdeal.main_arg9 (by decide)).trans a9.symm)
  · exact (Cert.KernelIdeal.Hand.W13_args m ρ c Cert.KernelIdeal.main_arg10 (by decide)).trans a10.symm

/-- THE KEY EQUATION: on every core the reference's result is the kernel program's. -/
theorem key (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hcomb : Cert.KernelIdeal.Hand.V13 m ρ c Cert.KernelIdeal.main_v144 = Cert.ReferenceIdeal.Value.res_main_v171 (F := Ideal) (launchContents m' c))
    (hbias : Cert.KernelIdeal.Hand.V13 m ρ c Cert.KernelIdeal.main_v141 = refBias (launchContents m' c))
    (hg : Cert.KernelIdeal.Hand.V13 m ρ c Cert.KernelIdeal.main_arg10 = launchContents m' c (Proc.devRef .tc Cert.ReferenceIdeal.main_arg10)) :
    refOut (launchContents m' c) = Cert.KernelIdeal.Hand.W15 (F := Ideal) m ρ c (Proc.devRef .tc Cert.KernelIdeal.main_v146) := by
  refine Eq.symm ((ker_term m ρ c).trans ?_)
  rw [hcomb, hbias, hg]
  rfl

/-- THE CLAIM: from memories agreeing on the arguments, with finite inputs and indices in range, both programs run
    and end with equal results and unchanged arguments. -/
theorem algebraic : Cert.algebraic_KernelIdeal_ReferenceIdeal := by
  intro m ρ m' ρ' hpre hagree
  refine ⟨fun c => Cert.KernelIdeal.Hand.W15 (F := Ideal) m ρ c (Proc.devRef .tc Cert.KernelIdeal.main_v146), ?_, ?_⟩
  · exact (θ_run Cert.KernelIdeal.defs _ _).mono (fun r h c =>
      ⟨h c _ (Cert.KernelIdeal.Hand.mem_uc Cert.KernelIdeal.main_v146 (by decide)),
      (h c _ (Cert.KernelIdeal.Hand.mem_uc Cert.KernelIdeal.main_arg0 (by decide))).trans (Cert.KernelIdeal.Hand.W15_main_arg0 m ρ c),
      (h c _ (Cert.KernelIdeal.Hand.mem_uc Cert.KernelIdeal.main_arg1 (by decide))).trans (Cert.KernelIdeal.Hand.W15_main_arg1 m ρ c),
      (h c _ (Cert.KernelIdeal.Hand.mem_uc Cert.KernelIdeal.main_arg2 (by decide))).trans (Cert.KernelIdeal.Hand.W15_main_arg2 m ρ c),
      (h c _ (Cert.KernelIdeal.Hand.mem_uc Cert.KernelIdeal.main_arg3 (by decide))).trans (Cert.KernelIdeal.Hand.W15_main_arg3 m ρ c),
      (h c _ (Cert.KernelIdeal.Hand.mem_uc Cert.KernelIdeal.main_arg4 (by decide))).trans (Cert.KernelIdeal.Hand.W15_main_arg4 m ρ c),
      (h c _ (Cert.KernelIdeal.Hand.mem_uc Cert.KernelIdeal.main_arg5 (by decide))).trans (Cert.KernelIdeal.Hand.W15_main_arg5 m ρ c),
      (h c _ (Cert.KernelIdeal.Hand.mem_uc Cert.KernelIdeal.main_arg6 (by decide))).trans (Cert.KernelIdeal.Hand.W15_main_arg6 m ρ c),
      (h c _ (Cert.KernelIdeal.Hand.mem_uc Cert.KernelIdeal.main_arg7 (by decide))).trans (Cert.KernelIdeal.Hand.W15_main_arg7 m ρ c),
      (h c _ (Cert.KernelIdeal.Hand.mem_uc Cert.KernelIdeal.main_arg8 (by decide))).trans (Cert.KernelIdeal.Hand.W15_main_arg8 m ρ c),
      (h c _ (Cert.KernelIdeal.Hand.mem_uc Cert.KernelIdeal.main_arg9 (by decide))).trans (Cert.KernelIdeal.Hand.W15_main_arg9 m ρ c),
      (h c _ (Cert.KernelIdeal.Hand.mem_uc Cert.KernelIdeal.main_arg10 (by decide))).trans (Cert.KernelIdeal.Hand.W15_main_arg10 m ρ c),
      (h c _ (Cert.KernelIdeal.Hand.mem_uc Cert.KernelIdeal.main_arg11 (by decide))).trans (Cert.KernelIdeal.Hand.W15_main_arg11 m ρ c),
      (h c _ (Cert.KernelIdeal.Hand.mem_uc Cert.KernelIdeal.main_arg12 (by decide))).trans (Cert.KernelIdeal.Hand.W15_main_arg12 m ρ c),
      (h c _ (Cert.KernelIdeal.Hand.mem_uc Cert.KernelIdeal.main_arg13 (by decide))).trans (Cert.KernelIdeal.Hand.W15_main_arg13 m ρ c),
      (h c _ (Cert.KernelIdeal.Hand.mem_uc Cert.KernelIdeal.main_arg14 (by decide))).trans (Cert.KernelIdeal.Hand.W15_main_arg14 m ρ c),
      (h c _ (Cert.KernelIdeal.Hand.mem_uc Cert.KernelIdeal.main_arg15 (by decide))).trans (Cert.KernelIdeal.Hand.W15_main_arg15 m ρ c),
      (h c _ (Cert.KernelIdeal.Hand.mem_uc Cert.KernelIdeal.main_arg16 (by decide))).trans (Cert.KernelIdeal.Hand.W15_main_arg16 m ρ c)⟩) (Cert.KernelIdeal.Hand.run_main (F := Ideal) m ρ)
  · exact (θ_run Cert.ReferenceIdeal.defs _ _).mono (fun r h c =>
      ⟨(h c).1.trans ((ref_term (launchContents m' c)).trans
          (key m ρ m' c (mids m ρ m' hpre c (hagree c)).1 (mids m ρ m' hpre c (hagree c)).2.1 (mids m ρ m' hpre c (hagree c)).2.2)),
        (h c).2⟩) (Cert.ReferenceIdeal.Value.run (F := Ideal) m' ρ')

end Cert.Bridge

end
-- ==== Proof.lean ====
/-
  The certificate's claim.

  Both printings of the kernel program run to the end and leave their arguments as launched: @main is eleven
  stretches of host operations around four pipelined launches; each launch's body stores, at every grid point, a
  pure function of the blocks it loaded, so the run is the fold of the host operations' results and the launches'
  write-backs over the launch memory (the same argument once, at any float instance). The reference is a plain
  host program; its run is its operations' composed term. The idealization changes nothing in the
  kernel's text. The two idealized programs end with equal results: `Cert.Bridge.algebraic`.
-/
import proofs.«423063_j64879775973997_3_alg».proof.Defs
import proofs.«423063_j64879775973997_3_alg».proof.Proof.Gen.Kernel
import proofs.«423063_j64879775973997_3_alg».proof.Proof.Gen.KernelIdeal
import proofs.«423063_j64879775973997_3_alg».proof.Proof.Gen.ReferenceIdeal
import proofs.«423063_j64879775973997_3_alg».proof.Proof.Gen.Pre_finite_inputs
import proofs.«423063_j64879775973997_3_alg».proof.Proof.Gen.ReferenceIdeal.Run
import proofs.«423063_j64879775973997_3_alg».proof.Proof.K.Run
import proofs.«423063_j64879775973997_3_alg».proof.Proof.KI.Run
import proofs.«423063_j64879775973997_3_alg».proof.Proof.Br.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => (θ_run Cert.ReferenceIdeal.defs _ _).mono (fun _ h c => (h c).2)
      (Cert.ReferenceIdeal.Value.run (F := Ideal) m ρ),
    trivial,
    Cert.Bridge.algebraic⟩

end Cert.Proof

end
